-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S1024x256 : Shape := ⟨2, ![1024, 256]⟩
abbrev S1024 : Shape := ⟨1, ![1024]⟩
abbrev S256x256 : Shape := ⟨2, ![256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x256 : S_.BroadcastsInDim S256x256 (![] : Fin 0 → Fin S256x256.rank)
  reducesTo_S256x256_S_d0_1 : S256x256.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 10000#32
  let main_v46 : IVec S2x320000 32 := broadcastInDim S2x320000 ![] bcast_S_S2x320000 main_c_17
  let main_v47 : IVec S2x320000 1 := cmpi .slt main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  main_v50

def fn_part1 {F : FTy → Type} [FloatOps F] (main_arg1 : IVec S2x320000 32) (main_arg5 : FVec F S1024x256 .f32) (main_arg6 : FVec F S1024 .f32) (main_arg7 : FVec F S1024 .f32) (main_arg8 : FVec F S256x256 .f32) (main_arg9 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x320000 32) (main_arg2 : FVec F S128x256 .f32) (main_arg3 : FVec F S256 .f32) (main_arg4 : FVec F S1024x256 .f32) (main_arg5 : FVec F S1024x256 .f32) (main_arg6 : FVec F S1024 .f32) (main_arg7 : FVec F S1024 .f32) (main_arg8 : FVec F S256x256 .f32) (main_arg9 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S1024x256 : Shape := ⟨2, ![1024, 256]⟩
abbrev S1024 : Shape := ⟨1, ![1024]⟩
abbrev S256x256 : Shape := ⟨2, ![256, 256]⟩
abbrev S256x1024 : Shape := ⟨2, ![256, 1024]⟩
abbrev S1x1024 : Shape := ⟨2, ![1, 1024]⟩
abbrev S1x256 : Shape := ⟨2, ![1, 256]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x1 : Shape := ⟨2, ![10000, 1]⟩
abbrev S10000x10000 : Shape := ⟨2, ![10000, 10000]⟩
abbrev S330000x2 : Shape := ⟨2, ![330000, 2]⟩
abbrev S10000x256 : Shape := ⟨2, ![10000, 256]⟩
abbrev S2000x128 : Shape := ⟨2, ![2000, 128]⟩
abbrev S2000x1 : Shape := ⟨2, ![2000, 1]⟩
abbrev S2000x256 : Shape := ⟨2, ![2000, 256]⟩
abbrev S400x10000 : Shape := ⟨2, ![400, 10000]⟩
abbrev S400x1 : Shape := ⟨2, ![400, 1]⟩
abbrev S400x256 : Shape := ⟨2, ![400, 256]⟩

abbrev nBuf : Space → Nat
  | .hbm => 65
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S1024x256, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S256x256, .f32⟩
  | .hbm, ⟨9, _⟩ => ⟨S256, .f32⟩
  | .hbm, ⟨10, _⟩ => ⟨S256x1024, .f32⟩
  | .hbm, ⟨11, _⟩ => ⟨S256x1024, .f32⟩
  | .hbm, ⟨12, _⟩ => ⟨S1x1024, .f32⟩
  | .hbm, ⟨13, _⟩ => ⟨S1x1024, .f32⟩
  | .hbm, ⟨14, _⟩ => ⟨S1x256, .f32⟩
  | .hbm, ⟨15, _⟩ => ⟨S128x256, .f32⟩
  | .hbm, ⟨16, _⟩ => ⟨S1x256, .f32⟩
  | .hbm, ⟨17, _⟩ => ⟨S10000, .i32⟩
  | .hbm, ⟨18, _⟩ => ⟨S1x320000, .i32⟩
  | .hbm, ⟨19, _⟩ => ⟨S320000, .i32⟩
  | .hbm, ⟨20, _⟩ => ⟨S330000, .i32⟩
  | .hbm, ⟨21, _⟩ => ⟨S1x320000, .i32⟩
  | .hbm, ⟨22, _⟩ => ⟨S320000, .i32⟩
  | .hbm, ⟨23, _⟩ => ⟨S330000, .i32⟩
  | .hbm, ⟨24, _⟩ => ⟨S_, .f32⟩
  | .hbm, ⟨25, _⟩ => ⟨S330000, .f32⟩
  | .hbm, ⟨26, _⟩ => ⟨S_, .f32⟩
  | .hbm, ⟨27, _⟩ => ⟨S10000, .f32⟩
  | .hbm, ⟨28, _⟩ => ⟨S330000x1, .i32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .i1⟩
  | .hbm, ⟨33, _⟩ => ⟨S10000, .f32⟩
  | .hbm, ⟨34, _⟩ => ⟨S_, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S10000x1, .f32⟩
  | .hbm, ⟨39, _⟩ => ⟨S_, .f32⟩
  | .hbm, ⟨40, _⟩ => ⟨S10000x10000, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S_, .i32⟩
  | .hbm, ⟨49, _⟩ => ⟨S330000, .i32⟩
  | .hbm, ⟨50, _⟩ => ⟨S330000, .i1⟩
  | .hbm, ⟨51, _⟩ => ⟨S_, .i32⟩
  | .hbm, ⟨52, _⟩ => ⟨S330000, .i32⟩
  | .hbm, ⟨53, _⟩ => ⟨S330000, .i32⟩
  | .hbm, ⟨54, _⟩ => ⟨S330000, .i32⟩
  | .hbm, ⟨55, _⟩ => ⟨S330000x1, .i32⟩
  | .hbm, ⟨56, _⟩ => ⟨S330000x1, .i32⟩
  | .hbm, ⟨57, _⟩ => ⟨S330000x2, .i32⟩
  | .hbm, ⟨58, _⟩ => ⟨S_, .f32⟩
  | .hbm, ⟨59, _⟩ => ⟨S330000, .f32⟩
  | .hbm, ⟨60, _⟩ => ⟨S10000x10000, .f32⟩
  | .hbm, ⟨61, _⟩ => ⟨S10000x10000, .bf16⟩
  | .hbm, ⟨62, _⟩ => ⟨S10000x256, .bf16⟩
  | .hbm, ⟨63, _⟩ => ⟨S1x256, .f32⟩
  | .hbm, ⟨64, _⟩ => ⟨S10000x256, .f32⟩
  | .local _ .vmem, ⟨0, _⟩ => ⟨S256x256, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S128x256, .f32⟩
  | .local _ .vmem, ⟨6, _⟩ => ⟨S1x256, .f32⟩
  | .local _ .vmem, ⟨7, _⟩ => ⟨S128x256, .f32⟩
  | .local _ .vmem, ⟨8, _⟩ => ⟨S1x256, .f32⟩
  | .local _ .vmem, ⟨9, _⟩ => ⟨S2000x128, .f32⟩
  | .local _ .vmem, ⟨10, _⟩ => ⟨S2000x128, .f32⟩
  | .local _ .vmem, ⟨11, _⟩ => ⟨S128x256, .f32⟩
  | .local _ .vmem, ⟨12, _⟩ => ⟨S1x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S400x10000, .bf16⟩
  | .local _ .vmem, ⟨18, _⟩ => ⟨S400x10000, .bf16⟩
  | .local _ .vmem, ⟨19, _⟩ => ⟨S10000x256, .bf16⟩
  | .local _ .vmem, ⟨20, _⟩ => ⟨S400x1, .f32⟩
  | .local _ .vmem, ⟨21, _⟩ => ⟨S400x1, .f32⟩
  | .local _ .vmem, ⟨22, _⟩ => ⟨S1x256, .f32⟩
  | .local _ .vmem, ⟨23, _⟩ => ⟨S400x256, .f32⟩
  | .local _ .vmem, ⟨24, _⟩ => ⟨S400x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S1024x256_S256x1024_1_0 : S1024x256.Transposes [1, 0] S256x1024
  shapeCasts_S1024_S1x1024 : S1024.ShapeCasts S1x1024
  shapeCasts_S256_S1x256 : S256.ShapeCasts S1x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  shapeCasts_S10000_S10000x1 : S10000.ShapeCasts S10000x1
  bcast_S_S10000x10000 : S_.BroadcastsInDim S10000x10000 (![] : Fin 0 → Fin S10000x10000.rank)
  concatenates_S330000x1_S330000x1_S330000x2_d1 : Shape.Concatenates [S330000x1, S330000x1] S330000x2 1
  inb_S2000x128_S2000x128_0_0 : ∀ a, (![0, 0] : Fin 2 → Nat) a + S2000x128.size a ≤ S2000x128.size a
  h_S2000x128 : 0 < S2000x128.numel
  shapeCasts_S128x256_S128x256 : S128x256.ShapeCasts S128x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x256 : S400x1.Broadcasts S400x256
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S256x256_S256x1024_S256x1024_1_0_0_1_n_n_wf : DotDims.WF S256x256 S256x1024 S256x1024 [1] [0] [0] [1] [] []
  dot_S128x256_S256x256_S128x256_1_0_0_1_n_n_wf : DotDims.WF S128x256 S256x256 S128x256 [1] [0] [0] [1] [] []
  dot_S1x256_S256x256_S1x256_1_0_0_1_n_n_wf : DotDims.WF S1x256 S256x256 S1x256 [1] [0] [0] [1] [] []
  scatter_S10000_S330000x1_S330000_n_0_0_1_wf : ScatterDims.WF S10000 S330000x1 S330000 [] [0] [0] 1
  scatter_S10000x10000_S330000x2_S330000_n_01_01_1_wf : ScatterDims.WF S10000x10000 S330000x2 S330000 [] [0, 1] [0, 1] 1
  dot_S2000x128_S128x256_S2000x256_1_0_0_1_n_n_wf : DotDims.WF S2000x128 S128x256 S2000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S10000x1.size a
  hwx1_3 : ∀ i : grid1.Coords, EltTy.bits .f32 = 32 ∨ (Rect.block (s := S10000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S10000x256.size a
  hwx1_4 : ∀ i : grid1.Coords, EltTy.bits .bf16 = 32 ∨ (Rect.block (s := S10000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x1.size a ≤ S10000x1.size a
  hwx2_2 : ∀ i : grid2.Coords, EltTy.bits .f32 = 32 ∨ (Rect.block (s := S10000x1) S400x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x256.size a ≤ S10000x256.size a
  hwx2_4 : ∀ i : grid2.Coords, EltTy.bits .f32 = 32 ∨ (Rect.block (s := S10000x256) S400x256.size (cc2_transform_4 i) (hinb2_4 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def scatter_S10000x10000_S330000x2_S330000_n_01_01_1 : ScatterDims S10000x10000 S330000x2 S330000 where
  updateWindowDims := []
  insertedWindowDims := [0, 1]
  scatterDimsToOperandDims := [0, 1]
  indexVectorDim := 1
  wf := scatter_S10000x10000_S330000x2_S330000_n_01_01_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg8) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S128x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S400x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x256 : Shape := ⟨2, ![128, 256]⟩
abbrev S256 : Shape := ⟨1, ![256]⟩
abbrev S1024x256 : Shape := ⟨2, ![1024, 256]⟩
abbrev S1024 : Shape := ⟨1, ![1024]⟩
abbrev S256x256 : Shape := ⟨2, ![256, 256]⟩
abbrev S10000x256 : Shape := ⟨2, ![10000, 256]⟩
abbrev S1x256 : Shape := ⟨2, ![1, 256]⟩
abbrev S256x1024 : Shape := ⟨2, ![256, 1024]⟩
abbrev S1x1024 : Shape := ⟨2, ![1, 1024]⟩
abbrev S_ : Shape := ⟨0, ![]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S330000x1 : Shape := ⟨2, ![330000, 1]⟩
abbrev S330000x256 : Shape := ⟨2, ![330000, 256]⟩

abbrev nBuf : Space → Nat
  | .hbm => 119
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x256, .f32⟩
  | .hbm, ⟨3, _⟩ => ⟨S256, .f32⟩
  | .hbm, ⟨4, _⟩ => ⟨S1024x256, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S256x256, .f32⟩
  | .hbm, ⟨9, _⟩ => ⟨S256, .f32⟩
  | .hbm, ⟨10, _⟩ => ⟨S10000x256, .f32⟩
  | .hbm, ⟨11, _⟩ => ⟨S1x256, .f32⟩
  | .hbm, ⟨12, _⟩ => ⟨S10000x256, .f32⟩
  | .hbm, ⟨13, _⟩ => ⟨S10000x256, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S_, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S10000x256, .f32⟩
  | .hbm, ⟨60, _⟩ => ⟨S10000, .i32⟩
  | .hbm, ⟨61, _⟩ => ⟨S1x320000, .i32⟩
  | .hbm, ⟨62, _⟩ => ⟨S320000, .i32⟩
  | .hbm, ⟨63, _⟩ => ⟨S330000, .i32⟩
  | .hbm, ⟨64, _⟩ => ⟨S1x320000, .i32⟩
  | .hbm, ⟨65, _⟩ => ⟨S320000, .i32⟩
  | .hbm, ⟨66, _⟩ => ⟨S330000, .i32⟩
  | .hbm, ⟨67, _⟩ => ⟨S_, .f32⟩
  | .hbm, ⟨68, _⟩ => ⟨S330000, .f32⟩
  | .hbm, ⟨69, _⟩ => ⟨S_, .f32⟩
  | .hbm, ⟨70, _⟩ => ⟨S10000, .f32⟩
  | .hbm, ⟨71, _⟩ => ⟨S330000x1, .i32⟩
  | .hbm, ⟨72, _⟩ => ⟨S10000, .f32⟩
  | .hbm, ⟨73, _⟩ => ⟨S_, .f32⟩
  | .hbm, ⟨74, _⟩ => ⟨S10000, .f32⟩
  | .hbm, ⟨75, _⟩ => ⟨S10000, .i1⟩
  | .hbm, ⟨76, _⟩ => ⟨S10000, .f32⟩
  | .hbm, ⟨77, _⟩ => ⟨S_, .f32⟩
  | .hbm, ⟨78, _⟩ => ⟨S_, .f32⟩
  | .hbm, ⟨79, _⟩ => ⟨S10000, .f32⟩
  | .hbm, ⟨80, _⟩ => ⟨S10000, .f32⟩
  | .hbm, ⟨81, _⟩ => ⟨S_, .i32⟩
  | .hbm, ⟨82, _⟩ => ⟨S330000, .i32⟩
  | .hbm, ⟨83, _⟩ => ⟨S330000, .i1⟩
  | .hbm, ⟨84, _⟩ => ⟨S_, .i32⟩
  | .hbm, ⟨85, _⟩ => ⟨S330000, .i32⟩
  | .hbm, ⟨86, _⟩ => ⟨S330000, .i32⟩
  | .hbm, ⟨87, _⟩ => ⟨S330000, .i32⟩
  | .hbm, ⟨88, _⟩ => ⟨S330000x1, .i32⟩
  | .hbm, ⟨89, _⟩ => ⟨S330000, .f32⟩
  | .hbm, ⟨90, _⟩ => ⟨S_, .i32⟩
  | .hbm, ⟨91, _⟩ => ⟨S330000, .i32⟩
  | .hbm, ⟨92, _⟩ => ⟨S330000, .i1⟩
  | .hbm, ⟨93, _⟩ => ⟨S_, .i32⟩
  | .hbm, ⟨94, _⟩ => ⟨S330000, .i32⟩
  | .hbm, ⟨95, _⟩ => ⟨S330000, .i32⟩
  | .hbm, ⟨96, _⟩ => ⟨S330000, .i32⟩
  | .hbm, ⟨97, _⟩ => ⟨S330000x1, .i32⟩
  | .hbm, ⟨98, _⟩ => ⟨S330000, .f32⟩
  | .hbm, ⟨99, _⟩ => ⟨S330000, .f32⟩
  | .hbm, ⟨100, _⟩ => ⟨S_, .i32⟩
  | .hbm, ⟨101, _⟩ => ⟨S330000, .i32⟩
  | .hbm, ⟨102, _⟩ => ⟨S330000, .i1⟩
  | .hbm, ⟨103, _⟩ => ⟨S_, .i32⟩
  | .hbm, ⟨104, _⟩ => ⟨S330000, .i32⟩
  | .hbm, ⟨105, _⟩ => ⟨S330000, .i32⟩
  | .hbm, ⟨106, _⟩ => ⟨S330000, .i32⟩
  | .hbm, ⟨107, _⟩ => ⟨S330000x1, .i32⟩
  | .hbm, ⟨108, _⟩ => ⟨S330000x256, .f32⟩
  | .hbm, ⟨109, _⟩ => ⟨S330000x1, .f32⟩
  | .hbm, ⟨110, _⟩ => ⟨S330000x256, .f32⟩
  | .hbm, ⟨111, _⟩ => ⟨S330000x256, .f32⟩
  | .hbm, ⟨112, _⟩ => ⟨S_, .f32⟩
  | .hbm, ⟨113, _⟩ => ⟨S10000x256, .f32⟩
  | .hbm, ⟨114, _⟩ => ⟨S330000x1, .i32⟩
  | .hbm, ⟨115, _⟩ => ⟨S10000x256, .f32⟩
  | .hbm, ⟨116, _⟩ => ⟨S1x256, .f32⟩
  | .hbm, ⟨117, _⟩ => ⟨S10000x256, .f32⟩
  | .hbm, ⟨118, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_call0_v0 : Ref sig .tc := ⟨.hbm, 78, rfl⟩
abbrev main_call0_v1 : Ref sig .tc := ⟨.hbm, 79, rfl⟩
abbrev main_v58 : Ref sig .tc := ⟨.hbm, 80, rfl⟩
abbrev main_c : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  bcast_S_S256x256 : S_.BroadcastsInDim S256x256 (![] : Fin 0 → Fin S256x256.rank)
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  dot_S10000x128_S128x256_S10000x256_1_0_0_1_n_n_wf : DotDims.WF S10000x128 S128x256 S10000x256 [1] [0] [0] [1] [] []
  dot_S256x256_S256x1024_S256x1024_1_0_0_1_n_n_wf : DotDims.WF S256x256 S256x1024 S256x1024 [1] [0] [0] [1] [] []
  dot_S10000x256_S256x256_S10000x256_1_0_0_1_n_n_wf : DotDims.WF S10000x256 S256x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf

class Facts : Prop extends Facts₀ where

variable [Facts]
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  The mathematics of the certificate, stated once over plain coordinates.

  A graph convolution whose weight is evolved by one LSTM step. Nodes 0 … 9999 carry feature rows x; an edge list of
  320000 (source, target) pairs is extended by one self loop per node. With W the evolved weight,
  h = x · Wp + bp, hw = h · W, deg the in-degree of a node counted over the extended list, and dinv = deg^(-1/2)
  (0 where deg is 0), the result row of node d is  bg + Σ over edges e into d of hw[src e] · dinv[src e] · dinv[d].

  The kernel computes the same rows as  bg + dinv[d] · Σ_s A[d, s] · ((x · (Wp · W) + bp · W)[s] · dinv[s]),
  A[d, s] the number of edges from s into d. The two agree over the reals: matrix multiplication is associative, and a
  sum over sources weighted by edge counts is the sum over the edges themselves.
-/
import Idealize.ShloMosaic.PureOps.Ideal
import proofs.«415961_j42803644072638_2_alg».proof.Proof.LibIndex

noncomputable section

namespace Cert.Spec

open Idealize.ShloMosaic

/-- A matrix and a vector of extended reals over plain coordinates. -/
abbrev Mat (a b : Nat) := Fin a → Fin b → EReal
abbrev Vec1 (a : Nat) := Fin a → EReal

/-- An extended real that is a real number. -/
def IsReal (v : EReal) : Prop := ∃ r : ℝ, v = (r : EReal)

/-! ## The evolved weight -/

/-- The four gate pre-activations, side by side: (iw · Wihᵀ + bih) + iw · Whhᵀ + bhh, a 256 × 1024 matrix. -/
def gates (iw : Mat 256 256) (Wih Whh : Mat 1024 256) (bih bhh : Vec1 1024) : Mat 256 1024 := fun r q =>
  (((∑ k, iw r k * Wih q k) + bih q) + ∑ k, iw r k * Whh q k) + bhh q

/-- Column j of gate block s (0 input, 1 forget, 2 cell, 3 output). -/
def gcol (s : Fin 4) (j : Fin 256) : Fin 1024 := ⟨256 * s.val + j.val, by omega⟩

/-- One LSTM step with hidden and cell state both iw: W = σ(o) · tanh(σ(f) · iw + σ(i) · tanh(g)). -/
def Wev (iw : Mat 256 256) (Wih Whh : Mat 1024 256) (bih bhh : Vec1 1024) : Mat 256 256 := fun r j =>
  Ideal.logistic (gates iw Wih Whh bih bhh r (gcol 3 j))
    * Ideal.tanh (Ideal.logistic (gates iw Wih Whh bih bhh r (gcol 1 j)) * iw r j
        + Ideal.logistic (gates iw Wih Whh bih bhh r (gcol 0 j)) * Ideal.tanh (gates iw Wih Whh bih bhh r (gcol 2 j)))

/-! ## The extended edge list, as 32-bit words -/

/-- Sources: the edge list's row 0, then node n for the self loop of node n. -/
def srcAll (ei : Fin 2 → Fin 320000 → BitVec 32) (e : Fin 330000) : BitVec 32 :=
  if h : e.val < 320000 then ei 0 ⟨e.val, h⟩ else BitVec.ofNat 32 (e.val - 320000)
/-- Targets: the edge list's row 1, then node n for the self loop of node n. -/
def dstAll (ei : Fin 2 → Fin 320000 → BitVec 32) (e : Fin 330000) : BitVec 32 :=
  if h : e.val < 320000 then ei 1 ⟨e.val, h⟩ else BitVec.ofNat 32 (e.val - 320000)

/-- A list of node words is in range when every word, read signed, is a node number. -/
def InRange (v : Fin 330000 → BitVec 32) : Prop := ∀ e, 0 ≤ (v e).toInt ∧ (v e).toInt < 10000

/-! ## Degrees -/

/-- In-degree of node d: the number of list entries whose target word, read signed, is d. -/
def deg (dst : Fin 330000 → BitVec 32) (d : Fin 10000) : EReal :=
  ∑ e ∈ Finset.univ.filter (fun e => (dst e).toInt = (d.val : Int)), (1 : EReal)

/-- deg^(-1/2), and 0 where the degree is not positive. -/
def dinv (dst : Fin 330000 → BitVec 32) (d : Fin 10000) : EReal :=
  if 0 < deg dst d then Ideal.rsqrt (deg dst d) else 0

/-- A[d, s]: the number of list entries from s into d. -/
def cnt (src dst : Fin 330000 → BitVec 32) : Mat 10000 10000 := fun d s =>
  ∑ e ∈ Finset.univ.filter (fun e => (dst e).toInt = (d.val : Int) ∧ (src e).toInt = (s.val : Int)), (1 : EReal)

/-! ## The kernel's arrangement -/

def WpW (Wp : Mat 128 256) (W : Mat 256 256) : Mat 128 256 := fun k h => ∑ j, Wp k j * W j h
def bW (bp : Vec1 256) (W : Mat 256 256) : Vec1 256 := fun h => ∑ j, bp j * W j h
/-- (x · (Wp · W) + bp · W)[s] · dv[s]. -/
def hws (x : Mat 10000 128) (Wp : Mat 128 256) (bp : Vec1 256) (W : Mat 256 256) (dv : Vec1 10000) : Mat 10000 256 :=
  fun s h => ((∑ k, x s k * WpW Wp W k h) + bW bp W h) * dv s
/-- (Σ_s A[d, s] · hws[s]) · dv[d] + bg. -/
def outK (x : Mat 10000 128) (Wp : Mat 128 256) (bp : Vec1 256) (W : Mat 256 256) (dv : Vec1 10000) (A : Mat 10000 10000)
    (bg : Vec1 256) : Mat 10000 256 :=
  fun d h => (∑ s, A d s * hws x Wp bp W dv s h) * dv d + bg h

/-! ## The reference's arrangement -/

/-- ((x · Wp + bp) · W). -/
def hw (x : Mat 10000 128) (Wp : Mat 128 256) (bp : Vec1 256) (W : Mat 256 256) : Mat 10000 256 :=
  fun n h => ∑ j, ((∑ k, x n k * Wp k j) + bp j) * W j h
/-- Σ over entries e into d of hw[src e] · (dv[src e] · dv[dst e]), plus bg; a word names its node by clamping. -/
def outR (x : Mat 10000 128) (Wp : Mat 128 256) (bp : Vec1 256) (W : Mat 256 256) (dv : Vec1 10000)
    (src dst : Fin 330000 → BitVec 32) (bg : Vec1 256) : Mat 10000 256 :=
  fun d h => (∑ e ∈ Finset.univ.filter (fun e => (dst e).toInt = (d.val : Int)),
      hw x Wp bp W (Cert.Gcn.crow 10000 (by decide) (src e)) h
        * (dv (Cert.Gcn.crow 10000 (by decide) (src e)) * dv (Cert.Gcn.crow 10000 (by decide) (dst e)))) + bg h

end Cert.Spec

end
-- ==== Proof.KArgs.lean ====
/-
  The kernel program's argument arrays as matrices and vectors over plain coordinates, the evolved weight of them,
  and the extended edge list.
-/
import proofs.«415961_j42803644072638_2_alg».proof.Proof.Gen.KernelIdeal.Frame
import proofs.«415961_j42803644072638_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (c : Dev nD)

/-- Node features x, 10000 × 128. -/
def aX : Spec.Mat 10000 128 := fun s k => m ((c : Thread nD τ).loc main_arg0) (ix2 s k)
/-- The edge list's words, 2 × 320000. -/
def aEi : Fin 2 → Fin 320000 → BitVec 32 := fun a e => m ((c : Thread nD τ).loc main_arg1) (ix2 a e)
/-- Projection weight Wp, 128 × 256, and bias bp. -/
def aWp : Spec.Mat 128 256 := fun k j => m ((c : Thread nD τ).loc main_arg2) (ix2 k j)
def aBp : Spec.Vec1 256 := fun j => m ((c : Thread nD τ).loc main_arg3) (ix1 j)
/-- LSTM weights, 1024 × 256 each, and biases. -/
def aWih : Spec.Mat 1024 256 := fun q k => m ((c : Thread nD τ).loc main_arg4) (ix2 q k)
def aWhh : Spec.Mat 1024 256 := fun q k => m ((c : Thread nD τ).loc main_arg5) (ix2 q k)
def aBih : Spec.Vec1 1024 := fun q => m ((c : Thread nD τ).loc main_arg6) (ix1 q)
def aBhh : Spec.Vec1 1024 := fun q => m ((c : Thread nD τ).loc main_arg7) (ix1 q)
/-- The initial weight, 256 × 256, and the convolution's bias. -/
def aIw : Spec.Mat 256 256 := fun r k => m ((c : Thread nD τ).loc main_arg8) (ix2 r k)
def aBg : Spec.Vec1 256 := fun j => m ((c : Thread nD τ).loc main_arg9) (ix1 j)
/-- The evolved weight. -/
def aW : Spec.Mat 256 256 := Spec.Wev (aIw m c) (aWih m c) (aWhh m c) (aBih m c) (aBhh m c)
/-- The extended edge list. -/
def aSrc : Fin 330000 → BitVec 32 := Spec.srcAll (aEi m c)
def aDst : Fin 330000 → BitVec 32 := Spec.dstAll (aEi m c)

end Cert.KernelIdeal.Gen

end
-- ==== Proof.K0.lean ====
/-
  The first region: one grid point, every window whole. It leaves Wp · W in its first result array and bp · W in
  its second, W the evolved weight of the region's inputs.

  The body's arithmetic is read at an index (three products into zero accumulators, two row broadcasts, four column
  blocks of the gates, the logistic and tanh steps), the region's input arrays are read back to the launch arguments
  (two transposes, three one-row reshapes), and the one block of each result window is its whole array.
-/
import proofs.«415961_j42803644072638_2_alg».proof.Proof.Gen.KernelIdeal.Frame
import proofs.«415961_j42803644072638_2_alg».proof.Proof.KArgs
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

/-! ### The gate products: 256 × 256 by 256 × 1024 -/

theorem lhs_gates_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs_gates_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem rhs_gates_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem rhs_gates_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- The product into a zero accumulator, at an index: the sum over the contracted coordinate. -/
theorem matmul_gates_apply (x : FVec Ideal S256x256 .bf16) (y : FVec Ideal S256x1024 .bf16) (p : Fin 256) (q : Fin 1024) :
    matmul (F := Ideal) dot_S256x256_S256x1024_S256x1024_1_0_0_1_n_n none x y (constant (F := Ideal) S256x1024 .f32 0x00000000#32) (ix2 p q)
      = ∑ k : Fin 256, x (ix2 p k) * y (ix2 k q) := by
  unfold matmul
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 p q) ((contrEquiv1 dot_S256x256_S256x1024_S256x1024_1_0_0_1_n_n 256 rfl rfl).symm k) = ix2 p k := funext fun a => Fin.ext (by
    match a with
    | ⟨0, _⟩ => exact lhs_gates_0 _ _
    | ⟨1, _⟩ => exact (lhs_gates_1 _ _).trans hk)
  have er : dot_S256x256_S256x1024_S256x1024_1_0_0_1_n_n.rhsIdx (ix2 p q) ((contrEquiv1 dot_S256x256_S256x1024_S256x1024_1_0_0_1_n_n 256 rfl rfl).symm k) = ix2 k q := funext fun a => Fin.ext (by
    match a with
    | ⟨0, _⟩ => exact (rhs_gates_0 _ _).trans hk
    | ⟨1, _⟩ => exact rhs_gates_1 _ _)
  rw [el, er]

/-! ### Wp · W: 128 × 256 by 256 × 256 -/

theorem lhs_proj_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhs_proj_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhs_proj_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhs_proj_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The product into a zero accumulator, at an index: the sum over the contracted coordinate. -/
theorem matmul_proj_apply (x : FVec Ideal S128x256 .bf16) (y : FVec Ideal S256x256 .bf16) (p : Fin 128) (q : Fin 256) :
    matmul (F := Ideal) dot_S128x256_S256x256_S128x256_1_0_0_1_n_n none x y (constant (F := Ideal) S128x256 .f32 0x00000000#32) (ix2 p q)
      = ∑ k : Fin 256, x (ix2 p k) * y (ix2 k q) := by
  unfold matmul
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 p q) ((contrEquiv1 dot_S128x256_S256x256_S128x256_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S128x256_S256x256_S128x256_1_0_0_1_n_n.rhsIdx (ix2 p q) ((contrEquiv1 dot_S128x256_S256x256_S128x256_1_0_0_1_n_n 256 rfl rfl).symm k) = ix2 k q := funext fun a => Fin.ext (by
    match a with
    | ⟨0, _⟩ => exact (rhs_proj_0 _ _).trans hk
    | ⟨1, _⟩ => exact rhs_proj_1 _ _)
  rw [el, er]

/-! ### bp · W: 1 × 256 by 256 × 256 -/

theorem lhs_bias_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_bias_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_bias_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_bias_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- The product into a zero accumulator, at an index: the sum over the contracted coordinate. -/
theorem matmul_bias_apply (x : FVec Ideal S1x256 .bf16) (y : FVec Ideal S256x256 .bf16) (p : Fin 1) (q : Fin 256) :
    matmul (F := Ideal) dot_S1x256_S256x256_S1x256_1_0_0_1_n_n none x y (constant (F := Ideal) S1x256 .f32 0x00000000#32) (ix2 p q)
      = ∑ k : Fin 256, x (ix2 p k) * y (ix2 k q) := by
  unfold matmul
  rw [Ideal.matmul_constant_zero_apply, ← Equiv.sum_comp (contrEquiv1 dot_S1x256_S256x256_S1x256_1_0_0_1_n_n 256 rfl rfl).symm]
  refine Finset.sum_congr rfl fun k _ => ?_
  have hk := contrEquiv1_symm_val dot_S1x256_S256x256_S1x256_1_0_0_1_n_n 256 rfl rfl k
  have el : dot_S1x256_S256x256_S1x256_1_0_0_1_n_n.lhsIdx (ix2 p q) ((contrEquiv1 dot_S1x256_S256x256_S1x256_1_0_0_1_n_n 256 rfl rfl).symm k) = ix2 p k := funext fun a => Fin.ext (by
    match a with
    | ⟨0, _⟩ => exact lhs_bias_0 _ _
    | ⟨1, _⟩ => exact (lhs_bias_1 _ _).trans hk)
  have er : dot_S1x256_S256x256_S1x256_1_0_0_1_n_n.rhsIdx (ix2 p q) ((contrEquiv1 dot_S1x256_S256x256_S1x256_1_0_0_1_n_n 256 rfl rfl).symm k) = ix2 k q := funext fun a => Fin.ext (by
    match a with
    | ⟨0, _⟩ => exact (rhs_bias_0 _ _).trans hk
    | ⟨1, _⟩ => exact rhs_bias_1 _ _)
  rw [el, er]

/-! ## The body's arithmetic at an index -/

/-- The gate pre-activations as the body computes them: two products into zero accumulators and two row broadcasts. -/
def bodyGates (v0 : FVec Ideal S256x256 .f32) (v2 v5 : FVec Ideal S256x1024 .f32) (v9 v15 : FVec Ideal S1x1024 .f32) :
    FVec Ideal S256x1024 .f32 :=
  addf (addf (addf
        (matmul (F := Ideal) dot_S256x256_S256x1024_S256x1024_1_0_0_1_n_n none (truncf .bf16 v0 bitsLt_bf16_f32)
          (truncf .bf16 (shapeCast S256x1024 v2 shapeCasts_S256x1024_S256x1024) bitsLt_bf16_f32)
          (constant (F := Ideal) S256x1024 .f32 0x00000000#32))
        (broadcastTo S256x1024 (shapeCast S1x1024 v9 shapeCasts_S1x1024_S1x1024) broadcasts_S1x1024_S256x1024))
      (matmul (F := Ideal) dot_S256x256_S256x1024_S256x1024_1_0_0_1_n_n none (truncf .bf16 v0 bitsLt_bf16_f32)
        (truncf .bf16 (shapeCast S256x1024 v5 shapeCasts_S256x1024_S256x1024) bitsLt_bf16_f32)
        (constant (F := Ideal) S256x1024 .f32 0x00000000#32)))
    (broadcastTo S256x1024 (shapeCast S1x1024 v15 shapeCasts_S1x1024_S1x1024) broadcasts_S1x1024_S256x1024)

/-- Row r, column q of the gates: ((Σ_k iw[r,k] · a[k,q] + bih[q]) + Σ_k iw[r,k] · b[k,q]) + bhh[q]. -/
theorem bodyGates_apply (v0 : FVec Ideal S256x256 .f32) (v2 v5 : FVec Ideal S256x1024 .f32) (v9 v15 : FVec Ideal S1x1024 .f32)
    (r : Fin 256) (q : Fin 1024) :
    bodyGates v0 v2 v5 v9 v15 (ix2 r q)
      = (((∑ k : Fin 256, v0 (ix2 r k) * v2 (ix2 k q)) + v9 (ix2 (0 : Fin 1) q))
          + ∑ k : Fin 256, v0 (ix2 r k) * v5 (ix2 k q)) + v15 (ix2 (0 : Fin 1) q) := by
  unfold bodyGates
  rw [addf_apply, addf_apply, addf_apply, matmul_gates_apply, matmul_gates_apply, broadcastTo_1b_ab_apply,
    broadcastTo_1b_ab_apply]
  simp only [shapeCast_self, truncf_apply]

/-- The evolved weight as the body computes it, at row r, column j, over the gates' four column blocks. -/
theorem k0_pay2_apply (v0 : FVec Ideal S256x256 .f32) (v2 v5 : FVec Ideal S256x1024 .f32) (v9 v15 : FVec Ideal S1x1024 .f32)
    (r j : Fin 256) :
    k0_pay2 (F := Ideal) v0 v2 v5 v9 v15 (ix2 r j)
      = Ideal.logistic (bodyGates v0 v2 v5 v9 v15 (ix2 r (Spec.gcol 3 j)))
          * Ideal.tanh (Ideal.logistic (bodyGates v0 v2 v5 v9 v15 (ix2 r (Spec.gcol 1 j))) * v0 (ix2 r j)
              + Ideal.logistic (bodyGates v0 v2 v5 v9 v15 (ix2 r (Spec.gcol 0 j)))
                  * Ideal.tanh (bodyGates v0 v2 v5 v9 v15 (ix2 r (Spec.gcol 2 j)))) := by
  show Ideal.logistic (extractStridedSlice S256x256 ![0, 768] (bodyGates v0 v2 v5 v9 v15) slices_S256x1024_o0_768_S256x256 (ix2 r j))
      * Ideal.tanh (Ideal.logistic (extractStridedSlice S256x256 ![0, 256] (bodyGates v0 v2 v5 v9 v15) slices_S256x1024_o0_256_S256x256 (ix2 r j)) * v0 (ix2 r j)
          + Ideal.logistic (extractStridedSlice S256x256 ![0, 0] (bodyGates v0 v2 v5 v9 v15) slices_S256x1024_o0_0_S256x256 (ix2 r j))
              * Ideal.tanh (extractStridedSlice S256x256 ![0, 512] (bodyGates v0 v2 v5 v9 v15) slices_S256x1024_o0_512_S256x256 (ix2 r j))) = _
  rw [slice2_axis1_eq, slice2_axis1_eq, slice2_axis1_eq, slice2_axis1_eq]
  rfl

/-- The first result: row k of Wp against column h of the evolved weight. -/
theorem k0_pay4_apply (v0 : FVec Ideal S256x256 .f32) (v2 v5 : FVec Ideal S256x1024 .f32) (v9 v15 : FVec Ideal S1x1024 .f32)
    (v33 : FVec Ideal S128x256 .f32) (k : Fin 128) (h : Fin 256) :
    k0_pay4 (F := Ideal) v0 v2 v5 v9 v15 v33 (ix2 k h)
      = ∑ j : Fin 256, v33 (ix2 k j) * k0_pay2 (F := Ideal) v0 v2 v5 v9 v15 (ix2 j h) := by
  unfold k0_pay4
  exact matmul_proj_apply _ _ k h

/-- The second result: the one row of bp against column h of the evolved weight. -/
theorem k0_pay1_apply (v32 : FVec Ideal S256x256 .bf16) (v37 : FVec Ideal S1x256 .bf16) (h : Fin 256) :
    k0_pay1 (F := Ideal) v32 v37 (ix2 (0 : Fin 1) h) = ∑ j : Fin 256, v37 (ix2 (0 : Fin 1) j) * v32 (ix2 j h) := by
  unfold k0_pay1
  exact matmul_bias_apply _ _ 0 h

/-- The bias row passes through its cast and its change of format unchanged. -/
theorem k0_pay3_eq (v35 : FVec Ideal S1x256 .f32) : k0_pay3 (F := Ideal) v35 = v35 := by
  unfold k0_pay3
  funext i
  show shapeCast S1x256 v35 shapeCasts_S1x256_S1x256 i = v35 i
  rw [shapeCast_self]

/-! ## The body's arithmetic is the specification's, once its inputs are read as the specification's matrices -/

theorem bodyGates_eq_spec (v0 : FVec Ideal S256x256 .f32) (v2 v5 : FVec Ideal S256x1024 .f32) (v9 v15 : FVec Ideal S1x1024 .f32)
    (iw : Spec.Mat 256 256) (Wih Whh : Spec.Mat 1024 256) (bih bhh : Spec.Vec1 1024)
    (h0 : ∀ r k, v0 (ix2 r k) = iw r k) (h2 : ∀ k q, v2 (ix2 k q) = Wih q k) (h5 : ∀ k q, v5 (ix2 k q) = Whh q k)
    (h9 : ∀ q, v9 (ix2 (0 : Fin 1) q) = bih q) (h15 : ∀ q, v15 (ix2 (0 : Fin 1) q) = bhh q) (r : Fin 256) (q : Fin 1024) :
    bodyGates v0 v2 v5 v9 v15 (ix2 r q) = Spec.gates iw Wih Whh bih bhh r q := by
  rw [bodyGates_apply]
  unfold Spec.gates
  simp only [h0, h2, h5, h9, h15]

theorem k0_pay2_eq_spec (v0 : FVec Ideal S256x256 .f32) (v2 v5 : FVec Ideal S256x1024 .f32) (v9 v15 : FVec Ideal S1x1024 .f32)
    (iw : Spec.Mat 256 256) (Wih Whh : Spec.Mat 1024 256) (bih bhh : Spec.Vec1 1024)
    (h0 : ∀ r k, v0 (ix2 r k) = iw r k) (h2 : ∀ k q, v2 (ix2 k q) = Wih q k) (h5 : ∀ k q, v5 (ix2 k q) = Whh q k)
    (h9 : ∀ q, v9 (ix2 (0 : Fin 1) q) = bih q) (h15 : ∀ q, v15 (ix2 (0 : Fin 1) q) = bhh q) (r j : Fin 256) :
    k0_pay2 (F := Ideal) v0 v2 v5 v9 v15 (ix2 r j) = Spec.Wev iw Wih Whh bih bhh r j := by
  rw [k0_pay2_apply]
  unfold Spec.Wev
  simp only [bodyGates_eq_spec v0 v2 v5 v9 v15 iw Wih Whh bih bhh h0 h2 h5 h9 h15, h0]

theorem k0_pay4_eq_spec (v0 : FVec Ideal S256x256 .f32) (v2 v5 : FVec Ideal S256x1024 .f32) (v9 v15 : FVec Ideal S1x1024 .f32)
    (iw : Spec.Mat 256 256) (Wih Whh : Spec.Mat 1024 256) (bih bhh : Spec.Vec1 1024)
    (h0 : ∀ r k, v0 (ix2 r k) = iw r k) (h2 : ∀ k q, v2 (ix2 k q) = Wih q k) (h5 : ∀ k q, v5 (ix2 k q) = Whh q k)
    (h9 : ∀ q, v9 (ix2 (0 : Fin 1) q) = bih q) (h15 : ∀ q, v15 (ix2 (0 : Fin 1) q) = bhh q)
    (v33 : FVec Ideal S128x256 .f32) (Wp : Spec.Mat 128 256) (h33 : ∀ k j, v33 (ix2 k j) = Wp k j) (k : Fin 128) (h : Fin 256) :
    k0_pay4 (F := Ideal) v0 v2 v5 v9 v15 v33 (ix2 k h) = Spec.WpW Wp (Spec.Wev iw Wih Whh bih bhh) k h := by
  rw [k0_pay4_apply]
  unfold Spec.WpW
  simp only [k0_pay2_eq_spec v0 v2 v5 v9 v15 iw Wih Whh bih bhh h0 h2 h5 h9 h15, h33]

theorem k0_pay1_eq_spec (v0 : FVec Ideal S256x256 .f32) (v2 v5 : FVec Ideal S256x1024 .f32) (v9 v15 : FVec Ideal S1x1024 .f32)
    (iw : Spec.Mat 256 256) (Wih Whh : Spec.Mat 1024 256) (bih bhh : Spec.Vec1 1024)
    (h0 : ∀ r k, v0 (ix2 r k) = iw r k) (h2 : ∀ k q, v2 (ix2 k q) = Wih q k) (h5 : ∀ k q, v5 (ix2 k q) = Whh q k)
    (h9 : ∀ q, v9 (ix2 (0 : Fin 1) q) = bih q) (h15 : ∀ q, v15 (ix2 (0 : Fin 1) q) = bhh q)
    (v35 : FVec Ideal S1x256 .f32) (bp : Spec.Vec1 256) (h35 : ∀ j, v35 (ix2 (0 : Fin 1) j) = bp j) (h : Fin 256) :
    k0_pay1 (F := Ideal) (k0_pay2 (F := Ideal) v0 v2 v5 v9 v15) (k0_pay3 (F := Ideal) v35) (ix2 (0 : Fin 1) h)
      = Spec.bW bp (Spec.Wev iw Wih Whh bih bhh) h := by
  rw [k0_pay1_apply, k0_pay3_eq]
  unfold Spec.bW
  simp only [k0_pay2_eq_spec v0 v2 v5 v9 v15 iw Wih Whh bih bhh h0 h2 h5 h9 h15, h35]

variable (m : (ℓ : Loc nD τ sig) → Buf (Elt Ideal) ℓ) (ρ : Dev nD → PrngReg) (c : Dev nD)

/-! ## What the region finds in its input arrays

The initial weight and Wp are launch arguments no host operation writes; the two LSTM weights arrive transposed, the
three bias vectors as one-row matrices. -/

theorem entry_iw : V1 m ρ c main_arg8 = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_wp : V1 m ρ c main_arg2 = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_wihT (k : Fin 256) (q : Fin 1024) :
    (V1 m ρ c main_v0 : S256x1024.Idx → EReal) (ix2 k q) = aWih m c q k := by
  have e : (V1 m ρ c main_v0 : S256x1024.Idx → EReal)
      = transpose S256x1024 [1, 0] (m ((c : Thread nD τ).loc main_arg4) : S1024x256.Idx → EReal) transposes_S1024x256_S256x1024_1_0 := by
    show StableHlo.after hostOps0 (W0 m ρ c) (Proc.devRef .tc main_v0) = _
    after_results
  rw [e, transpose_ix2_apply]
  rfl

theorem entry_whhT (k : Fin 256) (q : Fin 1024) :
    (V1 m ρ c main_v1 : S256x1024.Idx → EReal) (ix2 k q) = aWhh m c q k := by
  have e : (V1 m ρ c main_v1 : S256x1024.Idx → EReal)
      = transpose S256x1024 [1, 0] (m ((c : Thread nD τ).loc main_arg5) : S1024x256.Idx → EReal) transposes_S1024x256_S256x1024_1_0 := by
    show StableHlo.after hostOps0 (W0 m ρ c) (Proc.devRef .tc main_v1) = _
    after_results
  rw [e, transpose_ix2_apply]
  rfl

theorem entry_bih (u : Fin 1) (q : Fin 1024) :
    (V1 m ρ c main_v2 : S1x1024.Idx → EReal) (ix2 u q) = aBih m c q := by
  have e : (V1 m ρ c main_v2 : S1x1024.Idx → EReal)
      = shapeCast S1x1024 (m ((c : Thread nD τ).loc main_arg6) : S1024.Idx → EReal) shapeCasts_S1024_S1x1024 := by
    show StableHlo.after hostOps0 (W0 m ρ c) (Proc.devRef .tc main_v2) = _
    after_results
    rfl
  rw [e, shapeCast_a_1a_apply]
  rfl

theorem entry_bhh (u : Fin 1) (q : Fin 1024) :
    (V1 m ρ c main_v3 : S1x1024.Idx → EReal) (ix2 u q) = aBhh m c q := by
  have e : (V1 m ρ c main_v3 : S1x1024.Idx → EReal)
      = shapeCast S1x1024 (m ((c : Thread nD τ).loc main_arg7) : S1024.Idx → EReal) shapeCasts_S1024_S1x1024 := by
    show StableHlo.after hostOps0 (W0 m ρ c) (Proc.devRef .tc main_v3) = _
    after_results
    rfl
  rw [e, shapeCast_a_1a_apply]
  rfl

theorem entry_bp (u : Fin 1) (j : Fin 256) :
    (V1 m ρ c main_v4 : S1x256.Idx → EReal) (ix2 u j) = aBp m c j := by
  have e : (V1 m ρ c main_v4 : S1x256.Idx → EReal)
      = shapeCast S1x256 (m ((c : Thread nD τ).loc main_arg3) : S256.Idx → EReal) shapeCasts_S256_S1x256 := by
    show StableHlo.after hostOps0 (W0 m ρ c) (Proc.devRef .tc main_v4) = _
    after_results
    rfl
  rw [e, shapeCast_a_1a_apply]
  rfl

/-! ## From the one block to the arrays

The grid has one point and every window's block index there is zero, so each input block is its whole array and each
result block covers its whole array. -/

theorem hz00 : (![0, 0] : Fin 2 → Nat) = fun _ => 0 := funext fun a => by fin_cases a <;> rfl

/-- The printed index maps, decided over the grid: every window's block index is zero on both axes. -/
theorem blockIndex_zero : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) :=
  (by decide +kernel : ∀ t : Fin grid0.N, _)

/-! ### Each input block is its whole array -/

theorem iblk0_0_whole (t : Fin cfg0.N) : (iblk0 (V1 m ρ) c 0 t : Vec Ideal S256x256 .f32) = V1 m ρ c main_arg8 := by
  obtain ⟨i0, i1, i2, i3, i4, i5, i6, i7, i8⟩ := blockIndex_zero t
  funext x
  unfold iblk0
  rw [View.read_apply]
  show V1 m ρ c main_arg8 _ = V1 m ρ c main_arg8 x
  congr 1
  funext a
  apply Fin.ext
  match a with
  | ⟨0, _⟩ => show win0_0.index t (0 : Fin 2) * 256 + 1 * (x 0).val = (x 0).val; rw [i0 0]; omega
  | ⟨1, _⟩ => show win0_0.index t (1 : Fin 2) * 256 + 1 * (x 1).val = (x 1).val; rw [i0 1]; omega

theorem iblk0_1_whole (t : Fin cfg0.N) : (iblk0 (V1 m ρ) c 1 t : Vec Ideal S256x1024 .f32) = V1 m ρ c main_v0 := by
  obtain ⟨i0, i1, i2, i3, i4, i5, i6, i7, i8⟩ := blockIndex_zero t
  funext x
  unfold iblk0
  rw [View.read_apply]
  show V1 m ρ c main_v0 _ = V1 m ρ c main_v0 x
  congr 1
  funext a
  apply Fin.ext
  match a with
  | ⟨0, _⟩ => show win0_1.index t (0 : Fin 2) * 256 + 1 * (x 0).val = (x 0).val; rw [i1 0]; omega
  | ⟨1, _⟩ => show win0_1.index t (1 : Fin 2) * 1024 + 1 * (x 1).val = (x 1).val; rw [i1 1]; omega

theorem iblk0_2_whole (t : Fin cfg0.N) : (iblk0 (V1 m ρ) c 2 t : Vec Ideal S256x1024 .f32) = V1 m ρ c main_v1 := by
  obtain ⟨i0, i1, i2, i3, i4, i5, i6, i7, i8⟩ := blockIndex_zero t
  funext x
  unfold iblk0
  rw [View.read_apply]
  show V1 m ρ c main_v1 _ = V1 m ρ c main_v1 x
  congr 1
  funext a
  apply Fin.ext
  match a with
  | ⟨0, _⟩ => show win0_2.index t (0 : Fin 2) * 256 + 1 * (x 0).val = (x 0).val; rw [i2 0]; omega
  | ⟨1, _⟩ => show win0_2.index t (1 : Fin 2) * 1024 + 1 * (x 1).val = (x 1).val; rw [i2 1]; omega

theorem iblk0_3_whole (t : Fin cfg0.N) : (iblk0 (V1 m ρ) c 3 t : Vec Ideal S1x1024 .f32) = V1 m ρ c main_v2 := by
  obtain ⟨i0, i1, i2, i3, i4, i5, i6, i7, i8⟩ := blockIndex_zero t
  funext x
  unfold iblk0
  rw [View.read_apply]
  show V1 m ρ c main_v2 _ = V1 m ρ c main_v2 x
  congr 1
  funext a
  apply Fin.ext
  match a with
  | ⟨0, _⟩ => show win0_3.index t (0 : Fin 2) * 1 + 1 * (x 0).val = (x 0).val; rw [i3 0]; omega
  | ⟨1, _⟩ => show win0_3.index t (1 : Fin 2) * 1024 + 1 * (x 1).val = (x 1).val; rw [i3 1]; omega

theorem iblk0_4_whole (t : Fin cfg0.N) : (iblk0 (V1 m ρ) c 4 t : Vec Ideal S1x1024 .f32) = V1 m ρ c main_v3 := by
  obtain ⟨i0, i1, i2, i3, i4, i5, i6, i7, i8⟩ := blockIndex_zero t
  funext x
  unfold iblk0
  rw [View.read_apply]
  show V1 m ρ c main_v3 _ = V1 m ρ c main_v3 x
  congr 1
  funext a
  apply Fin.ext
  match a with
  | ⟨0, _⟩ => show win0_4.index t (0 : Fin 2) * 1 + 1 * (x 0).val = (x 0).val; rw [i4 0]; omega
  | ⟨1, _⟩ => show win0_4.index t (1 : Fin 2) * 1024 + 1 * (x 1).val = (x 1).val; rw [i4 1]; omega

theorem iblk0_5_whole (t : Fin cfg0.N) : (iblk0 (V1 m ρ) c 5 t : Vec Ideal S128x256 .f32) = V1 m ρ c main_arg2 := by
  obtain ⟨i0, i1, i2, i3, i4, i5, i6, i7, i8⟩ := blockIndex_zero t
  funext x
  unfold iblk0
  rw [View.read_apply]
  show V1 m ρ c main_arg2 _ = V1 m ρ c main_arg2 x
  congr 1
  funext a
  apply Fin.ext
  match a with
  | ⟨0, _⟩ => show win0_5.index t (0 : Fin 2) * 128 + 1 * (x 0).val = (x 0).val; rw [i5 0]; omega
  | ⟨1, _⟩ => show win0_5.index t (1 : Fin 2) * 256 + 1 * (x 1).val = (x 1).val; rw [i5 1]; omega

theorem iblk0_6_whole (t : Fin cfg0.N) : (iblk0 (V1 m ρ) c 6 t : Vec Ideal S1x256 .f32) = V1 m ρ c main_v4 := by
  obtain ⟨i0, i1, i2, i3, i4, i5, i6, i7, i8⟩ := blockIndex_zero t
  funext x
  unfold iblk0
  rw [View.read_apply]
  show V1 m ρ c main_v4 _ = V1 m ρ c main_v4 x
  congr 1
  funext a
  apply Fin.ext
  match a with
  | ⟨0, _⟩ => show win0_6.index t (0 : Fin 2) * 1 + 1 * (x 0).val = (x 0).val; rw [i6 0]; omega
  | ⟨1, _⟩ => show win0_6.index t (1 : Fin 2) * 256 + 1 * (x 1).val = (x 1).val; rw [i6 1]; omega

/-! ### The two result arrays -/

/-- The first result array as one function of the region's entry contents. -/
def wpwArr : S128x256.Idx → EReal :=
  k0_pay4 (F := Ideal) (V1 m ρ c main_arg8) (V1 m ρ c main_v0) (V1 m ρ c main_v1) (V1 m ρ c main_v2) (V1 m ρ c main_v3) (V1 m ρ c main_arg2)

/-- The second result array as one function of the region's entry contents. -/
def bwArr : S1x256.Idx → EReal :=
  k0_pay1 (F := Ideal) (k0_pay2 (F := Ideal) (V1 m ρ c main_arg8) (V1 m ρ c main_v0) (V1 m ρ c main_v1) (V1 m ρ c main_v2) (V1 m ρ c main_v3)) (k0_pay3 (F := Ideal) (V1 m ρ c main_v4))

/-- What the one point writes back through window 7 is the whole of that function. -/
theorem flushed0_7_eq (t : Fin cfg0.N) :
    (dat0 (V1 m ρ) c).flushed 7 t = ((cfg0.win 7).blk t).view.read (Elt Ideal) (wpwArr m ρ c) := by
  show (cfg0.win 7).cut (grid0.coords t) ((dat0 (V1 m ρ) c).after 7 t) = _
  rw [after0_7]
  unfold out0_7
  rw [View.canon_unit_zero hz00]
  simp only [View.ld_unit_zero (S := S256x256) hz00, View.ld_unit_zero (S := S256x1024) hz00, View.ld_unit_zero (S := S1x1024) hz00, View.ld_unit_zero (S := S128x256) hz00]
  rw [iblk0_0_whole, iblk0_1_whole, iblk0_2_whole, iblk0_3_whole, iblk0_4_whole, iblk0_5_whole]
  obtain ⟨i0, i1, i2, i3, i4, i5, i6, i7, i8⟩ := blockIndex_zero t
  have hz' : (fun a => win0_7.index t a * main_v5_0.ty.shape.size a) = fun _ => 0 :=
    funext fun a => by rw [i7 a, Nat.zero_mul]
  exact (Memref.read_access_unit_zero (Elt Ideal) main_v5_0 hz' (fun a => by rw [congrFun hz' a]; simp) (wpwArr m ρ c)).symm

/-- An index of the array is in the point's block iff each coordinate is in the block's range on its axis. -/
theorem mem_blk0_7 (t : Fin cfg0.N) (i : S128x256.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v5_0).slice (win0_7.rect t)).set ↔ _
  rw [View.set_slice_whole, Rect.mem_set_unit]
  exact Iff.rfl

/-- The one block is the whole array, so the array ends holding that function. -/
theorem arrAt0_7 : (dat0 (V1 m ρ) c).arrAt 7 cfg0.N = wpwArr m ρ c :=
  (dat0 (V1 m ρ) c).arrAt_eq_of_cover 7 (wpwArr m ρ c) (fun t _ => flushed0_7_eq m ρ c t) fun i => by
    refine ⟨t0_0, flush0_7 t0_0, ?_⟩
    rw [mem_blk0_7]
    obtain ⟨i0, i1, i2, i3, i4, i5, i6, i7, i8⟩ := blockIndex_zero t0_0
    intro a
    match a with
    | ⟨0, _⟩ => show win0_7.index t0_0 (0 : Fin 2) * 128 ≤ (i 0).val ∧ (i 0).val < win0_7.index t0_0 (0 : Fin 2) * 128 + 128; rw [i7 0]; have hi : (i 0 : Nat) < 128 := (i 0).isLt; omega
    | ⟨1, _⟩ => show win0_7.index t0_0 (1 : Fin 2) * 256 ≤ (i 1).val ∧ (i 1).val < win0_7.index t0_0 (1 : Fin 2) * 256 + 256; rw [i7 1]; have hi : (i 1 : Nat) < 256 := (i 1).isLt; omega

/-- What the one point writes back through window 8 is the whole of that function. -/
theorem flushed0_8_eq (t : Fin cfg0.N) :
    (dat0 (V1 m ρ) c).flushed 8 t = ((cfg0.win 8).blk t).view.read (Elt Ideal) (bwArr m ρ c) := by
  show (cfg0.win 8).cut (grid0.coords t) ((dat0 (V1 m ρ) c).after 8 t) = _
  rw [after0_8]
  unfold out0_8
  rw [View.canon_unit_zero hz00]
  simp only [View.ld_unit_zero (S := S256x256) hz00, View.ld_unit_zero (S := S256x1024) hz00, View.ld_unit_zero (S := S1x1024) hz00, View.ld_unit_zero (S := S1x256) hz00]
  rw [iblk0_0_whole, iblk0_1_whole, iblk0_2_whole, iblk0_3_whole, iblk0_4_whole, iblk0_6_whole]
  obtain ⟨i0, i1, i2, i3, i4, i5, i6, i7, i8⟩ := blockIndex_zero t
  have hz' : (fun a => win0_8.index t a * main_v5_1.ty.shape.size a) = fun _ => 0 :=
    funext fun a => by rw [i8 a, Nat.zero_mul]
  exact (Memref.read_access_unit_zero (Elt Ideal) main_v5_1 hz' (fun a => by rw [congrFun hz' a]; simp) (bwArr m ρ c)).symm

/-- An index of the array is in the point's block iff each coordinate is in the block's range on its axis. -/
theorem mem_blk0_8 (t : Fin cfg0.N) (i : S1x256.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v5_1).slice (win0_8.rect t)).set ↔ _
  rw [View.set_slice_whole, Rect.mem_set_unit]
  exact Iff.rfl

/-- The one block is the whole array, so the array ends holding that function. -/
theorem arrAt0_8 : (dat0 (V1 m ρ) c).arrAt 8 cfg0.N = bwArr m ρ c :=
  (dat0 (V1 m ρ) c).arrAt_eq_of_cover 8 (bwArr m ρ c) (fun t _ => flushed0_8_eq m ρ c t) fun i => by
    refine ⟨t0_0, flush0_8 t0_0, ?_⟩
    rw [mem_blk0_8]
    obtain ⟨i0, i1, i2, i3, i4, i5, i6, i7, i8⟩ := blockIndex_zero t0_0
    intro a
    match a with
    | ⟨0, _⟩ => show win0_8.index t0_0 (0 : Fin 2) * 1 ≤ (i 0).val ∧ (i 0).val < win0_8.index t0_0 (0 : Fin 2) * 1 + 1; rw [i8 0]; have hi : (i 0 : Nat) < 1 := (i 0).isLt; omega
    | ⟨1, _⟩ => show win0_8.index t0_0 (1 : Fin 2) * 256 ≤ (i 1).val ∧ (i 1).val < win0_8.index t0_0 (1 : Fin 2) * 256 + 256; rw [i8 1]; have hi : (i 1 : Nat) < 256 := (i 1).isLt; omega

/-! ## The two results -/

/-- After the first region its first result array is Wp · W. -/
theorem W2_WpW (k : Fin 128) (h : Fin 256) :
    W2 m ρ c (Proc.devRef .tc main_v5_0) (ix2 k h) = Spec.WpW (aWp m c) (aW m c) k h := by
  have e : (W2 m ρ c (Proc.devRef .tc main_v5_0) : S128x256.Idx → EReal) = wpwArr m ρ c :=
    (W2_arr m ρ c 7).trans (arrAt0_7 m ρ c)
  refine (congrFun e (ix2 k h)).trans ?_
  unfold wpwArr aW
  exact k0_pay4_eq_spec _ _ _ _ _ (aIw m c) (aWih m c) (aWhh m c) (aBih m c) (aBhh m c)
    (fun r k => by rw [entry_iw]; rfl) (fun k q => entry_wihT m ρ c k q) (fun k q => entry_whhT m ρ c k q)
    (fun q => entry_bih m ρ c 0 q) (fun q => entry_bhh m ρ c 0 q)
    _ (aWp m c) (fun k j => by rw [entry_wp]; rfl) k h

/-- After the first region its second result array, one row, is bp · W. -/
theorem W2_bW (h : Fin 256) :
    W2 m ρ c (Proc.devRef .tc main_v5_1) (ix2 0 h) = Spec.bW (aBp m c) (aW m c) h := by
  have e : (W2 m ρ c (Proc.devRef .tc main_v5_1) : S1x256.Idx → EReal) = bwArr m ρ c :=
    (W2_arr m ρ c 8).trans (arrAt0_8 m ρ c)
  refine (congrFun e (ix2 0 h)).trans ?_
  unfold bwArr aW
  exact k0_pay1_eq_spec _ _ _ _ _ (aIw m c) (aWih m c) (aWhh m c) (aBih m c) (aBhh m c)
    (fun r k => by rw [entry_iw]; rfl) (fun k q => entry_wihT m ρ c k q) (fun k q => entry_whhT m ρ c k q)
    (fun q => entry_bih m ρ c 0 q) (fun q => entry_bhh m ρ c 0 q)
    _ (aBp m c) (fun j => entry_bp m ρ c 0 j) h

end Cert.KernelIdeal.Gen

end
-- ==== Proof.K1.lean ====
/-
  The second region, at any entry contents V: five row blocks of 2000 nodes. Its result array holds, at node s and
  column h, ((x · WpW)[s, h] + bW[h]) · dinv[s], read off the arrays the region finds.
-/
import proofs.«415961_j42803644072638_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

/-! ## The block product at an index -/

/-- The row of the left operand is the result's row. -/
theorem lhs_k1_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The column of the left operand is the contracted coordinate. -/
theorem lhs_k1_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The row of the right operand is the contracted coordinate. -/
theorem rhs_k1_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The column of the right operand is the result's column. -/
theorem rhs_k1_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000 × 128 block times a 128 × 256 matrix into a zero accumulator, at row p and column h: the sum over the
    128 contracted coordinates of the products. -/
theorem k1_matmul_apply (l : FVec Ideal S2000x128 .bf16) (r : FVec Ideal S128x256 .bf16) (p : Fin 2000) (h : Fin 256) :
    matmul dot_S2000x128_S128x256_S2000x256_1_0_0_1_n_n none l r (constant (F := Ideal) S2000x256 .f32 0x00000000#32) (ix2 p h)
      = ∑ k : Fin 128, l (ix2 p k) * r (ix2 k h) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p h) ((contrEquiv1 dot_S2000x128_S128x256_S2000x256_1_0_0_1_n_n 128 rfl rfl).symm k) = ix2 p k := funext fun a => Fin.ext (by
    match a with
    | ⟨0, _⟩ => exact lhs_k1_0 _ _
    | ⟨1, _⟩ => exact (lhs_k1_1 _ _).trans hk)
  have er : dot_S2000x128_S128x256_S2000x256_1_0_0_1_n_n.rhsIdx (ix2 p h) ((contrEquiv1 dot_S2000x128_S128x256_S2000x256_1_0_0_1_n_n 128 rfl rfl).symm k) = ix2 k h := funext fun a => Fin.ext (by
    match a with
    | ⟨0, _⟩ => exact (rhs_k1_0 _ _).trans hk
    | ⟨1, _⟩ => exact rhs_k1_1 _ _)
  rw [el, er]

/-! ## The two broadcasts at an index -/

/-- A row [1, 256] spread over 2000 rows reads its column. -/
theorem k1_bcast_row_apply (v : FVec Ideal S1x256 .f32) (p : Fin 2000) (h : Fin 256) :
    broadcastTo S2000x256 v broadcasts_S1x256_S2000x256 (ix2 p h) = v (ix2 0 h) :=
  broadcastTo_apply v broadcasts_S1x256_S2000x256 (ix2 p h) (ix2 0 h) (fun a => match a with
    | ⟨0, _⟩ => by show (0 : Nat) = if (1 : Nat) = 1 then 0 else p.val; rw [if_pos rfl]
    | ⟨1, _⟩ => by show h.val = if (256 : Nat) = 1 then 0 else h.val; rw [if_neg (by decide)])

/-- A column [2000, 1] spread over 256 columns reads its row. -/
theorem k1_bcast_col_apply (v : FVec Ideal S2000x1 .f32) (p : Fin 2000) (h : Fin 256) :
    broadcastTo S2000x256 v broadcasts_S2000x1_S2000x256 (ix2 p h) = v (ix2 p 0) :=
  broadcastTo_apply v broadcasts_S2000x1_S2000x256 (ix2 p h) (ix2 p 0) (fun a => match a with
    | ⟨0, _⟩ => by show p.val = if (2000 : Nat) = 1 then 0 else p.val; rw [if_neg (by decide)]
    | ⟨1, _⟩ => by show (0 : Nat) = if (1 : Nat) = 1 then 0 else h.val; rw [if_pos rfl])

/-! ## The body's result at an index -/

/-- The body's stored block at row p and column h, from the four blocks it loads. -/
theorem k1_pay1_apply (x0 : Vec Ideal S2000x128 .f32) (x1 : Vec Ideal S128x256 .f32) (x2 : Vec Ideal S1x256 .f32)
    (x3 : Vec Ideal S2000x1 .f32) (p : Fin 2000) (h : Fin 256) :
    k1_pay1 (F := Ideal) x0 x1 x2 x3 (ix2 p h)
      = ((∑ k : Fin 128, x0 (ix2 p k) * x1 (ix2 k h)) + x2 (ix2 0 h)) * x3 (ix2 p 0) := by
  unfold k1_pay1
  rw [truncf_apply, mulf_apply, addf_apply, k1_matmul_apply, k1_bcast_row_apply, k1_bcast_col_apply]
  simp only [shapeCast_self, truncf_apply]

/-- The stored block at a block index j, against four whole arrays X, W, B, D of which the loaded blocks are the rows
    T · 2000 … T · 2000 + 1999 (x0, x3) or the whole (x1, x2): node s = T · 2000 + j₀, column h = j₁. -/
theorem k1_block_eq (x0 : Vec Ideal S2000x128 .f32) (x1 : Vec Ideal S128x256 .f32) (x2 : Vec Ideal S1x256 .f32)
    (x3 : Vec Ideal S2000x1 .f32) (X : Fin 10000 → Fin 128 → EReal) (W : Fin 128 → Fin 256 → EReal) (B : Fin 256 → EReal)
    (D : Fin 10000 → EReal) (j : S2000x256.Idx) (s : Fin 10000) (h : Fin 256) (T : Nat)
    (hs : s.val = T * 2000 + (j 0).val) (hh : h.val = (j 1).val)
    (e0 : ∀ (p : Fin 2000) (k : Fin 128) (s' : Fin 10000), s'.val = T * 2000 + p.val → x0 (ix2 p k) = X s' k)
    (e1 : ∀ (k : Fin 128) (h' : Fin 256), x1 (ix2 k h') = W k h')
    (e2 : ∀ h' : Fin 256, x2 (ix2 0 h') = B h')
    (e3 : ∀ (p : Fin 2000) (s' : Fin 10000), s'.val = T * 2000 + p.val → x3 (ix2 p 0) = D s') :
    k1_pay1 (F := Ideal) x0 x1 x2 x3 j = ((∑ k : Fin 128, X s k * W k h) + B h) * D s := by
  obtain ⟨p, q, rfl⟩ : ∃ (p : Fin 2000) (q : Fin 256), j = ix2 p q := ⟨j 0, j 1, eq_ix2 j⟩
  obtain rfl : q = h := Fin.ext hh.symm
  rw [k1_pay1_apply, e2, e3 p s hs, Finset.sum_congr rfl (fun k _ => by rw [e0 p k s hs, e1])]

variable (V : (c : Dev nD) → (b : Ref sig .tc) → Buf (Elt Ideal) ((c : Thread nD τ).loc b)) (c : Dev nD)

/-- The arrays the second region finds, and the one it leaves, as extended reals over plain coordinates. -/
def r1X (s : Fin 10000) (k : Fin 128) : EReal := V c main_arg0 (ix2 s k)
def r1WpW (k : Fin 128) (h : Fin 256) : EReal := V c main_v5_0 (ix2 k h)
def r1bW (h : Fin 256) : EReal := V c main_v5_1 (ix2 0 h)
def r1dv (s : Fin 10000) : EReal := V c main_v21 (ix2 s 0)
def r1Out (s : Fin 10000) (h : Fin 256) : EReal := (dat1 V c).arrAt 4 cfg1.N (ix2 s h)

/-! ## From the five row blocks to the array -/

/-- The zero offsets of an access to a whole staging buffer. -/
theorem k1_hz : (![0, 0] : Fin 2 → Nat) = fun _ => 0 := funext fun a => by fin_cases a <;> rfl

/-- The printed index maps over the five points: the node features, the dinv column and the result move by the point's
    row block; the folded weight and bias stay. -/
theorem k1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The feature block at point t is rows 2000 t … 2000 t + 1999 of x. -/
theorem iblk1_0_apply (t : Fin cfg1.N) (p : Fin 2000) (k : Fin 128) (s : Fin 10000) (hs : s.val = t.val * 2000 + p.val) :
    (iblk1 V c 0 t : Vec Ideal S2000x128 .f32) (ix2 p k) = r1X V c s k := by
  obtain ⟨e0, e1, -⟩ := k1_idx_facts t
  unfold iblk1 r1X
  rw [View.read_apply]
  show V c main_arg0 _ = V c main_arg0 _
  congr 1
  funext a
  apply Fin.ext
  match a with
  | ⟨0, _⟩ => show win1_0.index t (0 : Fin 2) * 2000 + 1 * p.val = s.val; rw [e0, hs]; omega
  | ⟨1, _⟩ => show win1_0.index t (1 : Fin 2) * 128 + 1 * k.val = k.val; rw [e1]; omega

/-- The folded weight's block at every point is the whole of it. -/
theorem iblk1_1_apply (t : Fin cfg1.N) (k : Fin 128) (h : Fin 256) :
    (iblk1 V c 1 t : Vec Ideal S128x256 .f32) (ix2 k h) = r1WpW V c k h := by
  obtain ⟨-, -, e0, e1, -⟩ := k1_idx_facts t
  unfold iblk1 r1WpW
  rw [View.read_apply]
  show V c main_v5_0 _ = V c main_v5_0 _
  congr 1
  funext a
  apply Fin.ext
  match a with
  | ⟨0, _⟩ => show win1_1.index t (0 : Fin 2) * 128 + 1 * k.val = k.val; rw [e0]; omega
  | ⟨1, _⟩ => show win1_1.index t (1 : Fin 2) * 256 + 1 * h.val = h.val; rw [e1]; omega

/-- The folded bias's block at every point is the whole row. -/
theorem iblk1_2_apply (t : Fin cfg1.N) (h : Fin 256) :
    (iblk1 V c 2 t : Vec Ideal S1x256 .f32) (ix2 0 h) = r1bW V c h := by
  obtain ⟨-, -, -, -, e0, e1, -⟩ := k1_idx_facts t
  unfold iblk1 r1bW
  rw [View.read_apply]
  show V c main_v5_1 _ = V c main_v5_1 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * h.val = h.val; rw [e1]; omega

/-- The dinv block at point t is rows 2000 t … 2000 t + 1999 of the column. -/
theorem iblk1_3_apply (t : Fin cfg1.N) (p : Fin 2000) (s : Fin 10000) (hs : s.val = t.val * 2000 + p.val) :
    (iblk1 V c 3 t : Vec Ideal S2000x1 .f32) (ix2 p 0) = r1dv V c s := by
  obtain ⟨-, -, -, -, -, -, e0, e1, -⟩ := k1_idx_facts t
  unfold iblk1 r1dv
  rw [View.read_apply]
  show V c main_v21 _ = V c main_v21 _
  congr 1
  funext a
  apply Fin.ext
  match a with
  | ⟨0, _⟩ => show win1_3.index t (0 : Fin 2) * 2000 + 1 * p.val = s.val; rw [e0, hs]; omega
  | ⟨1, _⟩ => show win1_3.index t (1 : Fin 2) * 1 + 1 * 0 = 0; rw [e1]

/-- What the result array ends holding, as one function of the arrays the region finds. -/
def r1G : S10000x256.Idx → EReal := fun i =>
  ((∑ k : Fin 128, r1X V c (i 0) k * r1WpW V c k (i 1)) + r1bW V c (i 1)) * r1dv V c (i 0)

/-- What point t writes back is block t of that function. -/
theorem flushed1_4_eq (t : Fin cfg1.N) :
    (dat1 V c).flushed 4 t = ((cfg1.win 4).blk t).view.read (Elt Ideal) (r1G V c) := by
  show (cfg1.win 4).cut (grid1.coords t) ((dat1 V c).after 4 t) = _
  rw [after1_4]
  unfold out1_4
  rw [View.canon_unit_zero k1_hz]
  simp only [View.ld_unit_zero (S := S2000x128) k1_hz, View.ld_unit_zero (S := S128x256) k1_hz,
    View.ld_unit_zero (S := S1x256) k1_hz, View.ld_unit_zero (S := S2000x1) k1_hz]
  obtain ⟨-, -, -, -, -, -, -, -, e0, e1⟩ := k1_idx_facts t
  funext j
  show k1_pay1 (F := Ideal) (iblk1 V c 0 t) (iblk1 V c 1 t) (iblk1 V c 2 t) (iblk1 V c 3 t) j
    = r1G V c (((cfg1.win 4).blk t).view.emb j)
  unfold r1G
  refine k1_block_eq _ _ _ _ (r1X V c) (r1WpW V c) (r1bW V c) (r1dv V c) j _ _ t.val ?_ ?_
    (iblk1_0_apply V c t) (iblk1_1_apply V c t) (iblk1_2_apply V c t) (iblk1_3_apply V c t)
  · show win1_4.index t (0 : Fin 2) * 2000 + 1 * (j 0).val = t.val * 2000 + (j 0).val
    rw [e0]; omega
  · show win1_4.index t (1 : Fin 2) * 256 + 1 * (j 1).val = (j 1).val
    rw [e1]; omega

/-- An index of the result array is in point t's block iff each coordinate is in the block's range on its axis. -/
theorem mem_blk1_4 (t : Fin cfg1.N) (i : S10000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v39).slice (win1_4.rect t)).set ↔ _
  rw [View.set_slice_whole, Rect.mem_set_unit]
  exact Iff.rfl

/-- The five blocks cover the array: node row r is in the block of point r / 2000. -/
theorem cover1_4_arr (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hN : cfg1.N = 5 := N_1
  obtain ⟨t, ht⟩ : ∃ t : Fin cfg1.N, t.val = (i 0).val / 2000 := ⟨⟨(i 0).val / 2000, by rw [hN]; omega⟩, rfl⟩
  obtain ⟨-, -, -, -, -, -, -, -, e0, e1⟩ := k1_idx_facts t
  refine ⟨t, flush1_4 t, ?_⟩
  rw [mem_blk1_4]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 256 ≤ (i 1).val ∧ (i 1).val < win1_4.index t (1 : Fin 2) * 256 + 256
    rw [e1]; omega

/-- So the result array ends holding that function. -/
theorem final1_4 : (dat1 V c).arrAt 4 cfg1.N = r1G V c :=
  (dat1 V c).arrAt_eq_of_cover 4 (r1G V c) (fun t _ => flushed1_4_eq V c t) cover1_4_arr

/-- What the second region leaves in its result array, index by index. -/
theorem region1_out (s : Fin 10000) (h : Fin 256) :
    r1Out V c s h = ((∑ k : Fin 128, r1X V c s k * r1WpW V c k h) + r1bW V c h) * r1dv V c s := by
  unfold r1Out
  rw [final1_4]
  rfl

end Cert.KernelIdeal.Gen

end
-- ==== Proof.K2.lean ====
/-
  The third region, at any entry contents V: twenty-five row blocks of 400 target nodes. Its result array holds, at
  node d and column h, (Σ_s A[d, s] · hws[s, h]) · dinv[d] + bg[h], read off the arrays the region finds.
-/
import proofs.«415961_j42803644072638_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

/-! ## The body's arithmetic at an index -/

/-- The zero offsets of a whole-buffer access. -/
theorem agg_zero_off : (![0, 0] : Fin 2 → Nat) = fun _ => 0 := funext fun a => by fin_cases a <;> rfl

/-- The product's operand indices: the left operand is read at (row of the result, contraction index), the right at
    (contraction index, column of the result). -/
theorem lhs_agg_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_agg_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_agg_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_agg_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The block product into a zero accumulator, at row p and column h: Σ_s a[p, s] · b[s, h]. -/
theorem agg_matmul_apply (a : FVec Ideal S400x10000 .bf16) (b : FVec Ideal S10000x256 .bf16) (p : Fin 400) (h : Fin 256) :
    matmul (F := Ideal) dot_S400x10000_S10000x256_S400x256_1_0_0_1_n_n none a b (constant (F := Ideal) S400x256 .f32 0x00000000#32) (ix2 p h)
      = ∑ s : Fin 10000, a (ix2 p s) * b (ix2 s h) := by
  simp only [matmul]
  rw [Ideal.matmul_constant_zero_apply, ← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 p h) ((ValueIdx.contrEquiv1 dot_S400x10000_S10000x256_S400x256_1_0_0_1_n_n 10000 rfl rfl).symm k) = ix2 p k := funext fun x => Fin.ext (by
    match x with
    | ⟨0, _⟩ => exact lhs_agg_0 _ _
    | ⟨1, _⟩ => exact (lhs_agg_1 _ _).trans hk)
  have er : dot_S400x10000_S10000x256_S400x256_1_0_0_1_n_n.rhsIdx (ix2 p h) ((ValueIdx.contrEquiv1 dot_S400x10000_S10000x256_S400x256_1_0_0_1_n_n 10000 rfl rfl).symm k) = ix2 k h := funext fun x => Fin.ext (by
    match x with
    | ⟨0, _⟩ => exact (rhs_agg_0 _ _).trans hk
    | ⟨1, _⟩ => exact rhs_agg_1 _ _)
  rw [el, er]

/-- A column [400, 1] spread over the 256 columns, read at (p, h): the column's row p. -/
theorem agg_col_apply (v : FVec Ideal S400x1 .f32) (p : Fin 400) (h : Fin 256) :
    broadcastTo S400x256 v broadcasts_S400x1_S400x256 (ix2 p h) = v (ix2 p 0) := by
  refine broadcastTo_apply v _ (ix2 p h) (ix2 p 0) fun x => ?_
  match x with
  | ⟨0, _⟩ => rfl
  | ⟨1, _⟩ => rfl

/-- A row [1, 256] spread over the 400 rows, read at (p, h): the row's column h. -/
theorem agg_row_apply (v : FVec Ideal S1x256 .f32) (p : Fin 400) (h : Fin 256) :
    broadcastTo S400x256 v broadcasts_S1x256_S400x256 (ix2 p h) = v (ix2 0 h) := by
  refine broadcastTo_apply v _ (ix2 p h) (ix2 0 h) fun x => ?_
  match x with
  | ⟨0, _⟩ => rfl
  | ⟨1, _⟩ => rfl

/-- The body's result at row p and column h of its block. -/
theorem agg_pay_apply (x0 : Vec Ideal S400x10000 .bf16) (x1 : Vec Ideal S10000x256 .bf16) (x2 : Vec Ideal S400x1 .f32) (x3 : Vec Ideal S1x256 .f32)
    (p : Fin 400) (h : Fin 256) :
    k2_pay1 x0 x1 x2 x3 (ix2 p h) = (∑ s : Fin 10000, x0 (ix2 p s) * x1 (ix2 s h)) * x2 (ix2 p 0) + x3 (ix2 0 h) := by
  unfold k2_pay1
  simp only [shapeCast_self]
  rw [addf_apply, mulf_apply, agg_matmul_apply, agg_col_apply, agg_row_apply]

/-- The same with each factor named: whatever the four loaded blocks are known to hold at the indices the body reads. -/
theorem agg_pay_of (x0 : Vec Ideal S400x10000 .bf16) (x1 : Vec Ideal S10000x256 .bf16) (x2 : Vec Ideal S400x1 .f32) (x3 : Vec Ideal S1x256 .f32)
    (p : Fin 400) (h : Fin 256) (A H : Fin 10000 → EReal) (dv bg : EReal)
    (h0 : ∀ s, x0 (ix2 p s) = A s) (h1 : ∀ s, x1 (ix2 s h) = H s) (h2 : x2 (ix2 p 0) = dv) (h3 : x3 (ix2 0 h) = bg) :
    k2_pay1 x0 x1 x2 x3 (ix2 p h) = (∑ s : Fin 10000, A s * H s) * dv + bg := by
  rw [agg_pay_apply, h2, h3, Finset.sum_congr rfl fun s _ => show x0 (ix2 p s) * x1 (ix2 s h) = A s * H s by rw [h0 s, h1 s]]

/-! ## The blocks the body reads, as parts of the arrays -/

/-- The printed index maps over the 25 points: the row-blocked windows sit at block (t, 0), the whole ones at (0, 0). -/
theorem agg_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b)) (c : Dev nD)

/-- Point t's block of the count matrix: row p of it is row 400 t + p of the matrix. -/
theorem agg_blk0_apply (t : Fin cfg2.N) (y : S400x10000.Idx) (k : S10000x10000.Idx)
    (hk0 : (k 0).val = 400 * t.val + (y 0).val) (hk1 : (k 1).val = (y 1).val) :
    (iblk2 V c 0 t : Vec Ideal S400x10000 .bf16) y = (V c main_v38 : S10000x10000.Idx → EReal) k := by
  obtain ⟨e0, e1, -⟩ := agg_index_facts t
  unfold iblk2
  rw [View.read_apply]
  show V c main_v38 _ = V c main_v38 _
  congr 1
  funext a
  apply Fin.ext
  match a with
  | ⟨0, _⟩ => show win2_0.index t (0 : Fin 2) * 400 + 1 * (y 0).val = (k 0).val; rw [e0, hk0]; omega
  | ⟨1, _⟩ => show win2_0.index t (1 : Fin 2) * 10000 + 1 * (y 1).val = (k 1).val; rw [e1, hk1]; omega

/-- The projected features are taken whole at every point. -/
theorem agg_blk1_apply (t : Fin cfg2.N) (y : S10000x256.Idx) :
    (iblk2 V c 1 t : Vec Ideal S10000x256 .bf16) y = (V c main_v39 : S10000x256.Idx → EReal) y := by
  obtain ⟨-, -, e0, e1, -⟩ := agg_index_facts t
  unfold iblk2
  rw [View.read_apply]
  show V c main_v39 _ = V c main_v39 _
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 256 + 1 * (y 1).val = (y 1).val; rw [e1]; omega

/-- Point t's block of the degree column: row p of it is row 400 t + p of the column. -/
theorem agg_blk2_apply (t : Fin cfg2.N) (y : S400x1.Idx) (k : S10000x1.Idx)
    (hk0 : (k 0).val = 400 * t.val + (y 0).val) (hk1 : (k 1).val = (y 1).val) :
    (iblk2 V c 2 t : Vec Ideal S400x1 .f32) y = (V c main_v21 : S10000x1.Idx → EReal) k := by
  obtain ⟨-, -, -, -, e0, e1, -⟩ := agg_index_facts t
  unfold iblk2
  rw [View.read_apply]
  show V c main_v21 _ = V c main_v21 _
  congr 1
  funext a
  apply Fin.ext
  match a with
  | ⟨0, _⟩ => show win2_2.index t (0 : Fin 2) * 400 + 1 * (y 0).val = (k 0).val; rw [e0, hk0]; omega
  | ⟨1, _⟩ => show win2_2.index t (1 : Fin 2) * 1 + 1 * (y 1).val = (k 1).val; rw [e1, hk1]; omega

/-- The bias row is taken whole at every point. -/
theorem agg_blk3_apply (t : Fin cfg2.N) (y : S1x256.Idx) :
    (iblk2 V c 3 t : Vec Ideal S1x256 .f32) y = (V c main_v40 : S1x256.Idx → EReal) y := by
  obtain ⟨-, -, -, -, -, -, e0, e1, -⟩ := agg_index_facts t
  unfold iblk2
  rw [View.read_apply]
  show V c main_v40 _ = V c main_v40 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

/-! ## The result array -/

/-- The arrays the third region finds, and the one it leaves, as extended reals over plain coordinates. -/
def r2A (d s : Fin 10000) : EReal := V c main_v38 (ix2 d s)
def r2Hws (s : Fin 10000) (h : Fin 256) : EReal := V c main_v39 (ix2 s h)
def r2dv (d : Fin 10000) : EReal := V c main_v21 (ix2 d 0)
def r2bg (h : Fin 256) : EReal := V c main_v40 (ix2 0 h)
def r2Out (d : Fin 10000) (h : Fin 256) : EReal := (dat2 V c).arrAt 4 cfg2.N (ix2 d h)

/-- The whole result as one function of the arrays found: (Σ_s A[d, s] · hws[s, h]) · dinv[d] + bg[h] at (d, h). -/
def aggG : S10000x256.Idx → EReal := fun i =>
  (∑ s : Fin 10000, r2A V c (i 0) s * r2Hws V c s (i 1)) * r2dv V c (i 0) + r2bg V c (i 1)

/-- The body's result at row p of point t's block is the whole result at row d = 400 t + p. -/
theorem agg_block_value (t : Fin cfg2.N) (p : Fin 400) (d : Fin 10000) (h : Fin 256) (hd : d.val = 400 * t.val + p.val) :
    k2_pay1 (iblk2 V c 0 t) (iblk2 V c 1 t) (iblk2 V c 2 t) (iblk2 V c 3 t) (ix2 p h) = aggG V c (ix2 d h) := by
  exact agg_pay_of _ _ _ _ p h (fun s => r2A V c d s) (fun s => r2Hws V c s h) (r2dv V c d) (r2bg V c h)
    (fun s => agg_blk0_apply V c t (ix2 p s) (ix2 d s) hd rfl) (fun s => agg_blk1_apply V c t (ix2 s h))
    (agg_blk2_apply V c t (ix2 p 0) (ix2 d 0) hd rfl) (agg_blk3_apply V c t (ix2 0 h))

/-- What point t writes back is its block of the whole result. -/
theorem agg_flushed (t : Fin cfg2.N) :
    (dat2 V c).flushed 4 t = ((cfg2.win 4).blk t).view.read (Elt Ideal) (aggG V c) := by
  show (cfg2.win 4).cut (grid2.coords t) ((dat2 V c).after 4 t) = _
  rw [after2_4]
  unfold out2_4
  rw [View.canon_unit_zero agg_zero_off]
  simp only [View.ld_unit_zero (S := S400x10000) agg_zero_off, View.ld_unit_zero (S := S10000x256) agg_zero_off,
    View.ld_unit_zero (S := S400x1) agg_zero_off, View.ld_unit_zero (S := S1x256) agg_zero_off]
  obtain ⟨-, -, -, -, -, -, -, -, e0, e1⟩ := agg_index_facts t
  funext j
  have hj0 : (j 0).val < 400 := (j 0).isLt
  have hj1 : (j 1).val < 256 := (j 1).isLt
  have hN : cfg2.N = 25 := N_2
  have ht : t.val < cfg2.N := t.isLt
  have hd : 400 * t.val + (j 0).val < 10000 := by omega
  show k2_pay1 (iblk2 V c 0 t) (iblk2 V c 1 t) (iblk2 V c 2 t) (iblk2 V c 3 t) ((cfg2.win 4).xinj (grid2.coords t) j)
    = aggG V c (((cfg2.win 4).blk t).view.emb j)
  have ey : (cfg2.win 4).xinj (grid2.coords t) j = ix2 (⟨(j 0).val, hj0⟩ : Fin 400) (⟨(j 1).val, hj1⟩ : Fin 256) :=
    funext fun a => by
      match a with
      | ⟨0, _⟩ => rfl
      | ⟨1, _⟩ => rfl
  have ei : ((cfg2.win 4).blk t).view.emb j = ix2 (⟨400 * t.val + (j 0).val, hd⟩ : Fin 10000) (⟨(j 1).val, hj1⟩ : Fin 256) :=
    funext fun a => Fin.ext (by
      match a with
      | ⟨0, _⟩ => show win2_4.index t (0 : Fin 2) * 400 + 1 * (j 0).val = 400 * t.val + (j 0).val; rw [e0]; omega
      | ⟨1, _⟩ => show win2_4.index t (1 : Fin 2) * 256 + 1 * (j 1).val = (j 1).val; rw [e1]; omega)
  rw [ey, ei]
  exact agg_block_value V c t _ _ _ rfl

/-- An index of the result array is in point t's block iff each coordinate is in the block's range on its axis. -/
theorem agg_mem_blk (t : Fin cfg2.N) (i : S10000x256.Idx) :
    i ∈ ((cfg2.win 4).blk t).view.set ↔ ∀ a : Fin 2, win2_4.index t a * S400x256.size a ≤ (i a).val ∧ (i a).val < win2_4.index t a * S400x256.size a + S400x256.size a := by
  show i ∈ ((View.whole main_v41).slice (win2_4.rect t)).set ↔ _
  rw [View.set_slice_whole, Rect.mem_set_unit]
  exact Iff.rfl

/-- Row r of the result array is in the block of point r / 400. -/
theorem agg_cover (i : S10000x256.Idx) :
    ∃ t : Fin cfg2.N, (cfg2.win 4).flush t = true ∧ i ∈ ((cfg2.win 4).blk t).view.set := by
  have hi0 : (i 0).val < 10000 := (i 0).isLt
  have hi1 : (i 1).val < 256 := (i 1).isLt
  have hN : cfg2.N = 25 := N_2
  obtain ⟨t, ht⟩ : ∃ t : Fin cfg2.N, t.val = (i 0).val / 400 := ⟨⟨(i 0).val / 400, by omega⟩, rfl⟩
  obtain ⟨-, -, -, -, -, -, -, -, e0, e1⟩ := agg_index_facts t
  refine ⟨t, flush2_4 t, ?_⟩
  rw [agg_mem_blk]
  intro a
  match a with
  | ⟨0, _⟩ => show win2_4.index t (0 : Fin 2) * 400 ≤ (i 0).val ∧ (i 0).val < win2_4.index t (0 : Fin 2) * 400 + 400; rw [e0]; omega
  | ⟨1, _⟩ => show win2_4.index t (1 : Fin 2) * 256 ≤ (i 1).val ∧ (i 1).val < win2_4.index t (1 : Fin 2) * 256 + 256; rw [e1]; omega

/-- The result array after the region: the whole result. -/
theorem agg_final : (dat2 V c).arrAt 4 cfg2.N = aggG V c :=
  (dat2 V c).arrAt_eq_of_cover 4 (aggG V c) (fun t _ => agg_flushed V c t) (agg_cover)

/-- What the third region leaves in its result array, index by index. -/
theorem region2_out (d : Fin 10000) (h : Fin 256) :
    r2Out V c d h = (∑ s : Fin 10000, r2A V c d s * r2Hws V c s h) * r2dv V c d + r2bg V c h := by
  show (dat2 V c).arrAt 4 cfg2.N (ix2 d h) = _
  rw [agg_final V c]
  rfl

end Cert.KernelIdeal.Gen

end
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«415961_j42803644072638_2_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.KDinv.lean ====
/-
  The host stretch between the first two regions computes, from the edge list alone, the column of inverse square
  roots of the in-degrees: a scatter-add of ones over the extended target list, a comparison with 0, an inverse
  square root, a selection.
-/
import proofs.«415961_j42803644072638_2_alg».proof.Proof.Gen.KernelIdeal.Frame
import proofs.«415961_j42803644072638_2_alg».proof.Proof.KArgs
import proofs.«415961_j42803644072638_2_alg».proof.Proof.LibScatter
import Idealize.ShloMosaic.Lib.ValueIdx
import Idealize.ShloMosaic.Lib.Pipeline.Value
import Idealize.ShloMosaic.Lib.IdealHost
import Idealize.ShloMosaic.Lib.StableHlo.Run
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-! ## The stretch's arithmetic as terms of the edge words -/

/-- The extended target list as the host stretch builds it: row 1 of the edge words laid flat, then the node numbers. -/
def dstArr (ei : IVec S2x320000 32) : IVec S330000 32 :=
  concatenate S330000 0
    [⟨S320000, shapeCast S320000 (extractStridedSlice S1x320000 ![1, 0] ei slices_S2x320000_S1x320000_1_0) shapeCasts_S1x320000_S320000⟩,
     ⟨S10000, iotaInDim S10000 32 0⟩] concatenates_S320000_S10000_S330000_d0

/-- The degrees as the host stretch builds them: ones scattered onto zeros at the extended target list. -/
def degArr (ei : IVec S2x320000 32) : FVec Ideal S10000 .f32 :=
  Host.scatterAdd (F := Ideal) scatter_S10000_S330000x1_S330000_n_0_0_1
    (broadcastInDim S10000 ![] bcast_S_S10000 (constant (F := Ideal) S_ .f32 0x00000000#32))
    (broadcastInDim S330000x1 ![0] bcast_S330000_S330000x1_0 (dstArr ei))
    (broadcastInDim S330000 ![] bcast_S_S330000 (constant (F := Ideal) S_ .f32 0x3F800000#32))

/-- The column's entries before the reshape: the inverse square root of the degree where the degree is positive, else zero. -/
def dinvArr (ei : IVec S2x320000 32) : FVec Ideal S10000 .f32 :=
  select
    (cmpf .ogt (degArr ei) (broadcastInDim S10000 ![] bcast_S_S10000 (constant (F := Ideal) S_ .f32 0x00000000#32)))
    (Host.rsqrt (degArr ei))
    (broadcastInDim S10000 ![] bcast_S_S10000 (constant (F := Ideal) S_ .f32 0x00000000#32))

/-! ## Those terms read at an index -/

/-- The extended target list read at an entry: below 320000 the edge word of row 1, from there on the node's number. -/
theorem dstArr_apply (ei : IVec S2x320000 32) (e : Fin 330000) :
    dstArr ei (ix1 e) = Spec.dstAll (fun a k => ei (ix2 a k)) e := by
  unfold dstArr Spec.dstAll
  by_cases h : e.val < 320000
  · rw [dif_pos h]
    refine (concatenate_pair_apply_left (t := S330000) (s₁ := S320000) (s₂ := S10000) (0 : Fin 1) _ _ concatenates_S320000_S10000_S330000_d0 (ix1 e) rfl
      (ix1 (⟨e.val, h⟩ : Fin 320000)) (fun b => ?_)).trans ?_
    · match b with
      | ⟨0, _⟩ => rfl
    · refine (shapeCast_apply _ shapeCasts_S1x320000_S320000 (ix1 (⟨e.val, h⟩ : Fin 320000))
        (ix2 (0 : Fin 1) (⟨e.val, h⟩ : Fin 320000)) ?_).trans ?_
      · rw [Shape.rowMajor_val_two, Shape.rowMajor_val_one]
        show 0 * 320000 + e.val = e.val
        omega
      · refine extractStridedSlice_apply _ ei slices_S2x320000_S1x320000_1_0 _
          (ix2 (1 : Fin 2) (⟨e.val, h⟩ : Fin 320000)) (fun a => ?_)
        match a with
        | ⟨0, _⟩ => rfl
        | ⟨1, _⟩ => exact (Nat.zero_add e.val).symm
  · rw [dif_neg h]
    have he := e.isLt
    refine (concatenate_pair_apply_right (t := S330000) (s₁ := S320000) (s₂ := S10000) (0 : Fin 1) _ _ concatenates_S320000_S10000_S330000_d0 (ix1 e) rfl rfl
      (ix1 (⟨e.val - 320000, by omega⟩ : Fin 10000)) (fun b hb => ?_) ?_).trans ?_
    · exact absurd (Subsingleton.elim _ _) hb
    · show (e.val - 320000) + 320000 = e.val
      omega
    · rfl

/-- The scattered degrees read at a node: the number of entries of the extended target list whose word, read signed, is the node. -/
theorem degArr_apply (ei : IVec S2x320000 32) (d : Fin 10000) :
    degArr ei (ix1 d) = Spec.deg (Spec.dstAll (fun a k => ei (ix2 a k))) d := by
  unfold degArr Host.scatterAdd
  rw [Ideal.hostScatterAdd_def]
  refine (Cert.Gcn.scatterAddVec_apply scatter_S10000_S330000x1_S330000_n_0_0_1_wf _ _ _ d).trans ?_
  unfold Spec.deg
  have hx : (broadcastInDim S10000 ![] bcast_S_S10000 (constant (F := Ideal) S_ .f32 0x00000000#32)) (ix1 d)
      = (0 : EReal) := by
    rw [broadcastInDim_scalar_apply, constant_apply]
    exact Ideal.ofBits_zero_f32
  rw [hx, zero_add]
  refine Finset.sum_congr (Finset.filter_congr (fun e _ => ?_)) (fun e _ => ?_)
  · have hi : (broadcastInDim S330000x1 ![0] bcast_S330000_S330000x1_0 (dstArr ei)) (ix2 e (0 : Fin 1))
        = Spec.dstAll (fun a k => ei (ix2 a k)) e := by
      refine (broadcastInDim_apply _ bcast_S330000_S330000x1_0 (dstArr ei) (ix2 e (0 : Fin 1)) (ix1 e) (fun a => ?_)).trans
        (dstArr_apply ei e)
      match a with
      | ⟨0, _⟩ => rfl
    rw [hi]
  · rw [broadcastInDim_scalar_apply, constant_apply]
    exact Ideal.ofBits_one_f32

/-- On one extended real: select by "x > 0" between the inverse square root and zero. -/
theorem sel_ogt_rsqrt (x : EReal) :
    Scalar.select (FloatOps.cmpf (F := Ideal) (φ := FTy.f32) .ogt x (0 : EReal))
        (FloatOps.hostUnary (F := Ideal) .rsqrt (φ := FTy.f32) x) (0 : EReal)
      = if 0 < x then Ideal.rsqrt x else 0 := by
  by_cases hp : 0 < x
  · rw [if_pos hp]
    have hb : FloatOps.cmpf (F := Ideal) (φ := FTy.f32) .ogt x (0 : EReal) = 1#1 := by
      show BitVec.ofBool (decide (0 < x)) = 1#1
      rw [decide_eq_true hp]
      rfl
    rw [hb, select_one]
    rfl
  · rw [if_neg hp]
    have hb : FloatOps.cmpf (F := Ideal) (φ := FTy.f32) .ogt x (0 : EReal) = 0#1 := by
      show BitVec.ofBool (decide (0 < x)) = 0#1
      rw [decide_eq_false hp]
      rfl
    rw [hb, select_zero]

/-- The selected vector read at a node is dinv of the extended target list there. -/
theorem dinvArr_apply (ei : IVec S2x320000 32) (d : Fin 10000) :
    dinvArr ei (ix1 d) = Spec.dinv (Spec.dstAll (fun a k => ei (ix2 a k))) d := by
  have hz : (broadcastInDim S10000 ![] bcast_S_S10000 (constant (F := Ideal) S_ .f32 0x00000000#32)) (ix1 d)
      = (0 : EReal) := by
    rw [broadcastInDim_scalar_apply, constant_apply]
    exact Ideal.ofBits_zero_f32
  unfold dinvArr
  rw [select_apply, cmpf_apply, hz]
  refine (sel_ogt_rsqrt (degArr ei (ix1 d))).trans ?_
  rw [degArr_apply]
  rfl

/-! ## The three host stretches, each read at the buffers the column depends on, from any entry contents -/

/-- The last stretch writes the column once: the reshape of the selected vector. -/
theorem ops12_v21 (V : Valuation τ sig (Elt Ideal)) :
    StableHlo.after hostOps1_2 V (Proc.devRef .tc main_v21)
      = (fun i => shapeCast S10000x1 (V (Proc.devRef .tc main_v20)) shapeCasts_S10000_S10000x1 i) := by
  after_results
  rfl

/-- The middle stretch selects, by the comparison's bits, between the inverse square roots and a broadcast constant. -/
theorem ops11_v20 (V : Valuation τ sig (Elt Ideal)) :
    StableHlo.after hostOps1_1 V (Proc.devRef .tc main_v20)
      = select (V (Proc.devRef .tc main_v18)) (V (Proc.devRef .tc main_v19))
          (broadcastInDim S10000 ![] bcast_S_S10000 (V (Proc.devRef .tc main_cst_2))) := by
  after_results
  rfl

/-- The first stretch: the comparison of the degrees with zero, … -/
theorem ops1_v18 (V : Valuation τ sig (Elt Ideal)) :
    StableHlo.after hostOps1 V (Proc.devRef .tc main_v18)
      = cmpf .ogt (degArr (V (Proc.devRef .tc main_arg1)))
          (broadcastInDim S10000 ![] bcast_S_S10000 (constant (F := Ideal) S_ .f32 0x00000000#32)) := by
  after_results
  rfl

/-- … their inverse square roots, … -/
theorem ops1_v19 (V : Valuation τ sig (Elt Ideal)) :
    StableHlo.after hostOps1 V (Proc.devRef .tc main_v19)
      = Host.rsqrt (degArr (V (Proc.devRef .tc main_arg1))) := by
  after_results
  rfl

/-- … and the constant zero the selection falls back to. -/
theorem ops1_cst2 (V : Valuation τ sig (Elt Ideal)) :
    StableHlo.after hostOps1 V (Proc.devRef .tc main_cst_2)
      = constant (F := Ideal) S_ .f32 0x00000000#32 := by
  after_results

/-! ## The fold walked back from the second region's entry to the launch memory -/

/-- No host operation and no region up to the first region's exit writes the edge list. -/
theorem W2_main_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_v18 : W3 m ρ c (Proc.devRef .tc main_v18)
    = cmpf .ogt (degArr (W2 m ρ c (Proc.devRef .tc main_arg1)))
        (broadcastInDim S10000 ![] bcast_S_S10000 (constant (F := Ideal) S_ .f32 0x00000000#32)) :=
  ops1_v18 (W2 m ρ c)

theorem W3_main_v19 : W3 m ρ c (Proc.devRef .tc main_v19) = Host.rsqrt (degArr (W2 m ρ c (Proc.devRef .tc main_arg1))) :=
  ops1_v19 (W2 m ρ c)

theorem W3_main_cst_2 : W3 m ρ c (Proc.devRef .tc main_cst_2) = constant (F := Ideal) S_ .f32 0x00000000#32 :=
  ops1_cst2 (W2 m ρ c)

/-- After the middle stretch the selected vector is that of the launch's edge list. -/
theorem W4_main_v20 : W4 m ρ c (Proc.devRef .tc main_v20) = dinvArr (m ((c : Thread nD τ).loc main_arg1)) := by
  refine (ops11_v20 (W3 m ρ c)).trans ?_
  rw [W3_main_v18 m ρ c, W3_main_v19 m ρ c, W3_main_cst_2 m ρ c, W2_main_arg1 m ρ c]
  rfl

/-- At the second region's entry the column main_v21 holds dinv of the extended target list. -/
theorem W5_dinv (d : Fin 10000) :
    W5 m ρ c (Proc.devRef .tc main_v21) (ix2 d 0) = Spec.dinv (aDst m c) d := by
  refine (congrFun (ops12_v21 (W4 m ρ c)) (ix2 d 0)).trans ?_
  refine (shapeCast_apply (W4 m ρ c (Proc.devRef .tc main_v20)) shapeCasts_S10000_S10000x1 (ix2 d (0 : Fin 1)) (ix1 d) ?_).trans ?_
  · show (S10000.rowMajor (ix1 d)).val = (S10000x1.rowMajor (ix2 d (0 : Fin 1))).val
    rw [Shape.rowMajor_val_one, Shape.rowMajor_val_two]
    show d.val = d.val * 1 + 0
    omega
  · rw [W4_main_v20 m ρ c]
    exact dinvArr_apply (m ((c : Thread nD τ).loc main_arg1)) d

end Cert.KernelIdeal.Gen

end
-- ==== Proof.KAdj.lean ====
/-
  The same host stretch builds the dense matrix of edge counts: a scatter-add of ones at the index pairs
  (target, source) of the extended edge list, each word first wrapped if negative. On an in-range list nothing is
  wrapped and nothing is dropped, and entry (d, s) is the number of list entries from s into d.
-/
import proofs.«415961_j42803644072638_2_alg».proof.Proof.Gen.KernelIdeal.Frame
import proofs.«415961_j42803644072638_2_alg».proof.Proof.KArgs
import proofs.«415961_j42803644072638_2_alg».proof.Proof.LibScatter
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout

set_option maxRecDepth 16384

noncomputable section

/-! ## An element scatter into a matrix, read at an index

Operand `[N0, N1]`, scatter indices `[E, 2]`, updates `[E]`: update `e` lands on element `(idx[e, 0], idx[e, 1])`, both
words read as signed integers and not clamped; an update whose row or column is outside the operand lands nowhere. -/

namespace Cert.Gcn

open Idealize.ShloMosaic Idealize.ShloMosaic.ValueIdx

/-- The dimension numbers of an element scatter into a matrix: operand `[N0, N1]`, scatter indices `[E, 2]`
    (a row and a column per update), updates `[E]`. -/
abbrev matScatterDims (N0 N1 E : Nat)
    (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Matrix element scatter, axis 0: the map names it first, so the window starts at the signed index read at `[e, 0]`. -/
theorem scatterMat_start0 {N0 N1 E : Nat} (wf : ScatterDims.WF ⟨2, ![N0, N1]⟩ ⟨2, ![E, 2]⟩ ⟨1, ![E]⟩ [] [0, 1] [0, 1] 1)
    (idx : IVec ⟨2, ![E, 2]⟩ 32) (j : (⟨1, ![E]⟩ : Shape).Idx) :
    (matScatterDims N0 N1 E wf).start j idx 0 = (idx (ix2 (j 0) 0)).toInt := by
  unfold ScatterDims.start
  rw [dif_pos (show (0 : Fin 2) ∈ (matScatterDims N0 N1 E wf).scatterDimsToOperandDims from List.mem_cons_self)]
  have hsi : (matScatterDims N0 N1 E wf).siIdx j
      ⟨List.idxOf (0 : Fin 2) (matScatterDims N0 N1 E wf).scatterDimsToOperandDims,
        List.idxOf_lt_length_iff.2 List.mem_cons_self⟩ = ix2 (j 0) 0 := by
    funext b; refine Fin.ext ?_
    match b with
    | ⟨0, _⟩ => rfl
    | ⟨1, _⟩ => rfl
  rw [hsi]
  rfl

/-- Matrix element scatter, axis 1: the map names it second, so the window starts at the signed index read at `[e, 1]`. -/
theorem scatterMat_start1 {N0 N1 E : Nat} (wf : ScatterDims.WF ⟨2, ![N0, N1]⟩ ⟨2, ![E, 2]⟩ ⟨1, ![E]⟩ [] [0, 1] [0, 1] 1)
    (idx : IVec ⟨2, ![E, 2]⟩ 32) (j : (⟨1, ![E]⟩ : Shape).Idx) :
    (matScatterDims N0 N1 E wf).start j idx 1 = (idx (ix2 (j 0) 1)).toInt := by
  have hmem : (1 : Fin 2) ∈ (matScatterDims N0 N1 E wf).scatterDimsToOperandDims :=
    List.mem_cons_of_mem _ List.mem_cons_self
  unfold ScatterDims.start
  rw [dif_pos hmem]
  have hsi : (matScatterDims N0 N1 E wf).siIdx j
      ⟨List.idxOf (1 : Fin 2) (matScatterDims N0 N1 E wf).scatterDimsToOperandDims,
        List.idxOf_lt_length_iff.2 hmem⟩ = ix2 (j 0) 1 := by
    funext b; refine Fin.ext ?_
    match b with
    | ⟨0, _⟩ => rfl
    | ⟨1, _⟩ => rfl
  rw [hsi]
  rfl

/-- Matrix element scatter: both operand axes are inserted, so every window coordinate is zero. -/
theorem scatterMat_window {N0 N1 E : Nat} (wf : ScatterDims.WF ⟨2, ![N0, N1]⟩ ⟨2, ![E, 2]⟩ ⟨1, ![E]⟩ [] [0, 1] [0, 1] 1)
    (j : (⟨1, ![E]⟩ : Shape).Idx) (a : Fin 2) : (matScatterDims N0 N1 E wf).window j a = 0 := by
  unfold ScatterDims.window
  rw [dif_neg (show ¬ a ∈ (matScatterDims N0 N1 E wf).sKept from
    (show ¬ a ∈ (List.finRange 2).filter (fun a => a ∉ ([0, 1] : List (Fin 2))) by revert a; decide))]

/-- Update `e` of a matrix element scatter lands at `(r, q)` exactly when `idx[e, 0] = r` and `idx[e, 1] = q` as signed integers. -/
theorem scatterMat_resultIdx_iff {N0 N1 E : Nat}
    (wf : ScatterDims.WF ⟨2, ![N0, N1]⟩ ⟨2, ![E, 2]⟩ ⟨1, ![E]⟩ [] [0, 1] [0, 1] 1)
    (idx : IVec ⟨2, ![E, 2]⟩ 32) (j : (⟨1, ![E]⟩ : Shape).Idx) (i : (⟨2, ![N0, N1]⟩ : Shape).Idx) :
    (matScatterDims N0 N1 E wf).resultIdx? j idx = some i
      ↔ (idx (ix2 (j 0) 0)).toInt = ((i 0).val : Int) ∧ (idx (ix2 (j 0) 1)).toInt = ((i 1).val : Int) := by
  have hs0 := scatterMat_start0 wf idx j
  have hs1 := scatterMat_start1 wf idx j
  have hw0 := scatterMat_window wf j 0
  have hw1 := scatterMat_window wf j 1
  have hi0 : (i 0).val < N0 := idx2_lt0 i
  have hi1 : (i 1).val < N1 := idx2_lt1 i
  constructor
  · intro h
    unfold ScatterDims.resultIdx? at h
    split at h
    · rename_i hr
      have hf := Option.some.inj h
      have h0 : ((matScatterDims N0 N1 E wf).start j idx 0 + ((matScatterDims N0 N1 E wf).window j 0 : Nat)).toNat
          = (i 0).val := congrArg Fin.val (congrFun hf 0)
      have h1 : ((matScatterDims N0 N1 E wf).start j idx 1 + ((matScatterDims N0 N1 E wf).window j 1 : Nat)).toNat
          = (i 1).val := congrArg Fin.val (congrFun hf 1)
      have hr0 := hr 0
      have hr1 := hr 1
      rw [hs0, hw0] at h0 hr0
      rw [hs1, hw1] at h1 hr1
      simp only [Nat.cast_zero, Int.add_zero] at h0 h1 hr0 hr1
      constructor <;> omega
    · exact absurd h (by simp)
  · rintro ⟨h0, h1⟩
    have hall : ∀ a, 0 ≤ (matScatterDims N0 N1 E wf).start j idx a + ((matScatterDims N0 N1 E wf).window j a : Nat) ∧
        (matScatterDims N0 N1 E wf).start j idx a + ((matScatterDims N0 N1 E wf).window j a : Nat)
          < ((⟨2, ![N0, N1]⟩ : Shape).size a : Nat) := by
      intro a
      match a with
      | ⟨0, _⟩ =>
        show 0 ≤ (matScatterDims N0 N1 E wf).start j idx 0 + ((matScatterDims N0 N1 E wf).window j 0 : Nat) ∧
          (matScatterDims N0 N1 E wf).start j idx 0 + ((matScatterDims N0 N1 E wf).window j 0 : Nat) < (N0 : Int)
        rw [hs0, hw0, h0]
        simp only [Nat.cast_zero, Int.add_zero]
        omega
      | ⟨1, _⟩ =>
        show 0 ≤ (matScatterDims N0 N1 E wf).start j idx 1 + ((matScatterDims N0 N1 E wf).window j 1 : Nat) ∧
          (matScatterDims N0 N1 E wf).start j idx 1 + ((matScatterDims N0 N1 E wf).window j 1 : Nat) < (N1 : Int)
        rw [hs1, hw1, h1]
        simp only [Nat.cast_zero, Int.add_zero]
        omega
    unfold ScatterDims.resultIdx?
    rw [dif_pos hall]
    congr 1
    funext a
    refine Fin.ext ?_
    match a with
    | ⟨0, _⟩ =>
      show ((matScatterDims N0 N1 E wf).start j idx 0 + ((matScatterDims N0 N1 E wf).window j 0 : Nat)).toNat = (i 0).val
      rw [hs0, hw0, h0]
      simp only [Nat.cast_zero, Int.add_zero, Int.toNat_natCast]
    | ⟨1, _⟩ =>
      show ((matScatterDims N0 N1 E wf).start j idx 1 + ((matScatterDims N0 N1 E wf).window j 1 : Nat)).toNat = (i 1).val
      rw [hs1, hw1, h1]
      simp only [Nat.cast_zero, Int.add_zero, Int.toNat_natCast]

/-- A matrix element scatter-add at `(r, q)`: the operand there plus the updates whose two index words, read signed, are `r` and `q`. -/
theorem scatterAddMat_apply {N0 N1 E : Nat}
    (wf : ScatterDims.WF ⟨2, ![N0, N1]⟩ ⟨2, ![E, 2]⟩ ⟨1, ![E]⟩ [] [0, 1] [0, 1] 1)
    (x : (⟨2, ![N0, N1]⟩ : Shape).Idx → EReal) (idx : IVec ⟨2, ![E, 2]⟩ 32) (upd : (⟨1, ![E]⟩ : Shape).Idx → EReal)
    (r : Fin N0) (q : Fin N1) :
    Ideal.hostScatterAdd (matScatterDims N0 N1 E wf) x idx upd (ix2 r q)
      = x (ix2 r q) + ∑ e ∈ Finset.univ.filter (fun e : Fin E =>
          (idx (ix2 e (0 : Fin 2))).toInt = (r.val : Int) ∧ (idx (ix2 e (1 : Fin 2))).toInt = (q.val : Int)), upd (ix1 e) := by
  show x (ix2 r q) + ∑ j ∈ Finset.univ.filter
      (fun j => (matScatterDims N0 N1 E wf).resultIdx? j idx = some (ix2 r q)), upd j = _
  congr 1
  -- the updates that land at `(r, q)` are, through the coordinate, the `e` whose two index words are `r` and `q`
  refine Finset.sum_nbij' (fun j => j 0) (fun e => ix1 e) ?_ ?_ ?_ ?_ ?_
  · intro j hj
    exact Finset.mem_filter.mpr ⟨Finset.mem_univ _,
      (scatterMat_resultIdx_iff wf idx j (ix2 r q)).mp (Finset.mem_filter.mp hj).2⟩
  · intro e he
    exact Finset.mem_filter.mpr ⟨Finset.mem_univ _,
      (scatterMat_resultIdx_iff wf idx (ix1 e) (ix2 r q)).mpr (Finset.mem_filter.mp he).2⟩
  · intro j _
    exact (eq_ix1 j).symm
  · intro e _
    rfl
  · intro j _
    exact congrArg upd (eq_ix1 j)

end Cert.Gcn

namespace Cert.KernelIdeal.Gen

open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-! ## The extended edge list as the first host stretch leaves it -/

/-- Row `o` of the edge list, flattened and followed by the node numbers, read at entry `e`: the list's word below
    320000, the node number `e - 320000` from there on. -/
theorem adj_cat_apply (X : IVec S2x320000 32) (o : Nat) (ho : o < 2) (hS : S2x320000.Slices ![o, 0] S1x320000)
    (e : Fin 330000) :
    concatenate S330000 0 [⟨S320000, shapeCast S320000 (extractStridedSlice S1x320000 ![o, 0] X hS)
        shapeCasts_S1x320000_S320000⟩, ⟨S10000, iotaInDim S10000 32 0⟩] concatenates_S320000_S10000_S330000_d0 (ix1 e)
      = if h : e.val < 320000 then X (ix2 ⟨o, ho⟩ ⟨e.val, h⟩) else BitVec.ofNat 32 (e.val - 320000) := by
  by_cases h : e.val < 320000
  · rw [dif_pos h]
    refine (concatenate_pair_apply_left 0 _ _ concatenates_S320000_S10000_S330000_d0 (ix1 e) rfl (ix1 ⟨e.val, h⟩)
      (fun b => ?_)).trans ?_
    · obtain rfl : b = 0 := Subsingleton.elim _ _
      rfl
    · refine (shapeCast_apply _ shapeCasts_S1x320000_S320000 (ix1 ⟨e.val, h⟩) (ix2 0 ⟨e.val, h⟩) ?_).trans ?_
      · rw [Shape.rowMajor_val_two, Shape.rowMajor_val_one]
        show 0 * 320000 + e.val = e.val
        omega
      · exact extractStridedSlice_apply _ _ hS _ (ix2 ⟨o, ho⟩ ⟨e.val, h⟩) (fun a =>
          match a with
          | ⟨0, _⟩ => rfl
          | ⟨1, _⟩ => (Nat.zero_add _).symm)
  · rw [dif_neg h]
    have he := e.isLt
    refine (concatenate_pair_apply_right 0 _ _ concatenates_S320000_S10000_S330000_d0 (ix1 e) rfl rfl
      (ix1 ⟨e.val - 320000, by omega⟩) (fun b hb => ?_) ?_).trans ?_
    · exact absurd (Subsingleton.elim _ _) hb
    · show (e.val - 320000) + 320000 = e.val
      omega
    · rfl

/-- What the first stretch leaves in the source list's buffer, over any entry contents. -/
theorem adj_v9_stretch (V : Valuation τ sig (Elt Ideal)) :
    (StableHlo.after hostOps1 V (Proc.devRef .tc main_v9) : S330000.Idx → BitVec 32)
      = concatenate S330000 0 [⟨S320000, shapeCast S320000 (extractStridedSlice S1x320000 ![0, 0]
          (V (Proc.devRef .tc main_arg1)) slices_S2x320000_S1x320000_0_0) shapeCasts_S1x320000_S320000⟩,
          ⟨S10000, iotaInDim S10000 32 0⟩] concatenates_S320000_S10000_S330000_d0 := by
  after_results
  rfl

/-- What the first stretch leaves in the target list's buffer, over any entry contents. -/
theorem adj_v12_stretch (V : Valuation τ sig (Elt Ideal)) :
    (StableHlo.after hostOps1 V (Proc.devRef .tc main_v12) : S330000.Idx → BitVec 32)
      = concatenate S330000 0 [⟨S320000, shapeCast S320000 (extractStridedSlice S1x320000 ![1, 0]
          (V (Proc.devRef .tc main_arg1)) slices_S2x320000_S1x320000_1_0) shapeCasts_S1x320000_S320000⟩,
          ⟨S10000, iotaInDim S10000 32 0⟩] concatenates_S320000_S10000_S330000_d0 := by
  after_results
  rfl

/-- The edge list's buffer at the first stretch's entry is the launch argument: nothing earlier writes it. -/
theorem adj_arg1_W2 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) :=
      StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c : Thread nD τ).loc main_arg1) := rfl

/-- The middle stretch writes neither list. -/
theorem adj_v9_W4 : W4 m ρ c (Proc.devRef .tc main_v9) = W3 m ρ c (Proc.devRef .tc main_v9) :=
  StableHlo.after_of_forall_not_mem (b := Proc.devRef .tc main_v9) _ _ (List.forall_iff_forall_mem.mp (by
    simp only [hostOps1_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem adj_v12_W4 : W4 m ρ c (Proc.devRef .tc main_v12) = W3 m ρ c (Proc.devRef .tc main_v12) :=
  StableHlo.after_of_forall_not_mem (b := Proc.devRef .tc main_v12) _ _ (List.forall_iff_forall_mem.mp (by
    simp only [hostOps1_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- At the last stretch's entry the source list's buffer holds the extended list's sources. -/
theorem adj_src_W4 (e : Fin 330000) :
    (W4 m ρ c (Proc.devRef .tc main_v9) : S330000.Idx → BitVec 32) (ix1 e) = aSrc m c e := by
  rw [adj_v9_W4]
  show (StableHlo.after hostOps1 (W2 m ρ c) (Proc.devRef .tc main_v9) : S330000.Idx → BitVec 32) (ix1 e) = _
  rw [adj_v9_stretch, adj_arg1_W2, adj_cat_apply _ 0 (by decide)]
  rfl

/-- At the last stretch's entry the target list's buffer holds the extended list's targets. -/
theorem adj_dst_W4 (e : Fin 330000) :
    (W4 m ρ c (Proc.devRef .tc main_v12) : S330000.Idx → BitVec 32) (ix1 e) = aDst m c e := by
  rw [adj_v12_W4]
  show (StableHlo.after hostOps1 (W2 m ρ c) (Proc.devRef .tc main_v12) : S330000.Idx → BitVec 32) (ix1 e) = _
  rw [adj_v12_stretch, adj_arg1_W2, adj_cat_apply _ 1 (by decide)]
  rfl

/-! ## The last stretch: wrap, pair, scatter -/

/-- A list of node words, each with the node count added if it is negative. -/
def adjWrap (v : IVec S330000 32) : IVec S330000 32 :=
  select (cmpi .slt v (broadcastInDim S330000 ![] bcast_S_S330000 (constantI S_ 32 0#32)))
    (addi v (broadcastInDim S330000 ![] bcast_S_S330000 (constantI S_ 32 10000#32))) v

/-- A word that is not negative is left as it is. -/
theorem adjWrap_apply (v : IVec S330000 32) (e : Fin 330000) (h0 : 0 ≤ (v (ix1 e)).toInt) :
    adjWrap v (ix1 e) = v (ix1 e) := by
  show Scalar.select (IntOp.cmpi .slt (v (ix1 e))
      (broadcastInDim S330000 ![] bcast_S_S330000 (constantI S_ 32 0#32) (ix1 e))) _ (v (ix1 e)) = v (ix1 e)
  rw [broadcastInDim_scalar_apply, constantI_apply]
  have hb : IntOp.cmpi .slt (v (ix1 e)) 0#32 = 0#1 := by
    show BitVec.ofBool ((v (ix1 e)).slt 0#32) = 0#1
    have hs : (v (ix1 e)).slt 0#32 = false := by
      unfold BitVec.slt
      exact decide_eq_false (by rw [show (0#32 : BitVec 32).toInt = 0 from rfl]; omega)
    rw [hs]
    rfl
  rw [hb, select_zero]

set_option maxHeartbeats 1000000 in
/-- The matrix the last stretch leaves in the counts' buffer, over any entry contents. -/
theorem adj_v38_stretch (V : Valuation τ sig (Elt Ideal)) :
    (StableHlo.after hostOps1_2 V (Proc.devRef .tc main_v38) : S10000x10000.Idx → EReal)
      = truncf .bf16 (Host.scatterAdd scatter_S10000x10000_S330000x2_S330000_n_01_01_1
          (broadcastInDim S10000x10000 ![] bcast_S_S10000x10000 (constant (F := Ideal) S_ .f32 0x00000000#32))
          (concatenate S330000x2 1
            [⟨S330000x1, broadcastInDim S330000x1 ![0] bcast_S330000_S330000x1_0 (adjWrap (V (Proc.devRef .tc main_v12)))⟩,
             ⟨S330000x1, broadcastInDim S330000x1 ![0] bcast_S330000_S330000x1_0 (adjWrap (V (Proc.devRef .tc main_v9)))⟩]
            concatenates_S330000x1_S330000x1_S330000x2_d1)
          (broadcastInDim S330000 ![] bcast_S_S330000 (constant (F := Ideal) S_ .f32 0x3F800000#32))) bitsLt_bf16_f32 := by
  after_results
  rfl

/-- The index pairs' first column is the first list. -/
theorem adj_pair_fst (a b : IVec S330000 32) (e : Fin 330000) :
    concatenate S330000x2 1 [⟨S330000x1, broadcastInDim S330000x1 ![0] bcast_S330000_S330000x1_0 a⟩,
        ⟨S330000x1, broadcastInDim S330000x1 ![0] bcast_S330000_S330000x1_0 b⟩]
        concatenates_S330000x1_S330000x1_S330000x2_d1 (ix2 e (0 : Fin 2)) = a (ix1 e) := by
  refine (concatenate_pair_apply_left 1 _ _ concatenates_S330000x1_S330000x1_S330000x2_d1 (ix2 e (0 : Fin 2)) rfl
    (ix2 e (0 : Fin 1)) (fun q => ?_)).trans ?_
  · match q with
    | ⟨0, _⟩ => rfl
    | ⟨1, _⟩ => rfl
  · exact broadcastInDim_apply _ bcast_S330000_S330000x1_0 a (ix2 e (0 : Fin 1)) (ix1 e) (fun q => by
      obtain rfl : q = 0 := Subsingleton.elim _ _
      rfl)

/-- The index pairs' second column is the second list. -/
theorem adj_pair_snd (a b : IVec S330000 32) (e : Fin 330000) :
    concatenate S330000x2 1 [⟨S330000x1, broadcastInDim S330000x1 ![0] bcast_S330000_S330000x1_0 a⟩,
        ⟨S330000x1, broadcastInDim S330000x1 ![0] bcast_S330000_S330000x1_0 b⟩]
        concatenates_S330000x1_S330000x1_S330000x2_d1 (ix2 e (1 : Fin 2)) = b (ix1 e) := by
  refine (concatenate_pair_apply_right 1 _ _ concatenates_S330000x1_S330000x1_S330000x2_d1 (ix2 e (1 : Fin 2)) rfl rfl
    (ix2 e (0 : Fin 1)) (fun q hq => ?_) ?_).trans ?_
  · match q with
    | ⟨0, _⟩ => rfl
    | ⟨1, _⟩ => exact absurd rfl hq
  · rfl
  · exact broadcastInDim_apply _ bcast_S330000_S330000x1_0 b (ix2 e (0 : Fin 1)) (ix1 e) (fun q => by
      obtain rfl : q = 0 := Subsingleton.elim _ _
      rfl)

/-- The host's scatter-add at the printed dimension numbers is the exact sum at the matrix element scatter's. -/
theorem adj_scatterAdd_eq (x : S10000x10000.Idx → EReal) (idx : IVec S330000x2 32) (upd : S330000.Idx → EReal) :
    (Host.scatterAdd scatter_S10000x10000_S330000x2_S330000_n_01_01_1 x idx upd : FVec Ideal S10000x10000 .f32)
      = Ideal.hostScatterAdd (Cert.Gcn.matScatterDims 10000 10000 330000
          scatter_S10000x10000_S330000x2_S330000_n_01_01_1_wf) x idx upd := rfl

/-- The scatter of ones at the pairs of two lists of words that are not negative, read at `(d, s)`: the number of
    entries whose first word is `d` and second word `s`. -/
theorem adj_scatter_apply (a b : IVec S330000 32) (ha : ∀ e : Fin 330000, 0 ≤ (a (ix1 e)).toInt)
    (hb : ∀ e : Fin 330000, 0 ≤ (b (ix1 e)).toInt) (d s : Fin 10000) :
    (truncf .bf16 (Host.scatterAdd scatter_S10000x10000_S330000x2_S330000_n_01_01_1
        (broadcastInDim S10000x10000 ![] bcast_S_S10000x10000 (constant (F := Ideal) S_ .f32 0x00000000#32))
        (concatenate S330000x2 1
          [⟨S330000x1, broadcastInDim S330000x1 ![0] bcast_S330000_S330000x1_0 (adjWrap a)⟩,
           ⟨S330000x1, broadcastInDim S330000x1 ![0] bcast_S330000_S330000x1_0 (adjWrap b)⟩]
          concatenates_S330000x1_S330000x1_S330000x2_d1)
        (broadcastInDim S330000 ![] bcast_S_S330000 (constant (F := Ideal) S_ .f32 0x3F800000#32)))
        bitsLt_bf16_f32 : S10000x10000.Idx → EReal) (ix2 d s)
      = ∑ e ∈ Finset.univ.filter (fun e : Fin 330000 =>
          (a (ix1 e)).toInt = (d.val : Int) ∧ (b (ix1 e)).toInt = (s.val : Int)), (1 : EReal) := by
  rw [truncf_apply, adj_scatterAdd_eq, Cert.Gcn.scatterAddMat_apply, broadcastInDim_scalar_apply, constant_apply,
    Ideal.ofBits_zero_f32, zero_add]
  refine Finset.sum_congr (Finset.filter_congr fun e _ => ?_) (fun e _ => ?_)
  · rw [adj_pair_fst, adj_pair_snd, adjWrap_apply a e (ha e), adjWrap_apply b e (hb e)]
  · rw [broadcastInDim_scalar_apply, constant_apply, Ideal.ofBits_one_f32]

/-- At the second region's entry the matrix main_v38 holds the edge counts of an in-range extended edge list. -/
theorem W5_adj (hsrc : Spec.InRange (aSrc m c)) (hdst : Spec.InRange (aDst m c)) (d s : Fin 10000) :
    W5 m ρ c (Proc.devRef .tc main_v38) (ix2 d s) = Spec.cnt (aSrc m c) (aDst m c) d s := by
  have ha : ∀ e : Fin 330000,
      0 ≤ ((W4 m ρ c (Proc.devRef .tc main_v12) : S330000.Idx → BitVec 32) (ix1 e)).toInt :=
    fun e => by rw [adj_dst_W4]; exact (hdst e).1
  have hb : ∀ e : Fin 330000,
      0 ≤ ((W4 m ρ c (Proc.devRef .tc main_v9) : S330000.Idx → BitVec 32) (ix1 e)).toInt :=
    fun e => by rw [adj_src_W4]; exact (hsrc e).1
  have key : @Eq EReal (W5 m ρ c (Proc.devRef .tc main_v38) (ix2 d s)) (Spec.cnt (aSrc m c) (aDst m c) d s) := by
    refine (congrFun (adj_v38_stretch (W4 m ρ c)) (ix2 d s)).trans ?_
    refine (adj_scatter_apply _ _ ha hb d s).trans ?_
    exact Finset.sum_congr (Finset.filter_congr fun e _ => by rw [adj_dst_W4, adj_src_W4]) (fun _ _ => rfl)
  exact key

end Cert.KernelIdeal.Gen

end
-- ==== Proof.KFold.lean ====
/-
  The kernel program's result, index by index, as the specification's kernel arrangement of the launch arguments.

  The run's contents at each boundary are a fold through @main. The third region's result array is read off the
  arrays it finds; each of those is walked back through the fold to where it was written: the edge counts and the
  dinv column to the host stretch before the second region, the scaled projection to the second region's result, and
  that region's inputs to the first region's results and to the launch arguments. A host stretch leaves a buffer it
  does not write as it was, and a region leaves every buffer that is not one of its arrays as it was.
-/
import proofs.«415961_j42803644072638_2_alg».proof.Proof.Gen.KernelIdeal.Frame
import proofs.«415961_j42803644072638_2_alg».proof.Proof.KArgs
import proofs.«415961_j42803644072638_2_alg».proof.Proof.K0
import proofs.«415961_j42803644072638_2_alg».proof.Proof.K1
import proofs.«415961_j42803644072638_2_alg».proof.Proof.K2
import proofs.«415961_j42803644072638_2_alg».proof.Proof.KDinv
import proofs.«415961_j42803644072638_2_alg».proof.Proof.KAdj
import Idealize.ShloMosaic.Lib.ValueIdx
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg) (c : Dev nD)

/-- No operation of the stretch writes the buffer, so the stretch leaves it as it was. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers the second region reads, walked back -/

/-- Wp · W stays as the first region left it until the second region reads it. -/
theorem W5_v5_0 : W5 m ρ c (Proc.devRef .tc main_v5_0) = W2 m ρ c (Proc.devRef .tc main_v5_0) :=
  calc W5 m ρ c (Proc.devRef .tc main_v5_0)
    _ = W4 m ρ c (Proc.devRef .tc main_v5_0) := by host_keeps hostOps1_2
    _ = W3 m ρ c (Proc.devRef .tc main_v5_0) := by host_keeps hostOps1_1
    _ = W2 m ρ c (Proc.devRef .tc main_v5_0) := by host_keeps hostOps1

/-- bp · W likewise. -/
theorem W5_v5_1 : W5 m ρ c (Proc.devRef .tc main_v5_1) = W2 m ρ c (Proc.devRef .tc main_v5_1) :=
  calc W5 m ρ c (Proc.devRef .tc main_v5_1)
    _ = W4 m ρ c (Proc.devRef .tc main_v5_1) := by host_keeps hostOps1_2
    _ = W3 m ρ c (Proc.devRef .tc main_v5_1) := by host_keeps hostOps1_1
    _ = W2 m ρ c (Proc.devRef .tc main_v5_1) := by host_keeps hostOps1

/-- The node features are the launch argument when the second region reads them. -/
theorem W5_arg0 : W5 m ρ c (Proc.devRef .tc main_arg0) = m ((c : Thread nD τ).loc main_arg0) :=
  calc W5 m ρ c (Proc.devRef .tc main_arg0)
    _ = W4 m ρ c (Proc.devRef .tc main_arg0) := by host_keeps hostOps1_2
    _ = W3 m ρ c (Proc.devRef .tc main_arg0) := by host_keeps hostOps1_1
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c : Thread nD τ).loc main_arg0) := rfl

/-- The convolution's bias is the launch argument after the second region. -/
theorem W6_arg9 : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_keeps hostOps1_2
    _ = W3 m ρ c (Proc.devRef .tc main_arg9) := by host_keeps hostOps1_1
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-! ## Buffers the third region reads, walked back -/

/-- The edge counts: not an array of the second region, not written by the last stretch. -/
theorem W7_v38 : W7 m ρ c (Proc.devRef .tc main_v38) = W5 m ρ c (Proc.devRef .tc main_v38) :=
  calc W7 m ρ c (Proc.devRef .tc main_v38)
    _ = W6 m ρ c (Proc.devRef .tc main_v38) := by host_keeps hostOps2
    _ = W5 m ρ c (Proc.devRef .tc main_v38) := W6_of_ne m ρ c main_v38 (by decide)

/-- The scaled projection is what the second region's write-backs leave. -/
theorem W7_v39 : W7 m ρ c (Proc.devRef .tc main_v39) = (dat1 (V5 m ρ) c).arrAt 4 cfg1.N :=
  calc W7 m ρ c (Proc.devRef .tc main_v39)
    _ = W6 m ρ c (Proc.devRef .tc main_v39) := by host_keeps hostOps2
    _ = (dat1 (V5 m ρ) c).arrAt 4 cfg1.N := W6_arr m ρ c 4

/-- The dinv column is an input array of the second region, which leaves it as entered. -/
theorem W7_v21 : W7 m ρ c (Proc.devRef .tc main_v21) = W5 m ρ c (Proc.devRef .tc main_v21) :=
  calc W7 m ρ c (Proc.devRef .tc main_v21)
    _ = W6 m ρ c (Proc.devRef .tc main_v21) := by host_keeps hostOps2
    _ = W5 m ρ c (Proc.devRef .tc main_v21) :=
        (W6_arr m ρ c 3).trans (((dat1 (V5 m ρ) c).arrAt_in 3 rfl _).trans (A_eq1 (V5 m ρ) c 3))

/-- The bias row the third region reads is the bias argument, reshaped to one row. -/
theorem W7_v40 (h : Fin 256) : (W7 m ρ c (Proc.devRef .tc main_v40) (ix2 0 h) : EReal) = aBg m c h := by
  have e : W7 m ρ c (Proc.devRef .tc main_v40)
      = shapeCast S1x256 (W6 m ρ c (Proc.devRef .tc main_arg9)) shapeCasts_S256_S1x256 := by
    show StableHlo.after hostOps2 _ (Proc.devRef .tc main_v40) = _
    after_results
    rfl
  rw [e, W6_arg9]
  refine (shapeCast_addUnit_apply (n := 1) ![256] _ _ _).trans ?_
  unfold aBg
  refine congrArg _ (funext fun a => ?_)
  obtain rfl : a = 0 := Subsingleton.elim _ _
  rfl

/-! ## The result -/

/-- The kernel program's result array at the last boundary is the specification's kernel arrangement of the launch
    arguments: the third region's block arithmetic over the edge counts, the scaled projection, the dinv column
    and the bias row, each read back to where it was written. -/
theorem kernel_out (hsrc : Spec.InRange (aSrc m c)) (hdst : Spec.InRange (aDst m c)) (d : Fin 10000) (h : Fin 256) :
    (W8 m ρ c (Proc.devRef .tc main_v41) (ix2 d h) : EReal)
      = Spec.outK (aX m c) (aWp m c) (aBp m c) (aW m c) (Spec.dinv (aDst m c))
          (Spec.cnt (aSrc m c) (aDst m c)) (aBg m c) d h := by
  have e8 : W8 m ρ c (Proc.devRef .tc main_v41) = (dat2 (V7 m ρ) c).arrAt 4 cfg2.N := W8_arr m ρ c 4
  rw [e8]
  show r2Out (V7 m ρ) c d h = _
  rw [region2_out]
  have hA : ∀ s, r2A (V7 m ρ) c d s = Spec.cnt (aSrc m c) (aDst m c) d s := fun s => by
    show (W7 m ρ c (Proc.devRef .tc main_v38) (ix2 d s) : EReal) = _
    rw [W7_v38]; exact W5_adj m ρ c hsrc hdst d s
  have hdv : ∀ n, r2dv (V7 m ρ) c n = Spec.dinv (aDst m c) n := fun n => by
    show (W7 m ρ c (Proc.devRef .tc main_v21) (ix2 n 0) : EReal) = _
    rw [W7_v21]; exact W5_dinv m ρ c n
  have hbg : r2bg (V7 m ρ) c h = aBg m c h := W7_v40 m ρ c h
  have hH : ∀ s, r2Hws (V7 m ρ) c s h
      = Spec.hws (aX m c) (aWp m c) (aBp m c) (aW m c) (Spec.dinv (aDst m c)) s h := fun s => by
    show (W7 m ρ c (Proc.devRef .tc main_v39) (ix2 s h) : EReal) = _
    rw [W7_v39]
    show r1Out (V5 m ρ) c s h = _
    rw [region1_out]
    have h1 : ∀ k, r1X (V5 m ρ) c s k = aX m c s k := fun k => by
      show (W5 m ρ c (Proc.devRef .tc main_arg0) (ix2 s k) : EReal) = _
      rw [W5_arg0]; rfl
    have h2 : ∀ k, r1WpW (V5 m ρ) c k h = Spec.WpW (aWp m c) (aW m c) k h := fun k => by
      show (W5 m ρ c (Proc.devRef .tc main_v5_0) (ix2 k h) : EReal) = _
      rw [W5_v5_0]; exact W2_WpW m ρ c k h
    have h3 : r1bW (V5 m ρ) c h = Spec.bW (aBp m c) (aW m c) h := by
      show (W5 m ρ c (Proc.devRef .tc main_v5_1) (ix2 0 h) : EReal) = _
      rw [W5_v5_1]; exact W2_bW m ρ c h
    have h4 : r1dv (V5 m ρ) c s = Spec.dinv (aDst m c) s := W5_dinv m ρ c s
    simp only [h1, h2, h3, h4]
    rfl
  simp only [hA, hdv, hbg, hH]
  rfl

end Cert.KernelIdeal.Gen

end
-- ==== Proof.RW.lean ====
/-
  The reference's evolved weight and its product with the projected features, read at an index: stage main_v42
  is the LSTM step's W, stage main_v43 is (x · Wp + bp) · W.
-/
import proofs.«415961_j42803644072638_2_alg».proof.Proof.RefRead
import proofs.«415961_j42803644072638_2_alg».proof.Proof.Spec
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.RefValue

open Cert.ReferenceIdeal Cert.ReferenceIdeal.Gen Cert.ReferenceIdeal.Read
open Idealize.ShloMosaic Idealize.ShloMosaic.TcCoe Idealize.SL.Sem Idealize.ShloMosaic.ValueIdx

/-! ## Index equations: the composed index functions at plain coordinates -/

theorem lidx5 (r : Fin 256) (q : Fin 1024) (k : Fin 256) : lidx_main_v5 (ix2 r q) k = ix2 r k :=
  funext fun a => Fin.ext (by match a with | ⟨0, _⟩ => rfl | ⟨1, _⟩ => rfl)
theorem ridx5 (r : Fin 256) (q : Fin 1024) (k : Fin 256) : idx_main_v4 (ridx_main_v5 (ix2 r q) k) = ix2 q k :=
  funext fun a => Fin.ext (by match a with | ⟨0, _⟩ => rfl | ⟨1, _⟩ => rfl)
theorem lidx10 (r : Fin 256) (q : Fin 1024) (k : Fin 256) : lidx_main_v10 (ix2 r q) k = ix2 r k :=
  funext fun a => Fin.ext (by match a with | ⟨0, _⟩ => rfl | ⟨1, _⟩ => rfl)
theorem ridx10 (r : Fin 256) (q : Fin 1024) (k : Fin 256) : idx_main_v9 (ridx_main_v10 (ix2 r q) k) = ix2 q k :=
  funext fun a => Fin.ext (by match a with | ⟨0, _⟩ => rfl | ⟨1, _⟩ => rfl)
theorem idx76 (r : Fin 256) (q : Fin 1024) : idx_main_v6 (idx_main_v7 (ix2 r q)) = ix1 q :=
  funext fun a => Fin.ext (by match a with | ⟨0, _⟩ => rfl)
theorem idx1312 (r : Fin 256) (q : Fin 1024) : idx_main_v12 (idx_main_v13 (ix2 r q)) = ix1 q :=
  funext fun a => Fin.ext (by match a with | ⟨0, _⟩ => rfl)

/-- The four gate pre-activations. -/
theorem v14_eq (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (r : Fin 256) (q : Fin 1024) :
    val_main_v14 (F := Ideal) x4 x5 x6 x7 x8 (ix2 r q)
      = Spec.gates (fun a b => x8 (ix2 a b)) (fun q k => x4 (ix2 q k)) (fun q k => x5 (ix2 q k))
          (fun q => x6 (ix1 q)) (fun q => x7 (ix1 q)) r q := by
  rw [val_main_v14_apply, val_main_v11_apply, val_main_v8_apply, val_main_v5_apply, val_main_v7_apply,
    val_main_v6_apply, val_main_v10_apply, val_main_v13_apply, val_main_v12_apply]
  simp only [val_main_v4_apply, val_main_v9_apply, lidx5, ridx5, lidx10, ridx10, idx76, idx1312, Ideal.addf_def]
  rfl

theorem idx15 (r j : Fin 256) : idx_main_v15 (ix2 r j) = ix2 r (Spec.gcol 0 j) :=
  funext fun a => Fin.ext (by
    match a with
    | ⟨0, _⟩ => rfl
    | ⟨1, _⟩ => show j.val = 256 * (0 : Fin 4).val + j.val; simp)
theorem idx16 (r j : Fin 256) : idx_main_v16 (ix2 r j) = ix2 r (Spec.gcol 1 j) :=
  funext fun a => Fin.ext (by
    match a with
    | ⟨0, _⟩ => rfl
    | ⟨1, _⟩ => show 256 + j.val = 256 * (1 : Fin 4).val + j.val; simp)
theorem idx17 (r j : Fin 256) : idx_main_v17 (ix2 r j) = ix2 r (Spec.gcol 2 j) :=
  funext fun a => Fin.ext (by
    match a with
    | ⟨0, _⟩ => rfl
    | ⟨1, _⟩ => show 512 + j.val = 256 * (2 : Fin 4).val + j.val; simp)
theorem idx18 (r j : Fin 256) : idx_main_v18 (ix2 r j) = ix2 r (Spec.gcol 3 j) :=
  funext fun a => Fin.ext (by
    match a with
    | ⟨0, _⟩ => rfl
    | ⟨1, _⟩ => show 768 + j.val = 256 * (3 : Fin 4).val + j.val; simp)

/-- The printed expansion 1 / (1 + exp (-g)) of the sigmoid, its ones given as f32 bit patterns. -/
theorem sig_eq (g : EReal) :
    Ideal.div (Ideal.ofBits .f32 0x3F800000#32) (Ideal.ofBits .f32 0x3F800000#32 + Ideal.exp (-g)) = Ideal.logistic g := by
  rw [Ideal.ofBits_one_f32]; rfl

/-- σ(f): the forget gate. -/
theorem v24_eq (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (r j : Fin 256) :
    val_main_v24 (F := Ideal) x4 x5 x6 x7 x8 (ix2 r j)
      = Ideal.logistic (Spec.gates (fun a b => x8 (ix2 a b)) (fun q k => x4 (ix2 q k)) (fun q k => x5 (ix2 q k))
          (fun q => x6 (ix1 q)) (fun q => x7 (ix1 q)) r (Spec.gcol 1 j)) := by
  rw [val_main_v24_apply, val_main_v23_apply, val_main_cst_0_apply, val_main_v22_apply, val_main_v21_apply,
    val_main_cst_apply, val_main_v20_apply, val_main_v19_apply, val_main_v16_apply, idx16, v14_eq]
  simp only [Ideal.hostDivf_def, Ideal.hostUnary_exp_def, Ideal.hostNegf_def, Ideal.negf_def, Ideal.addf_def, Ideal.ofBits_def]
  exact sig_eq _

/-- σ(i): the input gate. -/
theorem v31_eq (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (r j : Fin 256) :
    val_main_v31 (F := Ideal) x4 x5 x6 x7 x8 (ix2 r j)
      = Ideal.logistic (Spec.gates (fun a b => x8 (ix2 a b)) (fun q k => x4 (ix2 q k)) (fun q k => x5 (ix2 q k))
          (fun q => x6 (ix1 q)) (fun q => x7 (ix1 q)) r (Spec.gcol 0 j)) := by
  rw [val_main_v31_apply, val_main_v30_apply, val_main_cst_2_apply, val_main_v29_apply, val_main_v28_apply,
    val_main_cst_1_apply, val_main_v27_apply, val_main_v26_apply, val_main_v15_apply, idx15, v14_eq]
  simp only [Ideal.hostDivf_def, Ideal.hostUnary_exp_def, Ideal.hostNegf_def, Ideal.negf_def, Ideal.addf_def, Ideal.ofBits_def]
  exact sig_eq _

/-- σ(o): the output gate. -/
theorem v40_eq (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (r j : Fin 256) :
    val_main_v40 (F := Ideal) x4 x5 x6 x7 x8 (ix2 r j)
      = Ideal.logistic (Spec.gates (fun a b => x8 (ix2 a b)) (fun q k => x4 (ix2 q k)) (fun q k => x5 (ix2 q k))
          (fun q => x6 (ix1 q)) (fun q => x7 (ix1 q)) r (Spec.gcol 3 j)) := by
  rw [val_main_v40_apply, val_main_v39_apply, val_main_cst_4_apply, val_main_v38_apply, val_main_v37_apply,
    val_main_cst_3_apply, val_main_v36_apply, val_main_v35_apply, val_main_v18_apply, idx18, v14_eq]
  simp only [Ideal.hostDivf_def, Ideal.hostUnary_exp_def, Ideal.hostNegf_def, Ideal.negf_def, Ideal.addf_def, Ideal.ofBits_def]
  exact sig_eq _

/-- tanh(g): the cell candidate. -/
theorem v32_eq (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (r j : Fin 256) :
    val_main_v32 (F := Ideal) x4 x5 x6 x7 x8 (ix2 r j)
      = Ideal.tanh (Spec.gates (fun a b => x8 (ix2 a b)) (fun q k => x4 (ix2 q k)) (fun q k => x5 (ix2 q k))
          (fun q => x6 (ix1 q)) (fun q => x7 (ix1 q)) r (Spec.gcol 2 j)) := by
  rw [val_main_v32_apply, val_main_v17_apply, idx17, v14_eq]
  rfl

/-- The reference's evolved weight is the specification's. -/
theorem v42_eq (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (r j : Fin 256) :
    val_main_v42 (F := Ideal) x4 x5 x6 x7 x8 (ix2 r j)
      = Spec.Wev (fun a b => x8 (ix2 a b)) (fun q k => x4 (ix2 q k)) (fun q k => x5 (ix2 q k))
          (fun q => x6 (ix1 q)) (fun q => x7 (ix1 q)) r j := by
  rw [val_main_v42_apply, val_main_v41_apply, val_main_v34_apply, val_main_v25_apply, val_main_v33_apply,
    v40_eq, v24_eq, v31_eq, v32_eq]
  rfl

theorem lidx43 (n : Fin 10000) (h k : Fin 256) : lidx_main_v43 (ix2 n h) k = ix2 n k :=
  funext fun a => Fin.ext (by match a with | ⟨0, _⟩ => rfl | ⟨1, _⟩ => rfl)
theorem ridx43 (n : Fin 10000) (h k : Fin 256) : ridx_main_v43 (ix2 n h) k = ix2 k h :=
  funext fun a => Fin.ext (by match a with | ⟨0, _⟩ => rfl | ⟨1, _⟩ => rfl)
theorem lidx0 (n : Fin 10000) (j : Fin 256) (k : Fin 128) : lidx_main_v0 (ix2 n j) k = ix2 n k :=
  funext fun a => Fin.ext (by match a with | ⟨0, _⟩ => rfl | ⟨1, _⟩ => rfl)
theorem ridx0 (n : Fin 10000) (j : Fin 256) (k : Fin 128) : ridx_main_v0 (ix2 n j) k = ix2 k j :=
  funext fun a => Fin.ext (by match a with | ⟨0, _⟩ => rfl | ⟨1, _⟩ => rfl)
theorem idx21 (n : Fin 10000) (j : Fin 256) : idx_main_v1 (idx_main_v2 (ix2 n j)) = ix1 j :=
  funext fun a => Fin.ext (by match a with | ⟨0, _⟩ => rfl)

/-- The projected features x · Wp + bp. -/
theorem v3_eq (x0 : (⟨S10000x128, .f32⟩ : BufTy).Contents (Elt Ideal)) (x2 : (⟨S128x256, .f32⟩ : BufTy).Contents (Elt Ideal)) (x3 : (⟨S256, .f32⟩ : BufTy).Contents (Elt Ideal)) (n : Fin 10000) (j : Fin 256) :
    val_main_v3 (F := Ideal) x0 x2 x3 (ix2 n j) = (∑ k : Fin 128, x0 (ix2 n k) * x2 (ix2 k j)) + x3 (ix1 j) := by
  rw [val_main_v3_apply, val_main_v0_apply, val_main_v2_apply, val_main_v1_apply]
  simp only [lidx0, ridx0, idx21, Ideal.addf_def]

/-- The reference's (x · Wp + bp) · W. -/
theorem v43_eq (x0 : (⟨S10000x128, .f32⟩ : BufTy).Contents (Elt Ideal)) (x2 : (⟨S128x256, .f32⟩ : BufTy).Contents (Elt Ideal)) (x3 : (⟨S256, .f32⟩ : BufTy).Contents (Elt Ideal))
    (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (n : Fin 10000) (h : Fin 256) :
    val_main_v43 (F := Ideal) x0 x2 x3 x4 x5 x6 x7 x8 (ix2 n h)
      = Spec.hw (fun s k => x0 (ix2 s k)) (fun k j => x2 (ix2 k j)) (fun j => x3 (ix1 j))
          (Spec.Wev (fun a b => x8 (ix2 a b)) (fun q k => x4 (ix2 q k)) (fun q k => x5 (ix2 q k))
            (fun q => x6 (ix1 q)) (fun q => x7 (ix1 q))) n h := by
  rw [val_main_v43_apply]
  simp only [lidx43, ridx43, v3_eq, v42_eq]
  rfl

end Cert.RefValue

end
-- ==== Proof.RDinv.lean ====
/-
  The reference's extended edge list and its inverse square roots of the in-degrees, read at an index: stages
  main_v47 and main_v50 are the sources and targets with the self loops appended, stage main_v58 is dinv.

  A concatenation along its one axis reads its first piece below the seam and its second piece, the seam less, from the
  seam on; the second piece is the iota, so a self loop's word is its node number. The degree scatter starts from zero and
  adds a one for every list entry whose target word, read signed, is the node: the in-degree. The compare against zero and
  the select on its bit give the inverse square root where the degree is positive and zero elsewhere.
-/
import proofs.«415961_j42803644072638_2_alg».proof.Proof.RefRead
import proofs.«415961_j42803644072638_2_alg».proof.Proof.Spec
import proofs.«415961_j42803644072638_2_alg».proof.Proof.LibScatter
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.RefValue

open Cert.ReferenceIdeal Cert.ReferenceIdeal.Gen Cert.ReferenceIdeal.Read
open Idealize.ShloMosaic Idealize.ShloMosaic.TcCoe Idealize.SL.Sem Idealize.ShloMosaic.ValueIdx

/-- The extended source list. -/
theorem v47_eq (x1 : (⟨S2x320000, .i32⟩ : BufTy).Contents (Elt Ideal)) (e : Fin 330000) :
    val_main_v47 (F := Ideal) x1 (ix1 e) = Spec.srcAll (fun a e => x1 (ix2 a e)) e := by
  unfold val_main_v47 Spec.srcAll
  by_cases h : e.val < 320000
  · rw [dif_pos h]
    rw [concatenate_pair_apply_left (t := S330000) (s₁ := S320000) (s₂ := S10000) 0 (val_main_v46 (F := Ideal) x1)
      (val_main_v44 (F := Ideal)) concatenates_S320000_S10000_S330000_d0 (ix1 e) rfl
      (ix1 (⟨e.val, h⟩ : Fin 320000)) (fun b => by
        match b with
        | ⟨0, _⟩ => rfl)]
    rw [val_main_v46_apply, val_main_v45_apply]
    congr 1
    funext a
    match a with
    | ⟨0, _⟩ => rfl
    | ⟨1, _⟩ => exact Fin.ext (by show e.val % 320000 = e.val; omega)
  · rw [dif_neg h]
    rw [concatenate_pair_apply_right (t := S330000) (s₁ := S320000) (s₂ := S10000) 0 (val_main_v46 (F := Ideal) x1)
      (val_main_v44 (F := Ideal)) concatenates_S320000_S10000_S330000_d0 (ix1 e) rfl rfl
      (ix1 (⟨e.val - 320000, by omega⟩ : Fin 10000))
      (fun b hb => by
        match b with
        | ⟨0, _⟩ => exact absurd rfl hb)
      (by show e.val - 320000 + 320000 = e.val; omega)]
    rw [val_main_v44_apply]

/-- The extended target list. -/
theorem v50_eq (x1 : (⟨S2x320000, .i32⟩ : BufTy).Contents (Elt Ideal)) (e : Fin 330000) :
    val_main_v50 (F := Ideal) x1 (ix1 e) = Spec.dstAll (fun a e => x1 (ix2 a e)) e := by
  unfold val_main_v50 Spec.dstAll
  by_cases h : e.val < 320000
  · rw [dif_pos h]
    rw [concatenate_pair_apply_left (t := S330000) (s₁ := S320000) (s₂ := S10000) 0 (val_main_v49 (F := Ideal) x1)
      (val_main_v44 (F := Ideal)) concatenates_S320000_S10000_S330000_d0 (ix1 e) rfl
      (ix1 (⟨e.val, h⟩ : Fin 320000)) (fun b => by
        match b with
        | ⟨0, _⟩ => rfl)]
    rw [val_main_v49_apply, val_main_v48_apply]
    congr 1
    funext a
    match a with
    | ⟨0, _⟩ => rfl
    | ⟨1, _⟩ => exact Fin.ext (by show e.val % 320000 = e.val; omega)
  · rw [dif_neg h]
    rw [concatenate_pair_apply_right (t := S330000) (s₁ := S320000) (s₂ := S10000) 0 (val_main_v49 (F := Ideal) x1)
      (val_main_v44 (F := Ideal)) concatenates_S320000_S10000_S330000_d0 (ix1 e) rfl rfl
      (ix1 (⟨e.val - 320000, by omega⟩ : Fin 10000))
      (fun b hb => by
        match b with
        | ⟨0, _⟩ => exact absurd rfl hb)
      (by show e.val - 320000 + 320000 = e.val; omega)]
    rw [val_main_v44_apply]

/-- The column of targets the degree scatter reads, at row e. -/
theorem v53_eq (x1 : (⟨S2x320000, .i32⟩ : BufTy).Contents (Elt Ideal)) (e : Fin 330000) :
    val_main_v53 (F := Ideal) x1 (ix2 e (0 : Fin 1)) = Spec.dstAll (fun a e => x1 (ix2 a e)) e := by
  rw [val_main_v53_apply]
  have hi : idx_main_v53 (ix2 e (0 : Fin 1)) = ix1 e := by
    funext a
    match a with
    | ⟨0, _⟩ => rfl
  rw [hi]
  exact v50_eq x1 e

/-- Every update of the degree scatter is the constant one. -/
theorem v51_eq (e : Fin 330000) : val_main_v51 (F := Ideal) (ix1 e) = 1 := by
  rw [val_main_v51_apply, val_main_cst_5_apply, Ideal.ofBits_def, Ideal.ofBits_one_f32]

/-- The degree scatter starts from zero. -/
theorem v52_eq (d : Fin 10000) : val_main_v52 (F := Ideal) (ix1 d) = 0 := by
  rw [val_main_v52_apply, val_main_cst_6_apply, Ideal.ofBits_def, Ideal.ofBits_zero_f32]

/-- The printed dimension numbers of the degree scatter are those of an element scatter. -/
theorem degScatter_eq : scatter_S10000_S330000x1_S330000_n_0_0_1
    = Cert.Gcn.vecScatterDims 10000 330000 scatter_S10000_S330000x1_S330000_n_0_0_1_wf := rfl

/-- The scattered ones are the in-degrees. -/
theorem v54_eq (x1 : (⟨S2x320000, .i32⟩ : BufTy).Contents (Elt Ideal)) (d : Fin 10000) :
    val_main_v54 (F := Ideal) x1 (ix1 d) = Spec.deg (Spec.dstAll (fun a e => x1 (ix2 a e))) d := by
  unfold val_main_v54 Host.scatterAdd
  rw [Ideal.hostScatterAdd_def, degScatter_eq, Cert.Gcn.scatterAddVec_apply, v52_eq, zero_add]
  unfold Spec.deg
  refine Finset.sum_congr ?_ (fun e _ => v51_eq e)
  ext e
  simp only [Finset.mem_filter, Finset.mem_univ, true_and, v53_eq]

/-- dinv of the extended target list. -/
theorem v58_eq (x1 : (⟨S2x320000, .i32⟩ : BufTy).Contents (Elt Ideal)) (d : Fin 10000) :
    val_main_v58 (F := Ideal) x1 (ix1 d) = Spec.dinv (Spec.dstAll (fun a e => x1 (ix2 a e))) d := by
  rw [val_main_v58_apply, val_main_v56_apply, val_main_v57_apply, val_main_call0_v1_apply, val_main_call0_v0_apply,
    val_main_cst_8_apply, val_main_v55_apply, val_main_cst_7_apply, v54_eq, Ideal.ofBits_def, Ideal.ofBits_zero_f32,
    Ideal.hostUnary_rsqrt_def, Ideal.cmpf_def]
  unfold Spec.dinv
  by_cases h : 0 < Spec.deg (Spec.dstAll (fun a e => x1 (ix2 a e))) d
  · rw [if_pos h]
    have hc : Ideal.cmp .ogt (Spec.deg (Spec.dstAll (fun a e => x1 (ix2 a e))) d) 0 = 1#1 := by
      unfold Ideal.cmp
      simp only [decide_eq_true h]
      rfl
    rw [hc, select_one]
  · rw [if_neg h]
    have hc : Ideal.cmp .ogt (Spec.deg (Spec.dstAll (fun a e => x1 (ix2 a e))) d) 0 = 0#1 := by
      unfold Ideal.cmp
      simp only [decide_eq_false h]
      rfl
    rw [hc, select_zero]

end Cert.RefValue

end
-- ==== Proof.RTail.lean ====
/-
  The reference's result read at an index: gathers of hw and dinv at the sources and targets, their product, a
  scatter-add of the rows at the targets, the bias. On an in-range extended edge list no word is wrapped.
-/
import proofs.«415961_j42803644072638_2_alg».proof.Proof.RefRead
import proofs.«415961_j42803644072638_2_alg».proof.Proof.Spec
import proofs.«415961_j42803644072638_2_alg».proof.Proof.LibScatter
import proofs.«415961_j42803644072638_2_alg».proof.Proof.RW
import proofs.«415961_j42803644072638_2_alg».proof.Proof.RDinv
import Idealize.ShloMosaic.Lib.ValueIdx
import Idealize.ShloMosaic.Lib.Pipeline.Value
import Idealize.ShloMosaic.PureOps.Ideal.Laws

set_option maxRecDepth 16384

noncomputable section

namespace Cert.RefValue

open Cert.ReferenceIdeal Cert.ReferenceIdeal.Gen Cert.ReferenceIdeal.Read
open Idealize.ShloMosaic Idealize.ShloMosaic.TcCoe Idealize.SL.Sem Idealize.ShloMosaic.ValueIdx

/-! ## Words and indices -/

/-- A word that is not negative is not below zero: the signed compare's bit is 0. -/
theorem slt_zero_of_nonneg (w : BitVec 32) (h : 0 ≤ w.toInt) : IntOp.cmpi .slt w 0#32 = 0#1 := by
  have hb : w.slt 0#32 = false := by
    simp only [BitVec.slt, BitVec.toInt_zero, decide_eq_false_iff_not, not_lt]
    exact h
  show BitVec.ofBool (w.slt 0#32) = 0#1
  rw [hb]
  rfl

/-- Row e of a one-column array, read back along the column, is entry e of the list. -/
theorem col_idx (e : Fin 330000) :
    (fun a : Fin 1 => match a with | ⟨0, _⟩ => (⟨((ix2 e (0 : Fin 1) : S330000x1.Idx) 0).val, ((ix2 e (0 : Fin 1) : S330000x1.Idx) 0).isLt⟩ : Fin 330000))
      = (ix1 e : S330000.Idx) := by
  funext a
  match a with
  | ⟨0, _⟩ => rfl

/-- An element gather read at entry e. -/
theorem gatherVec_at {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (Cert.Gcn.vecGatherDims N E wf) x idx (ix1 e)
      = x (ix1 (Cert.Gcn.crow N hN (idx (ix2 e (0 : Fin 1))))) :=
  Cert.Gcn.gatherVec_apply hN wf x idx (ix1 e)

/-- A row gather read at entry e, column c. -/
theorem gatherRows_at {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (e : Fin E) (c : Fin D) :
    Host.gather (Cert.Gcn.rowGatherDims N E D wf) x idx (ix2 e c)
      = x (ix2 (Cert.Gcn.crow N hN (idx (ix2 e (0 : Fin 1)))) c) :=
  Cert.Gcn.gatherRows_apply hN wf x idx (ix2 e c)

/-! ## The wrapped words: on an in-range list the compare's bit is 0 and the select returns the word -/

/-- Stages 60 … 63: the source word. -/
theorem v63_eq (x1 : (⟨S2x320000, .i32⟩ : BufTy).Contents (Elt Ideal)) (hsrc : Spec.InRange (Spec.srcAll (fun a e => x1 (ix2 a e)))) (e : Fin 330000) :
    val_main_v63 (F := Ideal) x1 (ix1 e) = Spec.srcAll (fun a e => x1 (ix2 a e)) e := by
  rw [val_main_v63_apply, val_main_v60_apply, val_main_v59_apply, val_main_c_apply, v47_eq,
    slt_zero_of_nonneg _ (hsrc e).1, select_zero]

/-- Stages 67 … 70: the target word. -/
theorem v70_eq (x1 : (⟨S2x320000, .i32⟩ : BufTy).Contents (Elt Ideal)) (hdst : Spec.InRange (Spec.dstAll (fun a e => x1 (ix2 a e)))) (e : Fin 330000) :
    val_main_v70 (F := Ideal) x1 (ix1 e) = Spec.dstAll (fun a e => x1 (ix2 a e)) e := by
  rw [val_main_v70_apply, val_main_v67_apply, val_main_v66_apply, val_main_c_10_apply, v50_eq,
    slt_zero_of_nonneg _ (hdst e).1, select_zero]

/-- Stages 75 … 78: the source word again. -/
theorem v78_eq (x1 : (⟨S2x320000, .i32⟩ : BufTy).Contents (Elt Ideal)) (hsrc : Spec.InRange (Spec.srcAll (fun a e => x1 (ix2 a e)))) (e : Fin 330000) :
    val_main_v78 (F := Ideal) x1 (ix1 e) = Spec.srcAll (fun a e => x1 (ix2 a e)) e := by
  rw [val_main_v78_apply, val_main_v75_apply, val_main_v74_apply, val_main_c_12_apply, v47_eq,
    slt_zero_of_nonneg _ (hsrc e).1, select_zero]

/-- Stage 64: the source words as a column. -/
theorem v64_eq (x1 : (⟨S2x320000, .i32⟩ : BufTy).Contents (Elt Ideal)) (hsrc : Spec.InRange (Spec.srcAll (fun a e => x1 (ix2 a e)))) (e : Fin 330000) :
    val_main_v64 (F := Ideal) x1 (ix2 e (0 : Fin 1)) = Spec.srcAll (fun a e => x1 (ix2 a e)) e := by
  rw [val_main_v64_apply]
  show val_main_v63 (F := Ideal) x1 (fun a : Fin 1 => match a with | ⟨0, _⟩ => (⟨((ix2 e (0 : Fin 1) : S330000x1.Idx) 0).val, ((ix2 e (0 : Fin 1) : S330000x1.Idx) 0).isLt⟩ : Fin 330000)) = _
  rw [col_idx, v63_eq x1 hsrc]

/-- Stage 71: the target words as a column. -/
theorem v71_eq (x1 : (⟨S2x320000, .i32⟩ : BufTy).Contents (Elt Ideal)) (hdst : Spec.InRange (Spec.dstAll (fun a e => x1 (ix2 a e)))) (e : Fin 330000) :
    val_main_v71 (F := Ideal) x1 (ix2 e (0 : Fin 1)) = Spec.dstAll (fun a e => x1 (ix2 a e)) e := by
  rw [val_main_v71_apply]
  show val_main_v70 (F := Ideal) x1 (fun a : Fin 1 => match a with | ⟨0, _⟩ => (⟨((ix2 e (0 : Fin 1) : S330000x1.Idx) 0).val, ((ix2 e (0 : Fin 1) : S330000x1.Idx) 0).isLt⟩ : Fin 330000)) = _
  rw [col_idx, v70_eq x1 hdst]

/-- Stage 79: the source words as a column, again. -/
theorem v79_eq (x1 : (⟨S2x320000, .i32⟩ : BufTy).Contents (Elt Ideal)) (hsrc : Spec.InRange (Spec.srcAll (fun a e => x1 (ix2 a e)))) (e : Fin 330000) :
    val_main_v79 (F := Ideal) x1 (ix2 e (0 : Fin 1)) = Spec.srcAll (fun a e => x1 (ix2 a e)) e := by
  rw [val_main_v79_apply]
  show val_main_v78 (F := Ideal) x1 (fun a : Fin 1 => match a with | ⟨0, _⟩ => (⟨((ix2 e (0 : Fin 1) : S330000x1.Idx) 0).val, ((ix2 e (0 : Fin 1) : S330000x1.Idx) 0).isLt⟩ : Fin 330000)) = _
  rw [col_idx, v78_eq x1 hsrc]

/-- Stage 85: the raw target words as a column. -/
theorem v85_eq (x1 : (⟨S2x320000, .i32⟩ : BufTy).Contents (Elt Ideal)) (e : Fin 330000) :
    val_main_v85 (F := Ideal) x1 (ix2 e (0 : Fin 1)) = Spec.dstAll (fun a e => x1 (ix2 a e)) e := by
  rw [val_main_v85_apply]
  show val_main_v50 (F := Ideal) x1 (fun a : Fin 1 => match a with | ⟨0, _⟩ => (⟨((ix2 e (0 : Fin 1) : S330000x1.Idx) 0).val, ((ix2 e (0 : Fin 1) : S330000x1.Idx) 0).isLt⟩ : Fin 330000)) = _
  rw [col_idx, v50_eq]

/-! ## The gathers -/

/-- Stage 65: dinv at the sources. -/
theorem v65_eq (x1 : (⟨S2x320000, .i32⟩ : BufTy).Contents (Elt Ideal)) (hsrc : Spec.InRange (Spec.srcAll (fun a e => x1 (ix2 a e)))) (e : Fin 330000) :
    val_main_v65 (F := Ideal) x1 (ix1 e) = Spec.dinv (Spec.dstAll (fun a e => x1 (ix2 a e))) (Cert.Gcn.crow 10000 (by decide) (Spec.srcAll (fun a e => x1 (ix2 a e)) e)) := by
  show Host.gather (Cert.Gcn.vecGatherDims 10000 330000 gather_S10000_S330000x1_S330000_n_0_n_n_0_1_1_wf)
      (val_main_v58 (F := Ideal) x1) (val_main_v64 (F := Ideal) x1) (ix1 e) = _
  rw [gatherVec_at (by decide : 0 < 10000), v64_eq x1 hsrc, v58_eq]

/-- Stage 72: dinv at the targets. -/
theorem v72_eq (x1 : (⟨S2x320000, .i32⟩ : BufTy).Contents (Elt Ideal)) (hdst : Spec.InRange (Spec.dstAll (fun a e => x1 (ix2 a e)))) (e : Fin 330000) :
    val_main_v72 (F := Ideal) x1 (ix1 e) = Spec.dinv (Spec.dstAll (fun a e => x1 (ix2 a e))) (Cert.Gcn.crow 10000 (by decide) (Spec.dstAll (fun a e => x1 (ix2 a e)) e)) := by
  show Host.gather (Cert.Gcn.vecGatherDims 10000 330000 gather_S10000_S330000x1_S330000_n_0_n_n_0_1_1_wf)
      (val_main_v58 (F := Ideal) x1) (val_main_v71 (F := Ideal) x1) (ix1 e) = _
  rw [gatherVec_at (by decide : 0 < 10000), v71_eq x1 hdst, v58_eq]

/-- Stage 73: the edge's weight dinv[src] · dinv[dst]. -/
theorem v73_eq (x1 : (⟨S2x320000, .i32⟩ : BufTy).Contents (Elt Ideal)) (hsrc : Spec.InRange (Spec.srcAll (fun a e => x1 (ix2 a e)))) (hdst : Spec.InRange (Spec.dstAll (fun a e => x1 (ix2 a e)))) (e : Fin 330000) :
    val_main_v73 (F := Ideal) x1 (ix1 e)
      = Spec.dinv (Spec.dstAll (fun a e => x1 (ix2 a e))) (Cert.Gcn.crow 10000 (by decide) (Spec.srcAll (fun a e => x1 (ix2 a e)) e)) * Spec.dinv (Spec.dstAll (fun a e => x1 (ix2 a e))) (Cert.Gcn.crow 10000 (by decide) (Spec.dstAll (fun a e => x1 (ix2 a e)) e)) := by
  rw [val_main_v73_apply, v65_eq x1 hsrc, v72_eq x1 hdst]
  rfl

/-- Stage 80: the rows of hw at the sources. -/
theorem v80_eq (x0 : (⟨S10000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal))
    (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (hsrc : Spec.InRange (Spec.srcAll (fun a e => x1 (ix2 a e)))) (e : Fin 330000) (h : Fin 256) :
    val_main_v80 (F := Ideal) x0 x1 x2 x3 x4 x5 x6 x7 x8 (ix2 e h)
      = Spec.hw (fun s k => x0 (ix2 s k)) (fun k j => x2 (ix2 k j)) (fun j => x3 (ix1 j))
          (Spec.Wev (fun a b => x8 (ix2 a b)) (fun q k => x4 (ix2 q k)) (fun q k => x5 (ix2 q k))
            (fun q => x6 (ix1 q)) (fun q => x7 (ix1 q))) (Cert.Gcn.crow 10000 (by decide) (Spec.srcAll (fun a e => x1 (ix2 a e)) e)) h := by
  show Host.gather (Cert.Gcn.rowGatherDims 10000 330000 256 gather_S10000x256_S330000x1_S330000x256_1_0_n_n_0_1_1256_wf)
      (val_main_v43 (F := Ideal) x0 x2 x3 x4 x5 x6 x7 x8) (val_main_v79 (F := Ideal) x1) (ix2 e h) = _
  rw [gatherRows_at (by decide : 0 < 10000), v79_eq x1 hsrc, v43_eq]

/-- Stages 81, 82: the edge's weight along the columns. -/
theorem v82_eq (x1 : (⟨S2x320000, .i32⟩ : BufTy).Contents (Elt Ideal)) (e : Fin 330000) (h : Fin 256) :
    val_main_v82 (F := Ideal) x1 (ix2 e h) = val_main_v73 (F := Ideal) x1 (ix1 e) := by
  rw [val_main_v82_apply, val_main_v81_apply]
  congr 1
  funext a
  match a with
  | ⟨0, _⟩ => rfl

/-- Stage 83: the update rows. -/
theorem v83_eq (x0 : (⟨S10000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal))
    (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (hsrc : Spec.InRange (Spec.srcAll (fun a e => x1 (ix2 a e)))) (hdst : Spec.InRange (Spec.dstAll (fun a e => x1 (ix2 a e)))) (e : Fin 330000) (h : Fin 256) :
    val_main_v83 (F := Ideal) x0 x1 x2 x3 x4 x5 x6 x7 x8 (ix2 e h)
      = Spec.hw (fun s k => x0 (ix2 s k)) (fun k j => x2 (ix2 k j)) (fun j => x3 (ix1 j))
          (Spec.Wev (fun a b => x8 (ix2 a b)) (fun q k => x4 (ix2 q k)) (fun q k => x5 (ix2 q k))
            (fun q => x6 (ix1 q)) (fun q => x7 (ix1 q))) (Cert.Gcn.crow 10000 (by decide) (Spec.srcAll (fun a e => x1 (ix2 a e)) e)) h
        * (Spec.dinv (Spec.dstAll (fun a e => x1 (ix2 a e))) (Cert.Gcn.crow 10000 (by decide) (Spec.srcAll (fun a e => x1 (ix2 a e)) e)) * Spec.dinv (Spec.dstAll (fun a e => x1 (ix2 a e))) (Cert.Gcn.crow 10000 (by decide) (Spec.dstAll (fun a e => x1 (ix2 a e)) e))) := by
  rw [val_main_v83_apply, v80_eq x0 x1 x2 x3 x4 x5 x6 x7 x8 hsrc, v82_eq, v73_eq x1 hsrc hdst]
  rfl

/-! ## The scatter-add and the bias -/

/-- Stage 86: at node d, the sum of the update rows of the edges whose raw target word is d. -/
theorem v86_eq (x0 : (⟨S10000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal))
    (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (hsrc : Spec.InRange (Spec.srcAll (fun a e => x1 (ix2 a e)))) (hdst : Spec.InRange (Spec.dstAll (fun a e => x1 (ix2 a e)))) (d : Fin 10000) (h : Fin 256) :
    val_main_v86 (F := Ideal) x0 x1 x2 x3 x4 x5 x6 x7 x8 (ix2 d h)
      = ∑ e ∈ Finset.univ.filter (fun e => ((Spec.dstAll (fun a e => x1 (ix2 a e))) e).toInt = (d.val : Int)),
          Spec.hw (fun s k => x0 (ix2 s k)) (fun k j => x2 (ix2 k j)) (fun j => x3 (ix1 j))
          (Spec.Wev (fun a b => x8 (ix2 a b)) (fun q k => x4 (ix2 q k)) (fun q k => x5 (ix2 q k))
            (fun q => x6 (ix1 q)) (fun q => x7 (ix1 q))) (Cert.Gcn.crow 10000 (by decide) (Spec.srcAll (fun a e => x1 (ix2 a e)) e)) h
            * (Spec.dinv (Spec.dstAll (fun a e => x1 (ix2 a e))) (Cert.Gcn.crow 10000 (by decide) (Spec.srcAll (fun a e => x1 (ix2 a e)) e)) * Spec.dinv (Spec.dstAll (fun a e => x1 (ix2 a e))) (Cert.Gcn.crow 10000 (by decide) (Spec.dstAll (fun a e => x1 (ix2 a e)) e))) := by
  show Ideal.hostScatterAdd (Cert.Gcn.rowScatterDims 10000 330000 256 scatter_S10000x256_S330000x1_S330000x256_1_0_0_1_wf)
      (val_main_v84 (F := Ideal)) (val_main_v85 (F := Ideal) x1)
      (val_main_v83 (F := Ideal) x0 x1 x2 x3 x4 x5 x6 x7 x8) (ix2 d h) = _
  rw [Cert.Gcn.scatterAddRows_apply, val_main_v84_apply, val_main_cst_14_apply]
  show Ideal.ofBits .f32 0x00000000#32 + _ = _
  rw [Ideal.ofBits_zero_f32, zero_add]
  refine Finset.sum_congr (Finset.filter_congr fun e _ => by rw [v85_eq]) fun e _ => ?_
  exact v83_eq x0 x1 x2 x3 x4 x5 x6 x7 x8 hsrc hdst e h

/-- Stages 87, 88: the bias along the rows. -/
theorem v88_eq (x9 : (⟨S256, .f32⟩ : BufTy).Contents (Elt Ideal)) (d : Fin 10000) (h : Fin 256) :
    val_main_v88 (F := Ideal) x9 (ix2 d h) = x9 (ix1 h) := by
  rw [val_main_v88_apply, val_main_v87_apply]
  congr 1
  funext a
  match a with
  | ⟨0, _⟩ => rfl

/-- The reference's result is the specification's edge sum. -/
theorem v89_eq (x0 : (⟨S10000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal))
    (x4 x5 : (⟨S1024x256, .f32⟩ : BufTy).Contents (Elt Ideal)) (x6 x7 : (⟨S1024, .f32⟩ : BufTy).Contents (Elt Ideal)) (x8 : (⟨S256x256, .f32⟩ : BufTy).Contents (Elt Ideal)) (x9 : (⟨S256, .f32⟩ : BufTy).Contents (Elt Ideal))
    (hsrc : Spec.InRange (Spec.srcAll (fun a e => x1 (ix2 a e))))
    (hdst : Spec.InRange (Spec.dstAll (fun a e => x1 (ix2 a e)))) (d : Fin 10000) (h : Fin 256) :
    val_main_v89 (F := Ideal) x0 x1 x2 x3 x4 x5 x6 x7 x8 x9 (ix2 d h)
      = Spec.outR (fun s k => x0 (ix2 s k)) (fun k j => x2 (ix2 k j)) (fun j => x3 (ix1 j))
          (Spec.Wev (fun a b => x8 (ix2 a b)) (fun q k => x4 (ix2 q k)) (fun q k => x5 (ix2 q k))
            (fun q => x6 (ix1 q)) (fun q => x7 (ix1 q)))
          (Spec.dinv (Spec.dstAll (fun a e => x1 (ix2 a e))))
          (Spec.srcAll (fun a e => x1 (ix2 a e))) (Spec.dstAll (fun a e => x1 (ix2 a e)))
          (fun j => x9 (ix1 j)) d h := by
  rw [val_main_v89_apply, v86_eq x0 x1 x2 x3 x4 x5 x6 x7 x8 hsrc hdst, v88_eq]
  rfl

end Cert.RefValue

end
-- ==== Proof.SpecLaws.lean ====
/-
  Over the reals the kernel's arrangement of the result is the reference's: matrix multiplication is associative and
  distributes over the bias row, and a sum over sources weighted by edge counts is the sum over the edges themselves.
-/
import proofs.«415961_j42803644072638_2_alg».proof.Proof.Spec

noncomputable section

namespace Cert.Spec

open Idealize.ShloMosaic

namespace Laws

/-! ## Reals inside the extended reals -/

/-- A finite sum of reals, read as an extended real, is the sum of its terms read as extended reals. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-! ## The two laws over the reals -/

/-- Matrix multiplication is associative and distributes over the bias row:
    x · (Wp · W) + bp · W = (x · Wp + bp) · W, read at one row of x and one column of W. -/
theorem real_assoc {K J H : Type} [Fintype K] [Fintype J] (x : K → ℝ) (Wp : K → J → ℝ) (bp : J → ℝ)
    (W : J → H → ℝ) (h : H) :
    (∑ k, x k * ∑ j, Wp k j * W j h) + ∑ j, bp j * W j h = ∑ j, ((∑ k, x k * Wp k j) + bp j) * W j h := by
  simp only [add_mul, Finset.sum_add_distrib, Finset.sum_mul, Finset.mul_sum, mul_assoc]
  rw [Finset.sum_comm]

/-- A sum over nodes weighted by the number of selected entries that name the node is the sum over the selected
    entries themselves. -/
theorem real_count {E N : Type} [Fintype E] [Fintype N] [DecidableEq N] (P : E → Prop) [DecidablePred P]
    (sN : E → N) (g : N → ℝ) :
    ∑ s, (∑ e ∈ Finset.univ.filter (fun e => P e ∧ sN e = s), (1 : ℝ)) * g s
      = ∑ e ∈ Finset.univ.filter P, g (sN e) := by
  have h1 : ∀ s, (∑ e ∈ Finset.univ.filter (fun e => P e ∧ sN e = s), (1 : ℝ)) * g s
      = ∑ e ∈ Finset.univ.filter P, if sN e = s then g s else 0 := by
    intro s
    rw [Finset.sum_mul, ← Finset.filter_filter, Finset.sum_filter (fun e => sN e = s)]
    refine Finset.sum_congr rfl (fun e _ => ?_)
    rw [one_mul]
  simp only [h1]
  rw [Finset.sum_comm]
  refine Finset.sum_congr rfl (fun e _ => ?_)
  rw [Finset.sum_ite_eq, if_pos (Finset.mem_univ _)]

/-- The count law at the edge list: with in-range words, a source word names exactly one node and a target word
    selected for node d names d. -/
theorem real_key (src dst : Fin 330000 → BitVec 32) (hsrc : InRange src) (hdst : InRange dst) (d : Fin 10000)
    (g dvr : Fin 10000 → ℝ) :
    (∑ s : Fin 10000, (∑ e ∈ Finset.univ.filter
        (fun e => (dst e).toInt = (d.val : Int) ∧ (src e).toInt = (s.val : Int)), (1 : ℝ)) * g s) * dvr d
      = ∑ e ∈ Finset.univ.filter (fun e => (dst e).toInt = (d.val : Int)),
          g (Cert.Gcn.crow 10000 (by decide) (src e)) * dvr (Cert.Gcn.crow 10000 (by decide) (dst e)) := by
  have hf : ∀ s : Fin 10000,
      Finset.univ.filter (fun e => (dst e).toInt = (d.val : Int) ∧ (src e).toInt = (s.val : Int))
        = Finset.univ.filter (fun e => (dst e).toInt = (d.val : Int) ∧ Cert.Gcn.crow 10000 (by decide) (src e) = s) := by
    intro s
    refine Finset.filter_congr (fun e _ => ?_)
    have hc := Cert.Gcn.crow_val_of_range (N := 10000) (by decide) (src e) (hsrc e).1
      (by have := (hsrc e).2; omega)
    constructor
    · rintro ⟨h1, h2⟩
      exact ⟨h1, Fin.ext (by omega)⟩
    · rintro ⟨h1, h2⟩
      refine ⟨h1, ?_⟩
      rw [← h2]
      exact hc.symm
  simp only [hf]
  rw [real_count (fun e => (dst e).toInt = (d.val : Int)) (fun e => Cert.Gcn.crow 10000 (by decide) (src e)) g,
    Finset.sum_mul]
  refine Finset.sum_congr rfl (fun e he => ?_)
  have hd : Cert.Gcn.crow 10000 (by decide) (dst e) = d := by
    have hc := Cert.Gcn.crow_val_of_range (N := 10000) (by decide) (dst e) (hdst e).1
      (by have := (hdst e).2; omega)
    have h1 := (Finset.mem_filter.mp he).2
    exact Fin.ext (by omega)
  rw [hd]

/-! ## The arrangements at real entries -/

variable (xr : Fin 10000 → Fin 128 → ℝ) (Wpr : Fin 128 → Fin 256 → ℝ) (bpr : Fin 256 → ℝ)
  (Wr : Fin 256 → Fin 256 → ℝ) (dvr : Fin 10000 → ℝ)

/-- ((x · Wp + bp) · W) over the reals. -/
def hwR (n : Fin 10000) (h : Fin 256) : ℝ := ∑ j, ((∑ k, xr n k * Wpr k j) + bpr j) * Wr j h

/-- The reference's projected rows at real entries. -/
theorem hw_coe (n : Fin 10000) (h : Fin 256) :
    hw (fun s k => (xr s k : EReal)) (fun k j => (Wpr k j : EReal)) (fun j => (bpr j : EReal))
      (fun j h => (Wr j h : EReal)) n h = ((hwR xr Wpr bpr Wr n h : ℝ) : EReal) := by
  unfold hw hwR
  simp only [EReal.coe_mul, EReal.coe_add, coe_sum]

/-- The kernel's scaled projected rows at real entries. -/
theorem hws_coe (s : Fin 10000) (h : Fin 256) :
    hws (fun s k => (xr s k : EReal)) (fun k j => (Wpr k j : EReal)) (fun j => (bpr j : EReal))
      (fun j h => (Wr j h : EReal)) (fun n => (dvr n : EReal)) s h
      = ((hwR xr Wpr bpr Wr s h * dvr s : ℝ) : EReal) := by
  unfold hws WpW bW hwR
  rw [← real_assoc (xr s) Wpr bpr Wr h]
  simp only [EReal.coe_mul, EReal.coe_add, coe_sum]

/-- An edge count is a real. -/
theorem cnt_coe (src dst : Fin 330000 → BitVec 32) (d s : Fin 10000) :
    cnt src dst d s = ((∑ e ∈ Finset.univ.filter
        (fun e => (dst e).toInt = (d.val : Int) ∧ (src e).toInt = (s.val : Int)), (1 : ℝ) : ℝ) : EReal) := by
  unfold cnt
  rw [coe_sum]
  simp only [EReal.coe_one]

end Laws

open Laws in
/-- Over real entries and an in-range edge list the kernel's arrangement is the reference's. -/
theorem outK_eq_outR (x : Mat 10000 128) (Wp : Mat 128 256) (bp : Vec1 256) (W : Mat 256 256) (dv : Vec1 10000)
    (src dst : Fin 330000 → BitVec 32) (bg : Vec1 256)
    (hx : ∀ s k, IsReal (x s k)) (hWp : ∀ k j, IsReal (Wp k j)) (hbp : ∀ j, IsReal (bp j))
    (hW : ∀ j h, IsReal (W j h)) (hdv : ∀ n, IsReal (dv n)) (hsrc : InRange src) (hdst : InRange dst)
    (d : Fin 10000) (h : Fin 256) :
    outK x Wp bp W dv (cnt src dst) bg d h = outR x Wp bp W dv src dst bg d h := by
  choose xr hxr using hx
  choose Wpr hWpr using hWp
  choose bpr hbpr using hbp
  choose Wr hWr using hW
  choose dvr hdvr using hdv
  obtain rfl : x = fun s k => (xr s k : EReal) := funext fun s => funext fun k => hxr s k
  obtain rfl : Wp = fun k j => (Wpr k j : EReal) := funext fun k => funext fun j => hWpr k j
  obtain rfl : bp = fun j => (bpr j : EReal) := funext fun j => hbpr j
  obtain rfl : W = fun j h => (Wr j h : EReal) := funext fun j => funext fun h => hWr j h
  obtain rfl : dv = fun n => (dvr n : EReal) := funext fun n => hdvr n
  -- the identity over the reals
  have key := real_key src dst hsrc hdst d (fun s => hwR xr Wpr bpr Wr s h * dvr s) dvr
  have key' := congrArg (fun r : ℝ => (r : EReal)) key
  simp only [EReal.coe_mul, coe_sum] at key'
  unfold outK outR
  refine congrArg (fun t => t + bg h) ?_
  simp only [hws_coe, hw_coe, cnt_coe, EReal.coe_mul, coe_sum]
  rw [key']
  refine Finset.sum_congr rfl (fun e _ => ?_)
  rw [mul_assoc]

end Cert.Spec

end
-- ==== Proof.SpecReal.lean ====
/-
  Entries that are real numbers: the evolved weight of real inputs, and dinv of any edge list; and the extended edge
  list is in range when the edge list is.
-/
import proofs.«415961_j42803644072638_2_alg».proof.Proof.Spec

noncomputable section

namespace Cert.Spec

open Idealize.ShloMosaic

/-! ## Closure of the reals inside the extended reals -/

/-- A real number, read as an extended real, is real. -/
theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

/-- The sum of two reals is real. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The product of two reals is real. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is real. -/
theorem isReal_sum {ι : Type} (s : Finset ι) (f : ι → EReal) (h : ∀ i ∈ s, IsReal (f i)) :
    IsReal (∑ i ∈ s, f i) :=
  Finset.sum_induction f IsReal (fun _ _ ha hb => IsReal.add ha hb) isReal_zero h

/-- The logistic of a real is the real 1 / (1 + e^(-x)). -/
theorem IsReal.logistic {a : EReal} (ha : IsReal a) : IsReal (Ideal.logistic a) := by
  obtain ⟨x, rfl⟩ := ha
  exact ⟨(1 + Real.exp (-x))⁻¹, Ideal.logistic_coe x⟩

/-- The hyperbolic tangent of a real is real. -/
theorem IsReal.tanh {a : EReal} (ha : IsReal a) : IsReal (Ideal.tanh a) := by
  obtain ⟨x, rfl⟩ := ha
  exact ⟨Real.tanh x, Ideal.tanh_coe x⟩

/-! ## The extended edge list is in range -/

/-- A node number below 10000, written as a 32-bit word and read back signed, is itself. -/
theorem toInt_ofNat_small (n : Nat) (hn : n < 10000) :
    0 ≤ (BitVec.ofNat 32 n).toInt ∧ (BitVec.ofNat 32 n).toInt < 10000 := by
  have hmod : n % 2 ^ 32 = n := Nat.mod_eq_of_lt (by omega)
  rw [BitVec.toInt_eq_toNat_cond, BitVec.toNat_ofNat, hmod]
  split <;> omega

/-- The extended source list is in range when the edge list is: a self loop's word is its node number. -/
theorem srcAll_inRange (ei : Fin 2 → Fin 320000 → BitVec 32)
    (h : ∀ a e, 0 ≤ (ei a e).toInt ∧ (ei a e).toInt < 10000) : InRange (srcAll ei) := by
  intro e
  unfold srcAll
  split
  · exact h 0 _
  · exact toInt_ofNat_small _ (by have := e.isLt; omega)

theorem dstAll_inRange (ei : Fin 2 → Fin 320000 → BitVec 32)
    (h : ∀ a e, 0 ≤ (ei a e).toInt ∧ (ei a e).toInt < 10000) : InRange (dstAll ei) := by
  intro e
  unfold dstAll
  split
  · exact h 1 _
  · exact toInt_ofNat_small _ (by have := e.isLt; omega)

/-! ## The evolved weight is real -/

/-- A gate pre-activation of real inputs is real: two dot products of reals and two real biases. -/
theorem gates_isReal (iw : Mat 256 256) (Wih Whh : Mat 1024 256) (bih bhh : Vec1 1024)
    (h1 : ∀ r k, IsReal (iw r k)) (h2 : ∀ q k, IsReal (Wih q k)) (h3 : ∀ q k, IsReal (Whh q k))
    (h4 : ∀ q, IsReal (bih q)) (h5 : ∀ q, IsReal (bhh q)) :
    ∀ r q, IsReal (gates iw Wih Whh bih bhh r q) := by
  intro r q
  unfold gates
  exact (((isReal_sum _ _ (fun k _ => (h1 r k).mul (h2 q k))).add (h4 q)).add
    (isReal_sum _ _ (fun k _ => (h1 r k).mul (h3 q k)))).add (h5 q)

/-- The evolved weight of real inputs is real: sums and products of reals, the logistic and tanh of a real. -/
theorem Wev_isReal (iw : Mat 256 256) (Wih Whh : Mat 1024 256) (bih bhh : Vec1 1024)
    (h1 : ∀ r k, IsReal (iw r k)) (h2 : ∀ q k, IsReal (Wih q k)) (h3 : ∀ q k, IsReal (Whh q k))
    (h4 : ∀ q, IsReal (bih q)) (h5 : ∀ q, IsReal (bhh q)) :
    ∀ r j, IsReal (Wev iw Wih Whh bih bhh r j) := by
  intro r j
  have hg := gates_isReal iw Wih Whh bih bhh h1 h2 h3 h4 h5
  unfold Wev
  exact (hg r (gcol 3 j)).logistic.mul
    ((((hg r (gcol 1 j)).logistic.mul (h1 r j)).add
      ((hg r (gcol 0 j)).logistic.mul (hg r (gcol 2 j)).tanh)).tanh)

/-! ## dinv is real -/

/-- A degree is real: a finite sum of ones. -/
theorem deg_isReal (dst : Fin 330000 → BitVec 32) (d : Fin 10000) : IsReal (deg dst d) := by
  unfold deg
  exact isReal_sum _ _ (fun _ _ => isReal_one)

/-- dinv is real: a degree is a count, and the inverse square root of a positive real is real. -/
theorem dinv_isReal (dst : Fin 330000 → BitVec 32) : ∀ d, IsReal (dinv dst d) := by
  intro d
  unfold dinv
  obtain ⟨x, hx⟩ := deg_isReal dst d
  by_cases hpos : 0 < deg dst d
  · rw [if_pos hpos, hx]
    have hx0 : (0 : ℝ) < x := by
      rw [hx] at hpos
      exact EReal.coe_pos.mp hpos
    rw [Ideal.rsqrt_coe, if_neg (not_lt.mpr hx0.le), if_neg hx0.ne']
    exact isReal_coe _
  · rw [if_neg hpos]
    exact isReal_zero

end Cert.Spec

end
-- ==== Proof.PreFacts.lean ====
/-
  What the precondition says of the arguments: every entry of the nine float arrays is a real number, and every word
  of the edge list, read signed, is a node number.
-/
import proofs.«415961_j42803644072638_2_alg».proof.Pre_finite_inputs
import proofs.«415961_j42803644072638_2_alg».proof.Proof.Spec
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs Cert.Spec

/-- The rank-0 shape has one index. -/
instance : Subsingleton S_.Idx := ⟨fun a b => funext fun d => d.elim0⟩

/-- An extended real whose absolute value is below +∞ is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have ht : Ideal.ofBits .f32 0x7F800000#32 = ⊤ := by simp [Ideal.ofBits, Ideal.ieee]
  change Ideal.cmp .olt (max x (-x)) (Ideal.ofBits .f32 0x7F800000#32) = 1#1 at h
  rw [ht] at h
  induction x using EReal.rec with
  | bot => simp [Ideal.cmp] at h
  | top => simp [Ideal.cmp] at h
  | coe r => exact ⟨r, rfl⟩

/-- `jnp.all(|a| < +∞)` read at an index: every entry of `a` is a real number. -/
theorem real_of_all {s : Shape} {axes : List (Fin s.rank)} (a : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi (cmpf .olt (Host.absf a) (broadcastInDim s ![] hb (constant (F := Ideal) S_ .f32 0x7F800000#32)))
      init hr h0 j = 1#1) (i : s.Idx) : IsReal (a i) :=
  isReal_of_abs_lt_inf (a i) (Host.reduce_andi_all _ init hr h0 j e i)

/-- `jnp.all((w ≥ 0) & (w < 10000))` read at an index: every word, read signed, is in `[0, 10000)`. -/
theorem range_of_all {s : Shape} {axes : List (Fin s.rank)} (w : IVec s 32)
    (hb : S_.BroadcastsInDim s (![] : Fin 0 → Fin s.rank)) (hr : s.ReducesTo axes S_) (h0 : 0 < S_.numel)
    (init : IVec S_ 1) (j : S_.Idx)
    (e : Host.reduce IntOp.andi
      (andi (cmpi .sge w (broadcastInDim s ![] hb (constantI S_ 32 0#32)))
        (cmpi .slt w (broadcastInDim s ![] hb (constantI S_ 32 10000#32))))
      init hr h0 j = 1#1) (i : s.Idx) : 0 ≤ (w i).toInt ∧ (w i).toInt < 10000 := by
  have hi := Host.reduce_andi_all _ init hr h0 j e i
  obtain ⟨h1, h2⟩ := IntOp.andi_eq_one.1 hi
  have h1' := IntOp.cmpi_sge.1 h1
  have h2' := IntOp.cmpi_slt.1 h2
  have z0 : (0#32 : BitVec 32).toInt = 0 := by decide
  have z1 : (10000#32 : BitVec 32).toInt = 10000 := by decide
  exact ⟨z0 ▸ h1', z1 ▸ h2'⟩

/-- The precondition read off: finiteness of each float array, and the range of the edge list. -/
theorem of_pre [Cert.Pre_finite_inputs.Facts]
    (a0 : FVec Ideal S10000x128 .f32) (a1 : IVec S2x320000 32) (a2 : FVec Ideal S128x256 .f32) (a3 : FVec Ideal S256 .f32)
    (a4 : FVec Ideal S1024x256 .f32) (a5 : FVec Ideal S1024x256 .f32) (a6 : FVec Ideal S1024 .f32) (a7 : FVec Ideal S1024 .f32)
    (a8 : FVec Ideal S256x256 .f32) (a9 : FVec Ideal S256 .f32)
    (h : Cert.Pre_finite_inputs.fn (F := Ideal) a0 a1 a2 a3 a4 a5 a6 a7 a8 a9 = fun _ => 1#1) :
    (∀ i, IsReal (a0 i)) ∧ (∀ i, 0 ≤ (a1 i).toInt ∧ (a1 i).toInt < 10000) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) := by
  have e := congrFun h ValueIdx.ix0
  dsimp only [fn, fn_part1, fn_part2, andi] at e
  -- the ten conjuncts, joined left to right
  obtain ⟨e, e1⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨real_of_all a0 _ _ _ _ _ e0, range_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7, real_of_all a8 _ _ _ _ _ e8,
    real_of_all a9 _ _ _ _ _ e9⟩

end Cert.PreFacts

end
-- ==== Proof.Assemble.lean ====
/-
  The claims. Under the precondition every float input is a real number and every edge word is a node number, so the
  extended edge list is in range, the evolved weight and dinv are real, and the kernel's arrangement of the result
  (edge counts times the scaled projection, scaled again, plus the bias) equals the reference's sum over the edges.
  The kernel program's result array is read off its run at the last boundary, the reference's off its run's last
  stage; the frames are the programs' runs with the results dropped.
-/
import proofs.«415961_j42803644072638_2_alg».proof.Defs
import proofs.«415961_j42803644072638_2_alg».proof.Proof.Gen.Pre_finite_inputs
import proofs.«415961_j42803644072638_2_alg».proof.Proof.Gen.Kernel.Frame
import proofs.«415961_j42803644072638_2_alg».proof.Proof.Gen.KernelIdeal.Frame
import proofs.«415961_j42803644072638_2_alg».proof.Proof.KRun
import proofs.«415961_j42803644072638_2_alg».proof.Proof.KFold
import proofs.«415961_j42803644072638_2_alg».proof.Proof.RTail
import proofs.«415961_j42803644072638_2_alg».proof.Proof.SpecLaws
import proofs.«415961_j42803644072638_2_alg».proof.Proof.SpecReal
import proofs.«415961_j42803644072638_2_alg».proof.Proof.PreFacts

noncomputable section

namespace Cert.Proof.Claims

open Idealize.ShloMosaic Idealize.ShloMosaic.TcCoe Idealize.SL.Sem Idealize.ShloMosaic.ValueIdx
open Cert.KernelIdeal.Gen

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end, the kernel program's result array at the specification's kernel arrangement and the
    reference's at its edge sum, which are equal over real entries and an in-range edge list. -/
theorem algebraic : Cert.algebraic_KernelIdeal_ReferenceIdeal := by
  intro m ρ m' ρ' hpre hagree
  refine ⟨fun c => W8 m ρ c (Proc.devRef .tc Cert.KernelIdeal.main_v41), run_out m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v89_eq, e0, e1, e2, e3, e4, e5, e6, e7, e8, e9]
  funext i
  obtain ⟨d, h, rfl⟩ : ∃ (d : Fin 10000) (h : Fin 256), i = ix2 d h := ⟨i 0, i 1, eq_ix2 i⟩
  -- what the precondition says of the arguments
  obtain ⟨p0, p1, p2, p3, p4, p5, p6, p7, p8, p9⟩ := Cert.PreFacts.of_pre _ _ _ _ _ _ _ _ _ _ (hpre c)
  have hei : ∀ a e, 0 ≤ (aEi m c a e).toInt ∧ (aEi m c a e).toInt < 10000 := fun a e => p1 (ix2 a e)
  have hsrc : Cert.Spec.InRange (aSrc m c) := Cert.Spec.srcAll_inRange (aEi m c) hei
  have hdst : Cert.Spec.InRange (aDst m c) := Cert.Spec.dstAll_inRange (aEi m c) hei
  have hW : ∀ j h, Cert.Spec.IsReal (aW m c j h) :=
    Cert.Spec.Wev_isReal (aIw m c) (aWih m c) (aWhh m c) (aBih m c) (aBhh m c)
      (fun r k => p8 (ix2 r k)) (fun q k => p4 (ix2 q k)) (fun q k => p5 (ix2 q k))
      (fun q => p6 (ix1 q)) (fun q => p7 (ix1 q))
  refine (Cert.RefValue.v89_eq _ _ _ _ _ _ _ _ _ _ hsrc hdst d h).trans ?_
  refine Eq.trans ?_ (kernel_out m ρ c hsrc hdst d h).symm
  exact (Cert.Spec.outK_eq_outR (aX m c) (aWp m c) (aBp m c) (aW m c) (Cert.Spec.dinv (aDst m c))
    (aSrc m c) (aDst m c) (aBg m c) (fun s k => p0 (ix2 s k)) (fun k j => p2 (ix2 k j)) (fun j => p3 (ix1 j))
    hW (Cert.Spec.dinv_isReal (aDst m c)) hsrc hdst d h).symm

end Cert.Proof.Claims

end
-- ==== Proof.lean ====
/- The proof of `Cert.Claim`: the kernel program (an LSTM step evolving a graph convolution's weight, a projection
   scaled by the inverse square roots of the in-degrees, and a dense aggregation over the matrix of edge counts) and
   the reference (gathers and sums over the edge list) compute the same rows over the extended reals, for finite float
   inputs and an edge list of node numbers. The three frames, the ideal pass's empty ledger, and the value claim are
   in Proof/Assemble.lean; the witnesses of the programs' stated facts are the generated instances. -/
import proofs.«415961_j42803644072638_2_alg».proof.Defs
import proofs.«415961_j42803644072638_2_alg».proof.Proof.Gen.Kernel
import proofs.«415961_j42803644072638_2_alg».proof.Proof.Gen.KernelIdeal
import proofs.«415961_j42803644072638_2_alg».proof.Proof.Gen.ReferenceIdeal
import proofs.«415961_j42803644072638_2_alg».proof.Proof.Gen.Pre_finite_inputs
import proofs.«415961_j42803644072638_2_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
